-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4 : Shape := ⟨2, ![4096, 4]⟩
abbrev S38279x16 : Shape := ⟨2, ![38279, 16]⟩
abbrev S38279x1 : Shape := ⟨2, ![38279, 1]⟩
abbrev S4 : Shape := ⟨1, ![4]⟩
abbrev S_ : Shape := ⟨0, ![]⟩
abbrev S1x4 : Shape := ⟨2, ![1, 4]⟩

class Facts : Prop where
  bcast_S_S38279x16 : S_.BroadcastsInDim S38279x16 (![] : Fin 0 → Fin S38279x16.rank)
  reducesTo_S38279x16_S_d0_1 : S38279x16.ReducesTo [0, 1] S_
  h_S_ : 0 < S_.numel
  bcast_S_S38279x1 : S_.BroadcastsInDim S38279x1 (![] : Fin 0 → Fin S38279x1.rank)
  reducesTo_S38279x1_S_d0_1 : S38279x1.ReducesTo [0, 1] S_
  bcast_S_S4096x4 : S_.BroadcastsInDim S4096x4 (![] : Fin 0 → Fin S4096x4.rank)
  reducesTo_S4096x4_S_d0_1 : S4096x4.ReducesTo [0, 1] S_
  bcast_S4_S1x4_1 : S4.BroadcastsInDim S1x4 (![1] : Fin 1 → Fin S1x4.rank)
  bcast_S1x4_S4096x4_0_1 : S1x4.BroadcastsInDim S4096x4 (![0, 1] : Fin 2 → Fin S4096x4.rank)

variable [Facts]

abbrev lit0 : Fin 4 → BitVec 32 := fun
  | 0 => 31360#32 | 1 => 6807#32 | 2 => 18#32 | 3 => 94#32
  | _ => 0#32

def fn_part1 {F : FTy → Type} [FloatOps F] (main_v12 : IVec S_ 1) (main_v15 : IVec S4096x4 1) (main_c_5 : IVec S_ 1) : IVec S_ 1 :=
  let main_v16 : IVec S_ 1 := (fun x v => Host.reduce IntOp.andi x v reducesTo_S4096x4_S_d0_1 h_S_) main_v15 main_c_5
  let main_v17 : IVec S_ 1 := andi main_v12 main_v16
  main_v17

def fn {F : FTy → Type} [FloatOps F] (main_arg0 : IVec S4096x4 32) (main_arg1 : FVec F S38279x16 .f32) (main_arg2 : FVec F S38279x1 .f32) : IVec S_ 1 :=
  let main_c : IVec S4 32 := fun i => lit0 (S4.rowMajor i)
  let main_v0 : FVec F S38279x16 .f32 := Host.absf main_arg1
  let main_cst : FVec F S_ .f32 := constant S_ .f32 0x7F800000#32
  let main_v1 : FVec F S38279x16 .f32 := broadcastInDim S38279x16 ![] bcast_S_S38279x16 main_cst
  let main_v2 : IVec S38279x16 1 := cmpf .olt main_v0 main_v1
  let main_c_0 : IVec S_ 1 := constantI S_ 1 1#1
  let main_v3 : IVec S_ 1 := (fun x v => Host.reduce IntOp.andi x v reducesTo_S38279x16_S_d0_1 h_S_) main_v2 main_c_0
  let main_v4 : FVec F S38279x1 .f32 := Host.absf main_arg2
  let main_cst_1 : FVec F S_ .f32 := constant S_ .f32 0x7F800000#32
  let main_v5 : FVec F S38279x1 .f32 := broadcastInDim S38279x1 ![] bcast_S_S38279x1 main_cst_1
  let main_v6 : IVec S38279x1 1 := cmpf .olt main_v4 main_v5
  let main_c_2 : IVec S_ 1 := constantI S_ 1 1#1
  let main_v7 : IVec S_ 1 := (fun x v => Host.reduce IntOp.andi x v reducesTo_S38279x1_S_d0_1 h_S_) main_v6 main_c_2
  let main_v8 : IVec S_ 1 := andi main_v3 main_v7
  let main_c_3 : IVec S_ 32 := constantI S_ 32 0#32
  let main_v9 : IVec S4096x4 32 := broadcastInDim S4096x4 ![] bcast_S_S4096x4 main_c_3
  let main_v10 : IVec S4096x4 1 := cmpi .sge main_arg0 main_v9
  let main_c_4 : IVec S_ 1 := constantI S_ 1 1#1
  let main_v11 : IVec S_ 1 := (fun x v => Host.reduce IntOp.andi x v reducesTo_S4096x4_S_d0_1 h_S_) main_v10 main_c_4
  let main_v12 : IVec S_ 1 := andi main_v8 main_v11
  let main_v13 : IVec S1x4 32 := broadcastInDim S1x4 ![1] bcast_S4_S1x4_1 main_c
  let main_v14 : IVec S4096x4 32 := broadcastInDim S4096x4 ![0, 1] bcast_S1x4_S4096x4_0_1 main_v13
  let main_v15 : IVec S4096x4 1 := cmpi .slt main_arg0 main_v14
  let main_c_5 : IVec S_ 1 := constantI S_ 1 1#1
  fn_part1 (F := F) main_v12 main_v15 main_c_5
-- ==== Kernel.lean ====
abbrev S4096x4 : Shape := ⟨2, ![4096, 4]⟩
abbrev S38279x16 : Shape := ⟨2, ![38279, 16]⟩
abbrev S38279x1 : Shape := ⟨2, ![38279, 1]⟩
abbrev S38279x33 : Shape := ⟨2, ![38279, 33]⟩
abbrev S31360x33 : Shape := ⟨2, ![31360, 33]⟩
abbrev S_ : Shape := ⟨0, ![]⟩
abbrev S32768x33 : Shape := ⟨2, ![32768, 33]⟩
abbrev S33x32768 : Shape := ⟨2, ![33, 32768]⟩
abbrev S48x32768 : Shape := ⟨2, ![48, 32768]⟩
abbrev S6807x33 : Shape := ⟨2, ![6807, 33]⟩
abbrev S8192x33 : Shape := ⟨2, ![8192, 33]⟩
abbrev S33x8192 : Shape := ⟨2, ![33, 8192]⟩
abbrev S48x8192 : Shape := ⟨2, ![48, 8192]⟩
abbrev S18x33 : Shape := ⟨2, ![18, 33]⟩
abbrev S128x33 : Shape := ⟨2, ![128, 33]⟩
abbrev S33x128 : Shape := ⟨2, ![33, 128]⟩
abbrev S48x128 : Shape := ⟨2, ![48, 128]⟩
abbrev S94x33 : Shape := ⟨2, ![94, 33]⟩
abbrev S4096x1 : Shape := ⟨2, ![4096, 1]⟩
abbrev S512x4 : Shape := ⟨2, ![512, 4]⟩
abbrev S512x1 : Shape := ⟨2, ![512, 1]⟩
abbrev S512x48 : Shape := ⟨2, ![512, 48]⟩
abbrev S48x4096 : Shape := ⟨2, ![48, 4096]⟩
abbrev S512x4096 : Shape := ⟨2, ![512, 4096]⟩
abbrev S512x128 : Shape := ⟨2, ![512, 128]⟩
abbrev S512x16 : Shape := ⟨2, ![512, 16]⟩
abbrev S512 : Shape := ⟨1, ![512]⟩

abbrev nBuf : Space → Nat
  | .hbm => 42
  | .vmem => 9
  | .smem => 0
  | _ => 0

abbrev bufTy : (tb : Table) → Fin (tcTables nBuf tb) → BufTy
  | .hbm, ⟨0, _⟩ => ⟨S4096x4, .i32⟩
  | .hbm, ⟨1, _⟩ => ⟨S38279x16, .f32⟩
  | .hbm, ⟨2, _⟩ => ⟨S38279x1, .f32⟩
  | .hbm, ⟨3, _⟩ => ⟨S38279x16, .f32⟩
  | .hbm, ⟨4, _⟩ => ⟨S38279x33, .f32⟩
  | .hbm, ⟨5, _⟩ => ⟨S31360x33, .f32⟩
  | .hbm, ⟨6, _⟩ => ⟨S_, .i32⟩
  | .hbm, ⟨7, _⟩ => ⟨S_, .f32⟩
  | .hbm, ⟨8, _⟩ => ⟨S32768x33, .f32⟩
  | .hbm, ⟨9, _⟩ => ⟨S32768x33, .bf16⟩
  | .hbm, ⟨10, _⟩ => ⟨S33x32768, .bf16⟩
  | .hbm, ⟨11, _⟩ => ⟨S_, .i32⟩
  | .hbm, ⟨12, _⟩ => ⟨S_, .bf16⟩
  | .hbm, ⟨13, _⟩ => ⟨S48x32768, .bf16⟩
  | .hbm, ⟨14, _⟩ => ⟨S6807x33, .f32⟩
  | .hbm, ⟨15, _⟩ => ⟨S_, .i32⟩
  | .hbm, ⟨16, _⟩ => ⟨S_, .f32⟩
  | .hbm, ⟨17, _⟩ => ⟨S8192x33, .f32⟩
  | .hbm, ⟨18, _⟩ => ⟨S8192x33, .bf16⟩
  | .hbm, ⟨19, _⟩ => ⟨S33x8192, .bf16⟩
  | .hbm, ⟨20, _⟩ => ⟨S_, .i32⟩
  | .hbm, ⟨21, _⟩ => ⟨S_, .bf16⟩
  | .hbm, ⟨22, _⟩ => ⟨S48x8192, .bf16⟩
  | .hbm, ⟨23, _⟩ => ⟨S18x33, .f32⟩
  | .hbm, ⟨24, _⟩ => ⟨S_, .i32⟩
  | .hbm, ⟨25, _⟩ => ⟨S_, .f32⟩
  | .hbm, ⟨26, _⟩ => ⟨S128x33, .f32⟩
  | .hbm, ⟨27, _⟩ => ⟨S128x33, .bf16⟩
  | .hbm, ⟨28, _⟩ => ⟨S33x128, .bf16⟩
  | .hbm, ⟨29, _⟩ => ⟨S_, .i32⟩
  | .hbm, ⟨30, _⟩ => ⟨S_, .bf16⟩
  | .hbm, ⟨31, _⟩ => ⟨S48x128, .bf16⟩
  | .hbm, ⟨32, _⟩ => ⟨S94x33, .f32⟩
  | .hbm, ⟨33, _⟩ => ⟨S_, .i32⟩
  | .hbm, ⟨34, _⟩ => ⟨S_, .f32⟩
  | .hbm, ⟨35, _⟩ => ⟨S128x33, .f32⟩
  | .hbm, ⟨36, _⟩ => ⟨S128x33, .bf16⟩
  | .hbm, ⟨37, _⟩ => ⟨S33x128, .bf16⟩
  | .hbm, ⟨38, _⟩ => ⟨S_, .i32⟩
  | .hbm, ⟨39, _⟩ => ⟨S_, .bf16⟩
  | .hbm, ⟨40, _⟩ => ⟨S48x128, .bf16⟩
  | .hbm, ⟨41, _⟩ => ⟨S4096x1, .f32⟩
  | .local _ .vmem, ⟨0, _⟩ => ⟨S512x4, .i32⟩
  | .local _ .vmem, ⟨1, _⟩ => ⟨S512x4, .i32⟩
  | .local _ .vmem, ⟨2, _⟩ => ⟨S48x32768, .bf16⟩
  | .local _ .vmem, ⟨3, _⟩ => ⟨S48x8192, .bf16⟩
  | .local _ .vmem, ⟨4, _⟩ => ⟨S48x128, .bf16⟩
  | .local _ .vmem, ⟨5, _⟩ => ⟨S48x128, .bf16⟩
  | .local _ .vmem, ⟨6, _⟩ => ⟨S512x1, .f32⟩
  | .local _ .vmem, ⟨7, _⟩ => ⟨S512x1, .f32⟩
  | .local _ .vmem, ⟨8, _⟩ => ⟨S512x48, .f32⟩
  | _, _ => ⟨S4096x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call2_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_call3_v0 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_call4_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_call5_v0 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_call6_v0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_6 : Ref sig .tc := ⟨.hbm, 38, rfl⟩
abbrev main_call7_v0 : Ref sig .tc := ⟨.hbm, 39, rfl⟩
abbrev main_v21 : Ref sig .tc := ⟨.hbm, 40, rfl⟩
abbrev main_v22 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v6 : BitVec 32 := Scalar.addi c0_i32 c8_i32
  let c1_i32 : BitVec 32 := 1#32
  ⟨c0_i32, v6, c1_i32⟩
def k0_mult1 (k0_t1 : Fin k0_t1_loop.trips) : BitVec 32 :=
  let c0_i32_28 : BitVec 32 := 0#32
  let c0_i32 : BitVec 32 := 0#32
  let c1_i32 : BitVec 32 := 1#32
  let arg8 : BitVec 32 := Scf.iv c0_i32 c1_i32 k0_t1
  let c1_i32_27 : BitVec 32 := 1#32
  let v52 : BitVec 32 := Scalar.muli arg8 c1_i32_27
  let v53 : BitVec 32 := Scalar.addi c0_i32_28 v52
  let c4096_i32 : BitVec 32 := 4096#32
  let v54 : BitVec 32 := Scalar.muli v53 c4096_i32
  v54
def k0_off1 (k0_t1 : Fin k0_t1_loop.trips) : Fin 2 → Nat :=
  let c0_29 : Index := 0#32
  let c0_i32_28 : BitVec 32 := 0#32
  let c0_i32 : BitVec 32 := 0#32
  let c1_i32 : BitVec 32 := 1#32
  let arg8 : BitVec 32 := Scf.iv c0_i32 c1_i32 k0_t1
  let c1_i32_27 : BitVec 32 := 1#32
  let v52 : BitVec 32 := Scalar.muli arg8 c1_i32_27
  let v53 : BitVec 32 := Scalar.addi c0_i32_28 v52
  let c4096_i32 : BitVec 32 := 4096#32
  let v54 : BitVec 32 := Scalar.muli v53 c4096_i32
  let v55 : BitVec 32 := v54
  let v56 : Index := Scalar.indexCast v55
  ![0, v56.toNat]
@[reducible] def k0_t2_loop : Scf.Loop 32 :=
  let c0_i32_4 : BitVec 32 := 0#32
  let c2_i32 : BitVec 32 := 2#32
  let v8 : BitVec 32 := Scalar.addi c0_i32_4 c2_i32
  let c1_i32_5 : BitVec 32 := 1#32
  ⟨c0_i32_4, v8, c1_i32_5⟩
def k0_mult2 (k0_t2 : Fin k0_t2_loop.trips) : BitVec 32 :=
  let c0_i32_28 : BitVec 32 := 0#32
  let c0_i32_4 : BitVec 32 := 0#32
  let c1_i32_5 : BitVec 32 := 1#32
  let arg8 : BitVec 32 := Scf.iv c0_i32_4 c1_i32_5 k0_t2
  let c1_i32_27 : BitVec 32 := 1#32
  let v52 : BitVec 32 := Scalar.muli arg8 c1_i32_27
  let v53 : BitVec 32 := Scalar.addi c0_i32_28 v52
  let c4096_i32 : BitVec 32 := 4096#32
  let v54 : BitVec 32 := Scalar.muli v53 c4096_i32
  v54
def k0_off2 (k0_t2 : Fin k0_t2_loop.trips) : Fin 2 → Nat :=
  let c0_29 : Index := 0#32
  let c0_i32_28 : BitVec 32 := 0#32
  let c0_i32_4 : BitVec 32 := 0#32
  let c1_i32_5 : BitVec 32 := 1#32
  let arg8 : BitVec 32 := Scf.iv c0_i32_4 c1_i32_5 k0_t2
  let c1_i32_27 : BitVec 32 := 1#32
  let v52 : BitVec 32 := Scalar.muli arg8 c1_i32_27
  let v53 : BitVec 32 := Scalar.addi c0_i32_28 v52
  let c4096_i32 : BitVec 32 := 4096#32
  let v54 : BitVec 32 := Scalar.muli v53 c4096_i32
  let v55 : BitVec 32 := v54
  let v56 : Index := Scalar.indexCast v55
  ![0, v56.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x32768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S48x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S48x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S38279x16_S38279x16_S38279x1_S38279x33_d1 : Shape.Concatenates [S38279x16, S38279x16, S38279x1] S38279x33 1
  slices_S38279x33_S31360x33_0_0 : S38279x33.Slices ![0, 0] S31360x33
  pads_S31360x33_S32768x33_014080_000 : S31360x33.Pads (![0, 0] : Fin 2 → Nat) ![1408, 0] ![0, 0] S32768x33
  h_S_ : 0 < S_.numel
  bitsLt_bf16_f32 : FTy.bits .bf16 < FTy.bits .f32
  transposes_S32768x33_S33x32768_1_0 : S32768x33.Transposes [1, 0] S33x32768
  pads_S33x32768_S48x32768_0150_000 : S33x32768.Pads (![0, 0] : Fin 2 → Nat) ![15, 0] ![0, 0] S48x32768
  slices_S38279x33_S6807x33_31360_0 : S38279x33.Slices ![31360, 0] S6807x33
  pads_S6807x33_S8192x33_013850_000 : S6807x33.Pads (![0, 0] : Fin 2 → Nat) ![1385, 0] ![0, 0] S8192x33
  transposes_S8192x33_S33x8192_1_0 : S8192x33.Transposes [1, 0] S33x8192
  pads_S33x8192_S48x8192_0150_000 : S33x8192.Pads (![0, 0] : Fin 2 → Nat) ![15, 0] ![0, 0] S48x8192
  slices_S38279x33_S18x33_38167_0 : S38279x33.Slices ![38167, 0] S18x33
  pads_S18x33_S128x33_01100_000 : S18x33.Pads (![0, 0] : Fin 2 → Nat) ![110, 0] ![0, 0] S128x33
  transposes_S128x33_S33x128_1_0 : S128x33.Transposes [1, 0] S33x128
  pads_S33x128_S48x128_0150_000 : S33x128.Pads (![0, 0] : Fin 2 → Nat) ![15, 0] ![0, 0] S48x128
  slices_S38279x33_S94x33_38185_0 : S38279x33.Slices ![38185, 0] S94x33
  pads_S94x33_S128x33_0340_000 : S94x33.Pads (![0, 0] : Fin 2 → Nat) ![34, 0] ![0, 0] S128x33
  inb_S512x48_S512x48_0_0 : ∀ a, (![0, 0] : Fin 2 → Nat) a + S512x48.size a ≤ S512x48.size a
  h_S512x48 : 0 < S512x48.numel
  shapeCasts_S512x48_S512x48 : S512x48.ShapeCasts S512x48
  inb_S512x4_S512x4_0_0 : ∀ a, (![0, 0] : Fin 2 → Nat) a + S512x4.size a ≤ S512x4.size a
  h_S512x4 : 0 < S512x4.numel
  slices_S512x4_o0_0_S512x1 : S512x4.Slices ![0, 0] S512x1
  h_S48x4096 : 0 < S48x4096.numel
  shapeCasts_S48x4096_S48x4096 : S48x4096.ShapeCasts S48x4096
  iota_S512x4096_d1_w32 : S512x4096.Iotas .tc 32 [1]
  broadcasts_S512x1_S512x4096 : S512x1.Broadcasts S512x4096
  natLt_1_32 : 1 < 32
  slices_S512x4_o0_1_S512x1 : S512x4.Slices ![0, 1] S512x1
  slices_S512x4_o0_2_S512x1 : S512x4.Slices ![0, 2] S512x1
  inb_S48x128_S48x128_0_0 : ∀ a, (![0, 0] : Fin 2 → Nat) a + S48x128.size a ≤ S48x128.size a
  h_S48x128 : 0 < S48x128.numel
  shapeCasts_S48x128_S48x128 : S48x128.ShapeCasts S48x128
  iota_S512x128_d1_w32 : S512x128.Iotas .tc 32 [1]
  broadcasts_S512x1_S512x128 : S512x1.Broadcasts S512x128
  slices_S512x4_o0_3_S512x1 : S512x4.Slices ![0, 3] S512x1
  slices_S512x48_o0_0_S512x16 : S512x48.Slices ![0, 0] S512x16
  slices_S512x48_o0_16_S512x16 : S512x48.Slices ![0, 16] S512x16
  slices_S512x48_o0_32_S512x1 : S512x48.Slices ![0, 32] S512x1
  reduces_S512x16_S512 : S512x16.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  dot_S512x4096_S48x4096_S512x48_1_1_0_0_n_n_wf : DotDims.WF S512x4096 S48x4096 S512x48 [1] [1] [0] [0] [] []
  dot_S512x128_S48x128_S512x48_1_1_0_0_n_n_wf : DotDims.WF S512x128 S48x128 S512x48 [1] [1] [0] [0] [] []
  hrank0 : 0 < grid0.rank
  k0_t1_ok : k0_t1_loop.OK
  k0_mult1_dvd : ∀ k0_t1 : Fin k0_t1_loop.trips, 4096 ∣ (k0_mult1 k0_t1).toNat
  k0_off1_inb : ∀ k0_t1 : Fin k0_t1_loop.trips, ∀ a, (k0_off1 k0_t1) a + S48x4096.size a ≤ S48x32768.size a
  k0_t2_ok : k0_t2_loop.OK
  k0_mult2_dvd : ∀ k0_t2 : Fin k0_t2_loop.trips, 4096 ∣ (k0_mult2 k0_t2).toNat
  k0_off2_inb : ∀ k0_t2 : Fin k0_t2_loop.trips, ∀ a, (k0_off2 k0_t2) a + S48x4096.size a ≤ S48x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4.size a ≤ S4096x4.size a
  hwx0_0 : ∀ i : grid0.Coords, EltTy.bits .i32 = 32 ∨ (Rect.block (s := S4096x4) S512x4.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S48x32768.size a ≤ S48x32768.size a
  hwx0_1 : ∀ i : grid0.Coords, EltTy.bits .bf16 = 32 ∨ (Rect.block (s := S48x32768) S48x32768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S48x8192.size a ≤ S48x8192.size a
  hwx0_2 : ∀ i : grid0.Coords, EltTy.bits .bf16 = 32 ∨ (Rect.block (s := S48x8192) S48x8192.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S48x128.size a ≤ S48x128.size a
  hwx0_3 : ∀ i : grid0.Coords, EltTy.bits .bf16 = 32 ∨ (Rect.block (s := S48x128) S48x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S48x128.size a ≤ S48x128.size a
  hwx0_4 : ∀ i : grid0.Coords, EltTy.bits .bf16 = 32 ∨ (Rect.block (s := S48x128) S48x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)

variable [Facts₀]

def dot_S512x4096_S48x4096_S512x48_1_1_0_0_n_n : DotDims S512x4096 S48x4096 S512x48 where
  lhsContracting := [1]
  rhsContracting := [1]
  lhsNonContracting := [0]
  rhsNonContracting := [0]
  lhsBatch := []
  rhsBatch := []
  wf := dot_S512x4096_S48x4096_S512x48_1_1_0_0_n_n_wf
def dot_S512x128_S48x128_S512x48_1_1_0_0_n_n : DotDims S512x128 S48x128 S512x48 where
  lhsContracting := [1]
  rhsContracting := [1]
  lhsNonContracting := [0]
  rhsNonContracting := [0]
  lhsBatch := []
  rhsBatch := []
  wf := dot_S512x128_S48x128_S512x48_1_1_0_0_n_n_wf

abbrev win0_0 : Pipeline.Window sig grid0 :=
  Pipeline.Window.ofSpec (Memref.whole main_arg0) S512x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S48x32768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S48x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S48x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S48x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x4 : Shape := ⟨2, ![4096, 4]⟩
abbrev S38279x16 : Shape := ⟨2, ![38279, 16]⟩
abbrev S38279x1 : Shape := ⟨2, ![38279, 1]⟩
abbrev S4 : Shape := ⟨1, ![4]⟩
abbrev S1x4 : Shape := ⟨2, ![1, 4]⟩
abbrev S_ : Shape := ⟨0, ![]⟩
abbrev S4096x4x1 : Shape := ⟨3, ![4096, 4, 1]⟩
abbrev S4096x4x2 : Shape := ⟨3, ![4096, 4, 2]⟩
abbrev S4096 : Shape := ⟨1, ![4096]⟩
abbrev S4096x38279 : Shape := ⟨2, ![4096, 38279]⟩
abbrev S4096x1 : Shape := ⟨2, ![4096, 1]⟩
abbrev S4096x16 : Shape := ⟨2, ![4096, 16]⟩

abbrev nBuf : Space → Nat
  | .hbm => 69
  | .vmem => 0
  | .smem => 0
  | _ => 0

abbrev bufTy : (tb : Table) → Fin (tcTables nBuf tb) → BufTy
  | .hbm, ⟨0, _⟩ => ⟨S4096x4, .i32⟩
  | .hbm, ⟨1, _⟩ => ⟨S38279x16, .f32⟩
  | .hbm, ⟨2, _⟩ => ⟨S38279x1, .f32⟩
  | .hbm, ⟨3, _⟩ => ⟨S4, .i32⟩
  | .hbm, ⟨4, _⟩ => ⟨S1x4, .i32⟩
  | .hbm, ⟨5, _⟩ => ⟨S4096x4, .i32⟩
  | .hbm, ⟨6, _⟩ => ⟨S4096x4, .i32⟩
  | .hbm, ⟨7, _⟩ => ⟨S_, .i32⟩
  | .hbm, ⟨8, _⟩ => ⟨S4096x4, .i32⟩
  | .hbm, ⟨9, _⟩ => ⟨S4096x4, .i1⟩
  | .hbm, ⟨10, _⟩ => ⟨S_, .i32⟩
  | .hbm, ⟨11, _⟩ => ⟨S4096x4, .i32⟩
  | .hbm, ⟨12, _⟩ => ⟨S4096x4, .i32⟩
  | .hbm, ⟨13, _⟩ => ⟨S4096x4, .i32⟩
  | .hbm, ⟨14, _⟩ => ⟨S_, .i32⟩
  | .hbm, ⟨15, _⟩ => ⟨S4096x4, .i32⟩
  | .hbm, ⟨16, _⟩ => ⟨S4096x4, .i32⟩
  | .hbm, ⟨17, _⟩ => ⟨S4096x4x1, .i32⟩
  | .hbm, ⟨18, _⟩ => ⟨S4096x4x1, .i32⟩
  | .hbm, ⟨19, _⟩ => ⟨S4096x4x2, .i32⟩
  | .hbm, ⟨20, _⟩ => ⟨S4096x4, .f32⟩
  | .hbm, ⟨21, _⟩ => ⟨S_, .f32⟩
  | .hbm, ⟨22, _⟩ => ⟨S4096, .f32⟩
  | .hbm, ⟨23, _⟩ => ⟨S_, .f32⟩
  | .hbm, ⟨24, _⟩ => ⟨S4096x38279, .f32⟩
  | .hbm, ⟨25, _⟩ => ⟨S4096, .i32⟩
  | .hbm, ⟨26, _⟩ => ⟨S4096x1, .i32⟩
  | .hbm, ⟨27, _⟩ => ⟨S_, .i32⟩
  | .hbm, ⟨28, _⟩ => ⟨S4096x1, .i32⟩
  | .hbm, ⟨29, _⟩ => ⟨S4096x1, .i1⟩
  | .hbm, ⟨30, _⟩ => ⟨S_, .i32⟩
  | .hbm, ⟨31, _⟩ => ⟨S4096x1, .i32⟩
  | .hbm, ⟨32, _⟩ => ⟨S4096x1, .i32⟩
  | .hbm, ⟨33, _⟩ => ⟨S4096x1, .i32⟩
  | .hbm, ⟨34, _⟩ => ⟨S_, .i32⟩
  | .hbm, ⟨35, _⟩ => ⟨S4096x4, .i32⟩
  | .hbm, ⟨36, _⟩ => ⟨S4096x4, .i1⟩
  | .hbm, ⟨37, _⟩ => ⟨S_, .i32⟩
  | .hbm, ⟨38, _⟩ => ⟨S4096x4, .i32⟩
  | .hbm, ⟨39, _⟩ => ⟨S4096x4, .i32⟩
  | .hbm, ⟨40, _⟩ => ⟨S4096x4, .i32⟩
  | .hbm, ⟨41, _⟩ => ⟨S4096x4, .i32⟩
  | .hbm, ⟨42, _⟩ => ⟨S4096x4x1, .i32⟩
  | .hbm, ⟨43, _⟩ => ⟨S4096x4x1, .i32⟩
  | .hbm, ⟨44, _⟩ => ⟨S4096x4x2, .i32⟩
  | .hbm, ⟨45, _⟩ => ⟨S_, .f32⟩
  | .hbm, ⟨46, _⟩ => ⟨S4096x4, .f32⟩
  | .hbm, ⟨47, _⟩ => ⟨S4096x38279, .f32⟩
  | .hbm, ⟨48, _⟩ => ⟨S4096x16, .f32⟩
  | .hbm, ⟨49, _⟩ => ⟨S4096x16, .f32⟩
  | .hbm, ⟨50, _⟩ => ⟨S4096x38279, .f32⟩
  | .hbm, ⟨51, _⟩ => ⟨S38279x16, .f32⟩
  | .hbm, ⟨52, _⟩ => ⟨S4096x16, .f32⟩
  | .hbm, ⟨53, _⟩ => ⟨S4096x16, .f32⟩
  | .hbm, ⟨54, _⟩ => ⟨S_, .f32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S4096, .f32⟩
  | .hbm, ⟨60, _⟩ => ⟨S4096, .f32⟩
  | .hbm, ⟨61, _⟩ => ⟨S4096, .f32⟩
  | .hbm, ⟨62, _⟩ => ⟨S_, .f32⟩
  | .hbm, ⟨63, _⟩ => ⟨S4096, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S4096x1, .f32⟩
  | _, _ => ⟨S4096x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_v24 : Ref sig .tc := ⟨.hbm, 36, rfl⟩
abbrev main_c_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]

class Facts₀ : Prop where
  bcast_S4_S1x4_1 : S4.BroadcastsInDim S1x4 (![1] : Fin 1 → Fin S1x4.rank)
  bcast_S1x4_S4096x4_0_1 : S1x4.BroadcastsInDim S4096x4 (![0, 1] : Fin 2 → Fin S4096x4.rank)
  bcast_S_S4096x4 : S_.BroadcastsInDim S4096x4 (![] : Fin 0 → Fin S4096x4.rank)
  bcast_S4096x4_S4096x4x1_0_1 : S4096x4.BroadcastsInDim S4096x4x1 (![0, 1] : Fin 2 → Fin S4096x4x1.rank)
  concatenates_S4096x4x1_S4096x4x1_S4096x4x2_d2 : Shape.Concatenates [S4096x4x1, S4096x4x1] S4096x4x2 2
  reducesTo_S4096x4_S4096_d1 : S4096x4.ReducesTo [1] S4096
  h_S_ : 0 < S_.numel
  bcast_S_S4096x38279 : S_.BroadcastsInDim S4096x38279 (![] : Fin 0 → Fin S4096x38279.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4_0_1 : S4096x1.BroadcastsInDim S4096x4 (![0, 1] : Fin 2 → Fin S4096x4.rank)
  reducesTo_S4096x16_S4096_d1 : S4096x16.ReducesTo [1] S4096
  bcast_S_S4096 : S_.BroadcastsInDim S4096 (![] : Fin 0 → Fin S4096.rank)
  gather_S38279x1_S4096x4x2_S4096x4_n_01_n_n_01_2_11_wf : GatherDims.WF S38279x1 S4096x4x2 S4096x4 [] [0, 1] [] [0, 1] [] 2 ![1, 1]
  scatter_S4096x38279_S4096x4x2_S4096x4_n_01_01_2_wf : ScatterDims.WF S4096x38279 S4096x4x2 S4096x4 [] [0, 1] [0, 1] 2
  dot_S4096x38279_S38279x16_S4096x16_1_0_0_1_n_n_wf : DotDims.WF S4096x38279 S38279x16 S4096x16 [1] [0] [0] [1] [] []

variable [Facts₀]

def gather_S38279x1_S4096x4x2_S4096x4_n_01_n_n_01_2_11 : GatherDims S38279x1 S4096x4x2 S4096x4 where
  offsetDims := []
  collapsedSliceDims := [0, 1]
  operandBatchingDims := []
  startIndicesBatchingDims := []
  startIndexMap := [0, 1]
  indexVectorDim := 2
  sliceSizes := ![1, 1]
  wf := gather_S38279x1_S4096x4x2_S4096x4_n_01_n_n_01_2_11_wf
def scatter_S4096x38279_S4096x4x2_S4096x4_n_01_01_2 : ScatterDims S4096x38279 S4096x4x2 S4096x4 where
  updateWindowDims := []
  insertedWindowDims := [0, 1]
  scatterDimsToOperandDims := [0, 1]
  indexVectorDim := 2
  wf := scatter_S4096x38279_S4096x4x2_S4096x4_n_01_01_2_wf
def dot_S4096x38279_S38279x16_S4096x16_1_0_0_1_n_n : DotDims S4096x38279 S38279x16 S4096x16 where
  lhsContracting := [1]
  rhsContracting := [0]
  lhsNonContracting := [0]
  rhsNonContracting := [1]
  lhsBatch := []
  rhsBatch := []
  wf := dot_S4096x38279_S38279x16_S4096x16_1_0_0_1_n_n_wf

class Facts : Prop extends Facts₀ where

variable [Facts]
-- ==== Proof.FrKernel.Entry.lean ====
/-
  The kernel program as printed's memory when its one region is entered.

  Before the region @main runs sixteen stretches of host operations: it squares the embedding table, lays table,
  squares and bias side by side as one [38279, 33] array, and for each of the four fields cuts that field's rows out,
  pads them with zero rows to the field's padded length, rounds to bf16, transposes, and pads the 33 columns (now
  rows) to 48 with zero rows. `V c b` is what buffer `b` of core `c` holds after all of them.
-/
import proofs.«416439_j75557064671821_3_alg».proof.Proof.Gen.Kernel.Launch

noncomputable section

namespace Cert.Kernel.Fr

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-- The host stretches before the region, in order. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]

/-- Core `c`'s TensorCore buffers when the region is entered: after every host stretch. -/
abbrev V (c : Dev nD) (b : Ref sig .tc) : Buf (Elt F) ((c : Thread nD τ).loc b) :=
  StableHlo.after (List.flatten (prefixOps (F := F))) (fun b => m (c, b)) b

end Cert.Kernel.Fr

end
-- ==== Proof.FrKernel.Kit.lean ====
/-
  The kernel program as printed up to and around its one region: that @main is its host stretches followed by the
  region, that no stretch writes an argument array, what block of its array each window stages at a grid point, that an
  input window's staging buffer holds that block whether or not the pipeline fetches at the point (the four table
  windows are fetched once, at the first point, and stay), and how a run of the region to the pipeline library's
  post gives the claim that the argument arrays end unchanged.
-/
import proofs.«416439_j75557064671821_3_alg».proof.Proof.FrKernel.Entry
import proofs.«416439_j75557064671821_3_alg».proof.Proof.Gen.Kernel.Skeleton
import proofs.«416439_j75557064671821_3_alg».proof.Proof.Gen.Kernel.Loops
import proofs.«416439_j75557064671821_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor

/-- @main is the host stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh⟩) main_chain

/-- No host stretch before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host stretch before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host stretch before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is `V`'s and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is `V`'s and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

/-- From a run of the region to the pipeline library's post, for any proof data whose arrays are the region-entry
    contents: the index array is window 0's array, an input, so it ends as the region found it; the embedding table and
    the bias column are staged by no window, so they end as the region found them; and the region found all three as
    launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The staging memrefs at a point, the scratch, and the region's invariant -/

/-- One staging buffer of the output window, through which its contents are stated. -/
abbrev VO0_5 : View sig .tc .vmem S512x1 .f32 := (Memref.whole cc0_stg5_0 : Memref sig .tc .vmem S512x1 .f32).view
abbrev ms0_0 (t : Fin cfg0.N) : Memref sig .tc .vmem S512x4 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S48x32768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S48x8192 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S48x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S48x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
/-- The accumulator scratch as a memref. -/
abbrev scM0_0 : Memref sig .tc .vmem S512x48 .f32 := Memref.whole cc0_scratch0

/-- What the region's body may use and need not describe: the scratch at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.FrKernel.Run.lean ====
/-
  The kernel body run once, on any whole staging memrefs.

  Holding the index block and the four field tables at their contents, the output's staging buffer and the accumulator
  scratch at anything, the body zeroes the scratch, goes through the two counted loops over the column tiles of the two
  large tables (each trip reads the scratch back, adds one tile's product and stores it), adds the two small tables'
  products, reads the scratch a last time and stores the logistic of the combined row into the output's buffer. It
  returns the inputs as they were, the output's buffer with the pieces it stored written over what was there, and the
  scratch at some contents. The pieces are found by the run itself.
-/
import proofs.«416439_j75557064671821_3_alg».proof.Proof.FrKernel.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run: the pieces it leaves in the output's staging memref (last first), with the proof that the body, given
    the inputs at `x0 … x4`, the output's buffer and the scratch at anything, runs to a continuation holding the inputs
    unchanged, the output's buffer with those pieces written and the scratch at some contents. -/
noncomputable def kernelRun0 (c : Dev nD) (i : grid0.Coords) (arg1 : Memref sig .tc .vmem S512x4 .i32) (harg1 : arg1.IsWhole) (arg2 : Memref sig .tc .vmem S48x32768 .bf16) (harg2 : arg2.IsWhole) (arg3 : Memref sig .tc .vmem S48x8192 .bf16) (harg3 : arg3.IsWhole) (arg4 : Memref sig .tc .vmem S48x128 .bf16) (harg4 : arg4.IsWhole) (arg5 : Memref sig .tc .vmem S48x128 .bf16) (harg5 : arg5.IsWhole) (arg6 : Memref sig .tc .vmem S512x1 .f32) (harg6 : arg6.IsWhole) (arg7 : Memref sig .tc .vmem S512x48 .f32) (harg7 : arg7.IsWhole)
    (x0 : Vec F S512x4 .i32) (x1 : Vec F S48x32768 .bf16) (x2 : Vec F S48x8192 .bf16) (x3 : Vec F S48x128 .bf16) (x4 : Vec F S48x128 .bf16) :
    { L6 : List (View.Piece (Elt F) S512x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L6)
                ∗ (∃ f, arg7.view.loc (c : Thread nD τ) ↦[arg7.view.set]{fullShare} f)) -∗ K ⟨⟩))
          ⊢ wp frame (wpE (defs₀ (F := F)) Variants.none c none) E (cc0__fm_kernel i arg1 harg1 arg2 harg2 arg3 harg3 arg4 harg4 arg5 harg5 arg6 harg6 arg7 harg7) K } := by
  refine ⟨?_, fun E K => ?run⟩
  case run =>
    simp only [cc0__fm_kernel_eq_skeleton]; unfold cc0__fm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    iexists _; iexact H7

end Cert.Kernel.Fr

end
-- ==== Proof.FrKernel.Frame.lean ====
/-
  The region's frame for the kernel program as printed.

  What the body's run leaves in the output's staging buffer covers it (one store of the whole [512, 1] block), so after
  the body at a grid point the buffer holds those pieces read back, a function of the point's input blocks. With that as
  the proof data - each input window's buffer at its block, the output's at what the run leaves, the scratch and the
  generator register passing through as the region's invariant (the scratch is zeroed at the start of every point,
  so nothing is carried) - the body meets the pipeline's obligation at every point, @main runs, every array of the
  pipeline ends at what the proof data says and every other buffer as the region found it; in particular the argument
  arrays end unchanged.
-/
import proofs.«416439_j75557064671821_3_alg».proof.Proof.FrKernel.Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for the output cover its block: one store of the whole block. -/
theorem cover0_5 (c : Dev nD) (i : grid0.Coords) (arg1 : Memref sig .tc .vmem S512x4 .i32) (harg1 : arg1.IsWhole) (arg2 : Memref sig .tc .vmem S48x32768 .bf16) (harg2 : arg2.IsWhole) (arg3 : Memref sig .tc .vmem S48x8192 .bf16) (harg3 : arg3.IsWhole) (arg4 : Memref sig .tc .vmem S48x128 .bf16) (harg4 : arg4.IsWhole) (arg5 : Memref sig .tc .vmem S48x128 .bf16) (harg5 : arg5.IsWhole) (arg6 : Memref sig .tc .vmem S512x1 .f32) (harg6 : arg6.IsWhole) (arg7 : Memref sig .tc .vmem S512x48 .f32) (harg7 : arg7.IsWhole)
    (x0 : Vec F S512x4 .i32) (x1 : Vec F S48x32768 .bf16) (x2 : Vec F S48x8192 .bf16) (x3 : Vec F S48x128 .bf16) (x4 : Vec F S48x128 .bf16) (y : S512x1.Idx) :
    ∃ pc ∈ (kernelRun0 c i arg1 harg1 arg2 harg2 arg3 harg3 arg4 harg4 arg5 harg5 arg6 harg6 arg7 harg7 x0 x1 x2 x3 x4).1, y ∈ pc.1.set :=
  View.cover_of_tiledL (kernelRun0 c i arg1 harg1 arg2 harg2 arg3 harg3 arg4 harg4 arg5 harg5 arg6 harg6 arg7 harg7 x0 x1 x2 x3 x4).1 S512x1.size (by sl_kernel_rfl) y

/-- What the run leaves in the output's staging buffer: its pieces read back over junk. -/
def out0_5 (c : Dev nD) (i : grid0.Coords) (arg1 : Memref sig .tc .vmem S512x4 .i32) (harg1 : arg1.IsWhole) (arg2 : Memref sig .tc .vmem S48x32768 .bf16) (harg2 : arg2.IsWhole) (arg3 : Memref sig .tc .vmem S48x8192 .bf16) (harg3 : arg3.IsWhole) (arg4 : Memref sig .tc .vmem S48x128 .bf16) (harg4 : arg4.IsWhole) (arg5 : Memref sig .tc .vmem S48x128 .bf16) (harg5 : arg5.IsWhole) (arg6 : Memref sig .tc .vmem S512x1 .f32) (harg6 : arg6.IsWhole) (arg7 : Memref sig .tc .vmem S512x48 .f32) (harg7 : arg7.IsWhole)
    (x0 : Vec F S512x4 .i32) (x1 : Vec F S48x32768 .bf16) (x2 : Vec F S48x8192 .bf16) (x3 : Vec F S48x128 .bf16) (x4 : Vec F S48x128 .bf16) : Vec F S512x1 .f32 :=
  VO0_5.read (Elt F) (VO0_5.writes (Elt F) VO0_5.junk (kernelRun0 c i arg1 harg1 arg2 harg2 arg3 harg3 arg4 harg4 arg5 harg5 arg6 harg6 arg7 harg7 x0 x1 x2 x3 x4).1)

/-- What the output's staging buffer holds after the body at point `t`: the run's contents at the point's memrefs and
    input blocks. -/
def outsAt0 (c : Dev nD) (t : Fin cfg0.N) : Vec F S512x1 .f32 :=
  out0_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt0 m c t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outsAt0 m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: the inputs' memrefs hold their blocks, so the run applies; the invariant lends the scratch at
    whatever it holds and takes it back at whatever the body leaves; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0
  unfold out0_5
  iintro ⟨⟨HS, Hg⟩, Ho, ⟨%d0, H0⟩, ⟨%d1, H1⟩, ⟨%d2, H2⟩, ⟨%d3, H3⟩, ⟨%d4, H4⟩, ⟨%d5, H5⟩⟩
  iapply ((kernelRun0 c (grid0.coords t) _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, ⟨%e5, H5⟩, ⟨%e7, H7⟩⟩
  isplitl [H7 Hg]
  · isplitl [H7]
    · iexists (scM0_0.view.read (Elt F) e7); unfold owns; iexists _; isplitr
      swap; · iexact H7
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_5 c _ _ _ _ _ _ _ _ _ _ _ _ _ _ _ _ _ _ _ _)

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the pipeline ends
    at what the library computes from the proof data, and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Fr

end
-- ==== Proof.FrKernelIdeal.Entry.lean ====
/-
  The idealized kernel program's memory when its one region is entered.

  Before the region @main runs sixteen stretches of host operations: it squares the embedding table, lays table,
  squares and bias side by side as one [38279, 33] array, and for each of the four fields cuts that field's rows out,
  pads them with zero rows to the field's padded length, rounds to bf16, transposes, and pads the 33 columns (now
  rows) to 48 with zero rows. `V c b` is what buffer `b` of core `c` holds after all of them.
-/
import proofs.«416439_j75557064671821_3_alg».proof.Proof.Gen.KernelIdeal.Launch

noncomputable section

namespace Cert.KernelIdeal.Fr

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-- The host stretches before the region, in order. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]

/-- Core `c`'s TensorCore buffers when the region is entered: after every host stretch. -/
abbrev V (c : Dev nD) (b : Ref sig .tc) : Buf (Elt F) ((c : Thread nD τ).loc b) :=
  StableHlo.after (List.flatten (prefixOps (F := F))) (fun b => m (c, b)) b

end Cert.KernelIdeal.Fr

end
-- ==== Proof.FrKernelIdeal.Kit.lean ====
/-
  The idealized kernel program up to and around its one region: that @main is its host stretches followed by the
  region, that no stretch writes an argument array, what block of its array each window stages at a grid point, that an
  input window's staging buffer holds that block whether or not the pipeline fetches at the point (the four table
  windows are fetched once, at the first point, and stay), and how a run of the region to the pipeline library's
  post gives the claim that the argument arrays end unchanged.
-/
import proofs.«416439_j75557064671821_3_alg».proof.Proof.FrKernelIdeal.Entry
import proofs.«416439_j75557064671821_3_alg».proof.Proof.Gen.KernelIdeal.Skeleton
import proofs.«416439_j75557064671821_3_alg».proof.Proof.Gen.KernelIdeal.Loops
import proofs.«416439_j75557064671821_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor

/-- @main is the host stretches, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh⟩) main_chain

/-- No host stretch before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host stretch before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host stretch before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is `V`'s and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is `V`'s and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The argument arrays end unchanged -/

/-- From a run of the region to the pipeline library's post, for any proof data whose arrays are the region-entry
    contents: the index array is window 0's array, an input, so it ends as the region found it; the embedding table and
    the bias column are staged by no window, so they end as the region found them; and the region found all three as
    launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The staging memrefs at a point, the scratch, and the region's invariant -/

/-- One staging buffer of the output window, through which its contents are stated. -/
abbrev VO0_5 : View sig .tc .vmem S512x1 .f32 := (Memref.whole cc0_stg5_0 : Memref sig .tc .vmem S512x1 .f32).view
abbrev ms0_0 (t : Fin cfg0.N) : Memref sig .tc .vmem S512x4 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S48x32768 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S48x8192 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S48x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S48x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
/-- The accumulator scratch as a memref. -/
abbrev scM0_0 : Memref sig .tc .vmem S512x48 .f32 := Memref.whole cc0_scratch0

/-- What the region's body may use and need not describe: the scratch at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.FrKernelIdeal.Run.lean ====
/-
  The kernel body run once, on any whole staging memrefs.

  Holding the index block and the four field tables at their contents, the output's staging buffer and the accumulator
  scratch at anything, the body zeroes the scratch, goes through the two counted loops over the column tiles of the two
  large tables (each trip reads the scratch back, adds one tile's product and stores it), adds the two small tables'
  products, reads the scratch a last time and stores the logistic of the combined row into the output's buffer. It
  returns the inputs as they were, the output's buffer with the pieces it stored written over what was there, and the
  scratch at some contents. The pieces are found by the run itself.
-/
import proofs.«416439_j75557064671821_3_alg».proof.Proof.FrKernelIdeal.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run: the pieces it leaves in the output's staging memref (last first), with the proof that the body, given
    the inputs at `x0 … x4`, the output's buffer and the scratch at anything, runs to a continuation holding the inputs
    unchanged, the output's buffer with those pieces written and the scratch at some contents. -/
noncomputable def kernelRun0 (c : Dev nD) (i : grid0.Coords) (arg1 : Memref sig .tc .vmem S512x4 .i32) (harg1 : arg1.IsWhole) (arg2 : Memref sig .tc .vmem S48x32768 .bf16) (harg2 : arg2.IsWhole) (arg3 : Memref sig .tc .vmem S48x8192 .bf16) (harg3 : arg3.IsWhole) (arg4 : Memref sig .tc .vmem S48x128 .bf16) (harg4 : arg4.IsWhole) (arg5 : Memref sig .tc .vmem S48x128 .bf16) (harg5 : arg5.IsWhole) (arg6 : Memref sig .tc .vmem S512x1 .f32) (harg6 : arg6.IsWhole) (arg7 : Memref sig .tc .vmem S512x48 .f32) (harg7 : arg7.IsWhole)
    (x0 : Vec F S512x4 .i32) (x1 : Vec F S48x32768 .bf16) (x2 : Vec F S48x8192 .bf16) (x3 : Vec F S48x128 .bf16) (x4 : Vec F S48x128 .bf16) :
    { L6 : List (View.Piece (Elt F) S512x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L6)
                ∗ (∃ f, arg7.view.loc (c : Thread nD τ) ↦[arg7.view.set]{fullShare} f)) -∗ K ⟨⟩))
          ⊢ wp frame (wpE (defs₀ (F := F)) Variants.none c none) E (cc0__fm_kernel i arg1 harg1 arg2 harg2 arg3 harg3 arg4 harg4 arg5 harg5 arg6 harg6 arg7 harg7) K } := by
  refine ⟨?_, fun E K => ?run⟩
  case run =>
    simp only [cc0__fm_kernel_eq_skeleton]; unfold cc0__fm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, Hk⟩
    obtain rfl := harg1.eq_unread hf0; obtain rfl := harg2.eq_unread hf1; obtain rfl := harg3.eq_unread hf2
    obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]; · iexists _; iexact H6
    iexists _; iexact H7

end Cert.KernelIdeal.Fr

end
-- ==== Proof.FrKernelIdeal.Frame.lean ====
/-
  The region's frame for the idealized kernel program.

  What the body's run leaves in the output's staging buffer covers it (one store of the whole [512, 1] block), so after
  the body at a grid point the buffer holds those pieces read back, a function of the point's input blocks. With that as
  the proof data - each input window's buffer at its block, the output's at what the run leaves, the scratch and the
  generator register passing through as the region's invariant (the scratch is zeroed at the start of every point,
  so nothing is carried) - the body meets the pipeline's obligation at every point, @main runs, every array of the
  pipeline ends at what the proof data says and every other buffer as the region found it; in particular the argument
  arrays end unchanged.
-/
import proofs.«416439_j75557064671821_3_alg».proof.Proof.FrKernelIdeal.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for the output cover its block: one store of the whole block. -/
theorem cover0_5 (c : Dev nD) (i : grid0.Coords) (arg1 : Memref sig .tc .vmem S512x4 .i32) (harg1 : arg1.IsWhole) (arg2 : Memref sig .tc .vmem S48x32768 .bf16) (harg2 : arg2.IsWhole) (arg3 : Memref sig .tc .vmem S48x8192 .bf16) (harg3 : arg3.IsWhole) (arg4 : Memref sig .tc .vmem S48x128 .bf16) (harg4 : arg4.IsWhole) (arg5 : Memref sig .tc .vmem S48x128 .bf16) (harg5 : arg5.IsWhole) (arg6 : Memref sig .tc .vmem S512x1 .f32) (harg6 : arg6.IsWhole) (arg7 : Memref sig .tc .vmem S512x48 .f32) (harg7 : arg7.IsWhole)
    (x0 : Vec F S512x4 .i32) (x1 : Vec F S48x32768 .bf16) (x2 : Vec F S48x8192 .bf16) (x3 : Vec F S48x128 .bf16) (x4 : Vec F S48x128 .bf16) (y : S512x1.Idx) :
    ∃ pc ∈ (kernelRun0 c i arg1 harg1 arg2 harg2 arg3 harg3 arg4 harg4 arg5 harg5 arg6 harg6 arg7 harg7 x0 x1 x2 x3 x4).1, y ∈ pc.1.set :=
  View.cover_of_tiledL (kernelRun0 c i arg1 harg1 arg2 harg2 arg3 harg3 arg4 harg4 arg5 harg5 arg6 harg6 arg7 harg7 x0 x1 x2 x3 x4).1 S512x1.size (by sl_kernel_rfl) y

/-- What the run leaves in the output's staging buffer: its pieces read back over junk. -/
def out0_5 (c : Dev nD) (i : grid0.Coords) (arg1 : Memref sig .tc .vmem S512x4 .i32) (harg1 : arg1.IsWhole) (arg2 : Memref sig .tc .vmem S48x32768 .bf16) (harg2 : arg2.IsWhole) (arg3 : Memref sig .tc .vmem S48x8192 .bf16) (harg3 : arg3.IsWhole) (arg4 : Memref sig .tc .vmem S48x128 .bf16) (harg4 : arg4.IsWhole) (arg5 : Memref sig .tc .vmem S48x128 .bf16) (harg5 : arg5.IsWhole) (arg6 : Memref sig .tc .vmem S512x1 .f32) (harg6 : arg6.IsWhole) (arg7 : Memref sig .tc .vmem S512x48 .f32) (harg7 : arg7.IsWhole)
    (x0 : Vec F S512x4 .i32) (x1 : Vec F S48x32768 .bf16) (x2 : Vec F S48x8192 .bf16) (x3 : Vec F S48x128 .bf16) (x4 : Vec F S48x128 .bf16) : Vec F S512x1 .f32 :=
  VO0_5.read (Elt F) (VO0_5.writes (Elt F) VO0_5.junk (kernelRun0 c i arg1 harg1 arg2 harg2 arg3 harg3 arg4 harg4 arg5 harg5 arg6 harg6 arg7 harg7 x0 x1 x2 x3 x4).1)

/-- What the output's staging buffer holds after the body at point `t`: the run's contents at the point's memrefs and
    input blocks. -/
def outsAt0 (c : Dev nD) (t : Fin cfg0.N) : Vec F S512x1 .f32 :=
  out0_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt0 m c t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outsAt0 m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: the inputs' memrefs hold their blocks, so the run applies; the invariant lends the scratch at
    whatever it holds and takes it back at whatever the body leaves; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0
  unfold out0_5
  iintro ⟨⟨HS, Hg⟩, Ho, ⟨%d0, H0⟩, ⟨%d1, H1⟩, ⟨%d2, H2⟩, ⟨%d3, H3⟩, ⟨%d4, H4⟩, ⟨%d5, H5⟩⟩
  iapply ((kernelRun0 c (grid0.coords t) _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, ⟨%e5, H5⟩, ⟨%e7, H7⟩⟩
  isplitl [H7 Hg]
  · isplitl [H7]
    · iexists (scM0_0.view.read (Elt F) e7); unfold owns; iexists _; isplitr
      swap; · iexact H7
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_5 c _ _ _ _ _ _ _ _ _ _ _ _ _ _ _ _ _ _ _ _)

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every array of the pipeline ends
    at what the library computes from the proof data, and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Fr

end
-- ==== Proof.Val.Acc.lean ====
/- The value the kernel body leaves in its [512,48] scratch, as a pure function of what it reads.
   The body clears the scratch, then adds one rows-with-rows product per loaded table slice: eight
   slices of the first field's table, two of the second field's, and one whole table for each of the
   last two fields.  `acc1` and `acc2` are the two counted folds (the scratch after `n` trips),
   and `accAll` is the scratch after the last step.  Everything here is generic in the float
   carrier; no property is proved in this file. -/
import proofs.«416439_j75557064671821_3_alg».proof.Proof.Gen.KernelIdeal.Skeleton

noncomputable section

namespace Cert.KernelIdeal.Val

open Idealize.ShloMosaic Idealize.SL.Sem
open Cert.KernelIdeal Cert.KernelIdeal.Gen

variable {F : FTy → Type} [FloatOps F]

/-- The scratch after the first `n` trips over the first field's table: cleared, then one product
   added per trip.  Past the loop's trip count nothing more is added. -/
def acc1 (v4 : Vec F S512x4 .i32) (s1 : Fin k0_t1_loop.trips → Vec F S48x4096 .bf16) :
    ℕ → FVec F S512x48 .f32
  | 0 => k0_pay3 (F := F)
  | n + 1 =>
    if h : n < k0_t1_loop.trips then k0_pay4 v4 ⟨n, h⟩ (s1 ⟨n, h⟩) (acc1 v4 s1 n)
    else acc1 v4 s1 n

/-- The scratch after the first `n` trips over the second field's table, started from `a`. -/
def acc2 (v4 : Vec F S512x4 .i32) (s2 : Fin k0_t2_loop.trips → Vec F S48x4096 .bf16)
    (a : FVec F S512x48 .f32) : ℕ → FVec F S512x48 .f32
  | 0 => a
  | n + 1 =>
    if h : n < k0_t2_loop.trips then k0_pay5 v4 ⟨n, h⟩ (s2 ⟨n, h⟩) (acc2 v4 s2 a n)
    else acc2 v4 s2 a n

/-- The scratch when the body has added all four fields' products. -/
def accAll (v4 : Vec F S512x4 .i32) (s1 : Fin k0_t1_loop.trips → Vec F S48x4096 .bf16)
    (s2 : Fin k0_t2_loop.trips → Vec F S48x4096 .bf16) (x3 x4 : Vec F S48x128 .bf16) :
    FVec F S512x48 .f32 :=
  k0_pay1 (k0_pay7 x4) (k0_pay8 v4)
    (k0_pay6 v4 x3 (acc2 v4 s2 (acc1 v4 s1 k0_t1_loop.trips) k0_t2_loop.trips))

end Cert.KernelIdeal.Val

end
-- ==== Proof.FrKernelIdeal.Pieces.lean ====
/-
  What the body's run stores, as values.

  Inside the body the accumulator scratch is only ever stored whole and read whole, so after any list of stores whose
  last is a whole-block store the scratch reads back that store's payload, whatever came before. One trip of either
  counted loop is one such store: its payload adds, to what the scratch held, the product of the one-hot rows with the
  trip's tile of the field's table. Hence after n trips the scratch reads back the n-fold accumulation, by induction
  on n; and the one piece the run leaves in the output's buffer is the final arithmetic applied to the accumulation over
  all four fields.
-/
import proofs.«416439_j75557064671821_3_alg».proof.Proof.FrKernelIdeal.Run
import proofs.«416439_j75557064671821_3_alg».proof.Proof.Val.Acc
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Val

theorem hz2 : (![0, 0] : Fin 2 → Nat) = fun _ => 0 := funext fun a => by fin_cases a <;> rfl

/-- The whole-block rectangle of the accumulator scratch. -/
abbrev rW : Rect S512x48 := Rect.unit (s := S512x48) ![0, 0] S512x48.size inb_S512x48_S512x48_0_0

/-- After a whole-block store, whatever the earlier stores, the buffer reads back the store's payload. -/
theorem read_writes_head (v : View sig .tc .vmem S512x48 .f32) (f : v.ty.Contents (Elt F)) (w : S512x48.Idx → Elt F .f32)
    (L : List (View.Piece (Elt F) S512x48 .f32)) :
    v.read (Elt F) (v.writes (Elt F) f ((⟨rW, w⟩ : View.Piece (Elt F) S512x48 .f32) :: L)) = w := by
  rw [View.read_writes_eq_canon v f _ (fun y => ⟨(⟨rW, w⟩ : View.Piece (Elt F) S512x48 .f32), List.mem_cons_self, View.mem_set_unit_zero hz2 inb_S512x48_S512x48_0_0 y⟩),
    View.canon_cons_unit_zero hz2]

/-- A load through the whole-block rectangle is the buffer's contents. -/
theorem readAt_whole (v : View sig .tc .vmem S512x48 .f32) (g : v.ty.Contents (Elt F)) :
    View.readAt (Elt F) v rW.toLoadRect g = v.read (Elt F) g := by
  rw [View.readAt_eq_ld, View.ld_unit_zero (S := S512x48) hz2]

/-- A covered load after a whole-block store reads the store's payload. -/
theorem readCov_head (v : View sig .tc .vmem S512x48 .f32) (w : S512x48.Idx → Elt F .f32)
    (L : List (View.Piece (Elt F) S512x48 .f32)) :
    v.readCov ((⟨rW, w⟩ : View.Piece (Elt F) S512x48 .f32) :: L) rW.toLoadRect = w := by
  rw [View.readCov_eq_canon_ld _ _ _ (fun y => ⟨(⟨rW, w⟩ : View.Piece (Elt F) S512x48 .f32), List.mem_cons_self, View.mem_set_unit_zero hz2 inb_S512x48_S512x48_0_0 y⟩),
    View.canon_cons_unit_zero hz2, View.ld_unit_zero (S := S512x48) hz2]

/-- Trip `k`'s tile of field 0's table: columns `4096 k … 4096 k + 4095`. -/
def tile1 (arg2 : Memref sig .tc .vmem S48x32768 .bf16) (X : BufTy.Contents (Elt F) arg2.view.ty) (k : Fin k0_t1_loop.trips) :
    Vec F S48x4096 .bf16 :=
  View.readAt (Elt F) arg2.view (Rect.unit (s := S48x32768) (k0_off1 k) S48x4096.size (k0_off1_inb k)).toLoadRect X

/-- Trip `k`'s tile of field 1's table. -/
def tile2 (arg3 : Memref sig .tc .vmem S48x8192 .bf16) (X : BufTy.Contents (Elt F) arg3.view.ty) (k : Fin k0_t2_loop.trips) :
    Vec F S48x4096 .bf16 :=
  View.readAt (Elt F) arg3.view (Rect.unit (s := S48x8192) (k0_off2 k) S48x4096.size (k0_off2_inb k)).toLoadRect X

/-- One trip of the first loop stores one whole block: the accumulation of the trip's tile onto what the scratch held. -/
theorem tripL1_eq (𝒱 : Variants) (c : Dev nD) (bd : Option 𝒱.V) (i : grid0.Coords) (arg1 : Memref sig .tc .vmem S512x4 .i32) (harg1 : arg1.IsWhole) (arg2 : Memref sig .tc .vmem S48x32768 .bf16) (harg2 : arg2.IsWhole) (arg3 : Memref sig .tc .vmem S48x8192 .bf16) (harg3 : arg3.IsWhole) (arg4 : Memref sig .tc .vmem S48x128 .bf16) (harg4 : arg4.IsWhole) (arg5 : Memref sig .tc .vmem S48x128 .bf16) (harg5 : arg5.IsWhole) (arg6 : Memref sig .tc .vmem S512x1 .f32) (harg6 : arg6.IsWhole) (arg7 : Memref sig .tc .vmem S512x48 .f32) (harg7 : arg7.IsWhole) (v4 : Vec F S512x4 .i32)
    (X : BufTy.Contents (Elt F) arg2.view.ty) (k : Fin k0_t1_loop.trips) (f : BufTy.Contents (Elt F) arg7.view.ty) :
    tripL_k0_t1 (F := F) 𝒱 c bd i arg1 harg1 arg2 harg2 arg3 harg3 arg4 harg4 arg5 harg5 arg6 harg6 arg7 harg7 v4 X k f
      = [(⟨rW, k0_pay4 v4 k (tile1 arg2 X k) (arg7.view.read (Elt F) f)⟩ : View.Piece (Elt F) S512x48 .f32)] := by
  unfold tripL_k0_t1 trip_k0_t1
  dsimp only
  rw [← readAt_whole arg7.view f]
  rfl

/-- One trip of the second loop likewise. -/
theorem tripL2_eq (𝒱 : Variants) (c : Dev nD) (bd : Option 𝒱.V) (i : grid0.Coords) (arg1 : Memref sig .tc .vmem S512x4 .i32) (harg1 : arg1.IsWhole) (arg2 : Memref sig .tc .vmem S48x32768 .bf16) (harg2 : arg2.IsWhole) (arg3 : Memref sig .tc .vmem S48x8192 .bf16) (harg3 : arg3.IsWhole) (arg4 : Memref sig .tc .vmem S48x128 .bf16) (harg4 : arg4.IsWhole) (arg5 : Memref sig .tc .vmem S48x128 .bf16) (harg5 : arg5.IsWhole) (arg6 : Memref sig .tc .vmem S512x1 .f32) (harg6 : arg6.IsWhole) (arg7 : Memref sig .tc .vmem S512x48 .f32) (harg7 : arg7.IsWhole) (v4 : Vec F S512x4 .i32)
    (X : BufTy.Contents (Elt F) arg3.view.ty) (k : Fin k0_t2_loop.trips) (f : BufTy.Contents (Elt F) arg7.view.ty) :
    tripL_k0_t2 (F := F) 𝒱 c bd i arg1 harg1 arg2 harg2 arg3 harg3 arg4 harg4 arg5 harg5 arg6 harg6 arg7 harg7 v4 X k f
      = [(⟨rW, k0_pay5 v4 k (tile2 arg3 X k) (arg7.view.read (Elt F) f)⟩ : View.Piece (Elt F) S512x48 .f32)] := by
  unfold tripL_k0_t2 trip_k0_t2
  dsimp only
  rw [← readAt_whole arg7.view f]
  rfl

/-- After `n` trips of the first loop, from a scratch holding the zero block, the scratch reads back the `n`-fold
    accumulation over field 0's tiles. -/
theorem read_pb1 (𝒱 : Variants) (c : Dev nD) (bd : Option 𝒱.V) (i : grid0.Coords) (arg1 : Memref sig .tc .vmem S512x4 .i32) (harg1 : arg1.IsWhole) (arg2 : Memref sig .tc .vmem S48x32768 .bf16) (harg2 : arg2.IsWhole) (arg3 : Memref sig .tc .vmem S48x8192 .bf16) (harg3 : arg3.IsWhole) (arg4 : Memref sig .tc .vmem S48x128 .bf16) (harg4 : arg4.IsWhole) (arg5 : Memref sig .tc .vmem S48x128 .bf16) (harg5 : arg5.IsWhole) (arg6 : Memref sig .tc .vmem S512x1 .f32) (harg6 : arg6.IsWhole) (arg7 : Memref sig .tc .vmem S512x48 .f32) (harg7 : arg7.IsWhole) (v4 : Vec F S512x4 .i32)
    (X : BufTy.Contents (Elt F) arg2.view.ty) (G : BufTy.Contents (Elt F) arg7.view.ty)
    (hG : arg7.view.read (Elt F) G = k0_pay3 (F := F)) :
    ∀ n, n ≤ k0_t1_loop.trips →
      arg7.view.read (Elt F) (arg7.view.writes (Elt F) G (pb_k0_t1 (F := F) 𝒱 c bd i arg1 harg1 arg2 harg2 arg3 harg3 arg4 harg4 arg5 harg5 arg6 harg6 arg7 harg7 v4 X G n))
        = acc1 v4 (tile1 arg2 X) n
  | 0, _ => by rw [pb_k0_t1, View.writes_nil, hG]; rfl
  | n + 1, hn => by
    have h : n < k0_t1_loop.trips := hn
    have e := pb_k0_t1_succ (F := F) 𝒱 c bd i arg1 harg1 arg2 harg2 arg3 harg3 arg4 harg4 arg5 harg5 arg6 harg6 arg7 harg7 v4 X G ⟨n, h⟩
    dsimp only at e
    rw [e, tripL1_eq, List.singleton_append, read_writes_head, read_pb1 𝒱 c bd i arg1 harg1 arg2 harg2 arg3 harg3 arg4 harg4 arg5 harg5 arg6 harg6 arg7 harg7 v4 X G hG n (Nat.le_of_lt h)]
    rw [acc1, dif_pos h]

/-- After `n` trips of the second loop, from a scratch holding `a`, the scratch reads back the `n`-fold accumulation
    over field 1's tiles onto `a`. -/
theorem read_pb2 (𝒱 : Variants) (c : Dev nD) (bd : Option 𝒱.V) (i : grid0.Coords) (arg1 : Memref sig .tc .vmem S512x4 .i32) (harg1 : arg1.IsWhole) (arg2 : Memref sig .tc .vmem S48x32768 .bf16) (harg2 : arg2.IsWhole) (arg3 : Memref sig .tc .vmem S48x8192 .bf16) (harg3 : arg3.IsWhole) (arg4 : Memref sig .tc .vmem S48x128 .bf16) (harg4 : arg4.IsWhole) (arg5 : Memref sig .tc .vmem S48x128 .bf16) (harg5 : arg5.IsWhole) (arg6 : Memref sig .tc .vmem S512x1 .f32) (harg6 : arg6.IsWhole) (arg7 : Memref sig .tc .vmem S512x48 .f32) (harg7 : arg7.IsWhole) (v4 : Vec F S512x4 .i32)
    (X : BufTy.Contents (Elt F) arg3.view.ty) (G : BufTy.Contents (Elt F) arg7.view.ty) :
    ∀ n, n ≤ k0_t2_loop.trips →
      arg7.view.read (Elt F) (arg7.view.writes (Elt F) G (pb_k0_t2 (F := F) 𝒱 c bd i arg1 harg1 arg2 harg2 arg3 harg3 arg4 harg4 arg5 harg5 arg6 harg6 arg7 harg7 v4 X G n))
        = acc2 v4 (tile2 arg3 X) (arg7.view.read (Elt F) G) n
  | 0, _ => by rw [pb_k0_t2, View.writes_nil]; rfl
  | n + 1, hn => by
    have h : n < k0_t2_loop.trips := hn
    have e := pb_k0_t2_succ (F := F) 𝒱 c bd i arg1 harg1 arg2 harg2 arg3 harg3 arg4 harg4 arg5 harg5 arg6 harg6 arg7 harg7 v4 X G ⟨n, h⟩
    dsimp only at e
    rw [e, tripL2_eq, List.singleton_append, read_writes_head, read_pb2 𝒱 c bd i arg1 harg1 arg2 harg2 arg3 harg3 arg4 harg4 arg5 harg5 arg6 harg6 arg7 harg7 v4 X G n (Nat.le_of_lt h)]
    rw [acc2, dif_pos h]

end Cert.KernelIdeal.Fr

end
-- ==== Proof.FrKernelIdeal.OutValue.lean ====
/-
  What the output's staging buffer holds after the body, as a value: the body's final arithmetic (slices, row sum, the
  logistic) of the accumulation over the four fields' tables, the accumulation written as the two counted folds over the
  large tables' tiles followed by the two small tables' products.
-/
import proofs.«416439_j75557064671821_3_alg».proof.Proof.FrKernelIdeal.Frame
import proofs.«416439_j75557064671821_3_alg».proof.Proof.FrKernelIdeal.Pieces

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.Val

/-- The run leaves one piece in the output's buffer: the whole block, at the final arithmetic of the accumulation. -/
theorem pieces_eq (c : Dev nD) (i : grid0.Coords) (arg1 : Memref sig .tc .vmem S512x4 .i32) (harg1 : arg1.IsWhole) (arg2 : Memref sig .tc .vmem S48x32768 .bf16) (harg2 : arg2.IsWhole) (arg3 : Memref sig .tc .vmem S48x8192 .bf16) (harg3 : arg3.IsWhole) (arg4 : Memref sig .tc .vmem S48x128 .bf16) (harg4 : arg4.IsWhole) (arg5 : Memref sig .tc .vmem S48x128 .bf16) (harg5 : arg5.IsWhole) (arg6 : Memref sig .tc .vmem S512x1 .f32) (harg6 : arg6.IsWhole) (arg7 : Memref sig .tc .vmem S512x48 .f32) (harg7 : arg7.IsWhole)
    (x0 : Vec F S512x4 .i32) (x1 : Vec F S48x32768 .bf16) (x2 : Vec F S48x8192 .bf16) (x3 : Vec F S48x128 .bf16) (x4 : Vec F S48x128 .bf16) :
    (kernelRun0 c i arg1 harg1 arg2 harg2 arg3 harg3 arg4 harg4 arg5 harg5 arg6 harg6 arg7 harg7 x0 x1 x2 x3 x4).1
      = [(⟨Rect.unit (s := S512x1) ![0, 0] S512x1.size inb_S512x1_S512x1_0_0,
            k0_pay2 (accAll x0 (tile1 arg2 (harg2.unread x1)) (tile2 arg3 (harg3.unread x2)) x3 x4)⟩ : View.Piece (Elt F) S512x1 .f32)] := by
  unfold kernelRun0
  dsimp only
  sl_unfold_run_names
  refine congrArg (fun w : S512x48.Idx → Elt F .f32 => [(⟨Rect.unit (s := S512x1) ![0, 0] S512x1.size inb_S512x1_S512x1_0_0, k0_pay2 w⟩ : View.Piece (Elt F) S512x1 .f32)]) ?_
  rw [readCov_head]
  unfold accAll
  rw [readCov_head]
  simp only [View.readAt_eq_ld, harg1.read_unread, harg4.read_unread, harg5.read_unread,
    View.ld_unit_zero (S := S512x4) hz2, View.ld_unit_zero (S := S48x128) hz2, View.ld_unit_zero (S := S512x48) hz2]
  rw [View.writes_append, read_pb2 _ _ _ _ _ _ _ _ _ _ _ _ _ _ _ _ _ _ _ _ _ _ le_rfl, View.writes_append,
    read_pb1 _ _ _ _ _ _ _ _ _ _ _ _ _ _ _ _ _ _ _ _ _ (read_writes_head _ _ _ _) _ le_rfl]

/-- So the output's buffer holds that value. -/
theorem out0_5_eq (c : Dev nD) (i : grid0.Coords) (arg1 : Memref sig .tc .vmem S512x4 .i32) (harg1 : arg1.IsWhole) (arg2 : Memref sig .tc .vmem S48x32768 .bf16) (harg2 : arg2.IsWhole) (arg3 : Memref sig .tc .vmem S48x8192 .bf16) (harg3 : arg3.IsWhole) (arg4 : Memref sig .tc .vmem S48x128 .bf16) (harg4 : arg4.IsWhole) (arg5 : Memref sig .tc .vmem S48x128 .bf16) (harg5 : arg5.IsWhole) (arg6 : Memref sig .tc .vmem S512x1 .f32) (harg6 : arg6.IsWhole) (arg7 : Memref sig .tc .vmem S512x48 .f32) (harg7 : arg7.IsWhole)
    (x0 : Vec F S512x4 .i32) (x1 : Vec F S48x32768 .bf16) (x2 : Vec F S48x8192 .bf16) (x3 : Vec F S48x128 .bf16) (x4 : Vec F S48x128 .bf16) :
    out0_5 c i arg1 harg1 arg2 harg2 arg3 harg3 arg4 harg4 arg5 harg5 arg6 harg6 arg7 harg7 x0 x1 x2 x3 x4
      = k0_pay2 (accAll x0 (tile1 arg2 (harg2.unread x1)) (tile2 arg3 (harg3.unread x2)) x3 x4) := by
  unfold out0_5
  rw [View.read_writes_eq_canon _ _ _ (cover0_5 c i arg1 harg1 arg2 harg2 arg3 harg3 arg4 harg4 arg5 harg5 arg6 harg6 arg7 harg7 x0 x1 x2 x3 x4), pieces_eq, View.canon_unit_zero hz2]

end Cert.KernelIdeal.Fr

end
-- ==== Proof.FrKernelIdeal.Blocks.lean ====
/-
  Where things sit. The index block at grid point t is rows 512 t … 512 t + 511 of the index array; each field's table
  window is its whole array at every point; trip k's tile of a large table is its columns 4096 k … 4096 k + 4095.
-/
import proofs.«416439_j75557064671821_3_alg».proof.Proof.FrKernelIdeal.Pieces
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The printed index maps, decided over the grid's eight points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A row of a grid point's block is a row of the array. -/
theorem row_lt (t : Fin cfg0.N) (r : Fin 512) : 512 * t.val + r.val < 4096 := by
  have h := t.isLt; have hN : cfg0.N = 8 := N_0; have := r.isLt; omega

/-- The index block at point `t` is rows `512 t …` of the index array. -/
theorem iblk0_apply (c : Dev nD) (t : Fin cfg0.N) (r : Fin 512) (f : Fin 4) :
    iblk m c 0 t (ix2 r f) = V m c main_arg0 (ix2 ⟨512 * t.val + r.val, row_lt t r⟩ f) := by
  obtain ⟨e00, e01, -⟩ := idx_facts t
  show V m c main_arg0 (((cfg0.win 0).blk t).view.emb (ix2 r f)) = _
  refine congrArg (V m c main_arg0) ?_
  funext a; apply Fin.ext
  match a with
  | ⟨0, _⟩ => show win0_0.index t (0 : Fin 2) * 512 + 1 * r.val = 512 * t.val + r.val; omega
  | ⟨1, _⟩ => show win0_0.index t (1 : Fin 2) * 4 + 1 * f.val = f.val; omega

/-- Window 1's block is its whole array at every point. -/
theorem iblk1_apply (c : Dev nD) (t : Fin cfg0.N) (j : Fin 48) (p : Fin 32768) :
    iblk m c 1 t (ix2 j p) = V m c main_v6 (ix2 j p) := by
  obtain ⟨-, -, e10, e11, e20, e21, e30, e31, e40, e41, -, -⟩ := idx_facts t
  show V m c main_v6 (((cfg0.win 1).blk t).view.emb (ix2 j p)) = _
  refine congrArg (V m c main_v6) ?_
  funext a; apply Fin.ext
  match a with
  | ⟨0, _⟩ => show win0_1.index t (0 : Fin 2) * 48 + 1 * j.val = j.val; omega
  | ⟨1, _⟩ => show win0_1.index t (1 : Fin 2) * 32768 + 1 * p.val = p.val; omega

/-- Window 2's block is its whole array at every point. -/
theorem iblk2_apply (c : Dev nD) (t : Fin cfg0.N) (j : Fin 48) (p : Fin 8192) :
    iblk m c 2 t (ix2 j p) = V m c main_v11 (ix2 j p) := by
  obtain ⟨-, -, e10, e11, e20, e21, e30, e31, e40, e41, -, -⟩ := idx_facts t
  show V m c main_v11 (((cfg0.win 2).blk t).view.emb (ix2 j p)) = _
  refine congrArg (V m c main_v11) ?_
  funext a; apply Fin.ext
  match a with
  | ⟨0, _⟩ => show win0_2.index t (0 : Fin 2) * 48 + 1 * j.val = j.val; omega
  | ⟨1, _⟩ => show win0_2.index t (1 : Fin 2) * 8192 + 1 * p.val = p.val; omega

/-- Window 3's block is its whole array at every point. -/
theorem iblk3_apply (c : Dev nD) (t : Fin cfg0.N) (j : Fin 48) (p : Fin 128) :
    iblk m c 3 t (ix2 j p) = V m c main_v16 (ix2 j p) := by
  obtain ⟨-, -, e10, e11, e20, e21, e30, e31, e40, e41, -, -⟩ := idx_facts t
  show V m c main_v16 (((cfg0.win 3).blk t).view.emb (ix2 j p)) = _
  refine congrArg (V m c main_v16) ?_
  funext a; apply Fin.ext
  match a with
  | ⟨0, _⟩ => show win0_3.index t (0 : Fin 2) * 48 + 1 * j.val = j.val; omega
  | ⟨1, _⟩ => show win0_3.index t (1 : Fin 2) * 128 + 1 * p.val = p.val; omega

/-- Window 4's block is its whole array at every point. -/
theorem iblk4_apply (c : Dev nD) (t : Fin cfg0.N) (j : Fin 48) (p : Fin 128) :
    iblk m c 4 t (ix2 j p) = V m c main_v21 (ix2 j p) := by
  obtain ⟨-, -, e10, e11, e20, e21, e30, e31, e40, e41, -, -⟩ := idx_facts t
  show V m c main_v21 (((cfg0.win 4).blk t).view.emb (ix2 j p)) = _
  refine congrArg (V m c main_v21) ?_
  funext a; apply Fin.ext
  match a with
  | ⟨0, _⟩ => show win0_4.index t (0 : Fin 2) * 48 + 1 * j.val = j.val; omega
  | ⟨1, _⟩ => show win0_4.index t (1 : Fin 2) * 128 + 1 * p.val = p.val; omega

theorem tile1_col_lt (k : Fin k0_t1_loop.trips) (l : Fin 4096) : 4096 * k.val + l.val < 32768 := by
  have h := k.isLt; have := k0_t1_abs.2.1; have := l.isLt; omega

theorem tile2_col_lt (k : Fin k0_t2_loop.trips) (l : Fin 4096) : 4096 * k.val + l.val < 8192 := by
  have h := k.isLt; have := k0_t2_abs.2.1; have := l.isLt; omega

/-- Trip `k`'s tile of field 0's table, at `(j, l)`: the table at column `4096 k + l`. -/
theorem tile1_apply (arg2 : Memref sig .tc .vmem S48x32768 .bf16) (harg2 : arg2.IsWhole) (x1 : Vec F S48x32768 .bf16)
    (k : Fin k0_t1_loop.trips) (j : Fin 48) (l : Fin 4096) :
    tile1 arg2 (harg2.unread x1) k (ix2 j l) = x1 (ix2 j ⟨4096 * k.val + l.val, tile1_col_lt k l⟩) := by
  unfold tile1
  rw [View.readAt_eq_ld, harg2.read_unread]
  show x1 ((Rect.unit (s := S48x32768) (k0_off1 k) S48x4096.size (k0_off1_inb k)).emb (ix2 j l)) = _
  refine congrArg x1 ?_
  funext a; apply Fin.ext
  rw [Rect.emb_apply]
  match a with
  | ⟨0, _⟩ => show k0_off1 k (0 : Fin 2) + 1 * j.val = j.val; rw [k0_off1_eq]; show 0 + 1 * j.val = j.val; omega
  | ⟨1, _⟩ => show k0_off1 k (1 : Fin 2) + 1 * l.val = 4096 * k.val + l.val; rw [k0_off1_eq]; show 4096 * k.val + 1 * l.val = _; omega

/-- Trip `k`'s tile of field 1's table likewise. -/
theorem tile2_apply (arg3 : Memref sig .tc .vmem S48x8192 .bf16) (harg3 : arg3.IsWhole) (x2 : Vec F S48x8192 .bf16)
    (k : Fin k0_t2_loop.trips) (j : Fin 48) (l : Fin 4096) :
    tile2 arg3 (harg3.unread x2) k (ix2 j l) = x2 (ix2 j ⟨4096 * k.val + l.val, tile2_col_lt k l⟩) := by
  unfold tile2
  rw [View.readAt_eq_ld, harg3.read_unread]
  show x2 ((Rect.unit (s := S48x8192) (k0_off2 k) S48x4096.size (k0_off2_inb k)).emb (ix2 j l)) = _
  refine congrArg x2 ?_
  funext a; apply Fin.ext
  rw [Rect.emb_apply]
  match a with
  | ⟨0, _⟩ => show k0_off2 k (0 : Fin 2) + 1 * j.val = j.val; rw [k0_off2_eq]; show 0 + 1 * j.val = j.val; omega
  | ⟨1, _⟩ => show k0_off2 k (1 : Fin 2) + 1 * l.val = 4096 * k.val + l.val; rw [k0_off2_eq]; show 4096 * k.val + 1 * l.val = _; omega

end Cert.KernelIdeal.Fr

end
-- ==== Proof.LibRowsDot.lean ====
/-
  A product of rows with rows read at an element, on the extended reals.

  For the dimension numbers of a matrix times the transpose of another — `[M, K]` by `[N, K]`, the left operand's
  axis 1 contracted with the right operand's axis 1, no batch axes — the operand indices at output element `(a, b)`
  and contraction coordinate `k` are `(a, k)` and `(b, k)`: row `a` of the left operand meets row `b` of the right
  one. So a product accumulated into the zero splat is, at `(a, b)`, the inner product of the two rows,
  `∑ k : Fin K, lhs (a, k) * rhs (b, k)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a product of rows with rows `[M, K] × [N, K] → [M, N]`: `lhs_contracting = [1]`,
    `rhs_contracting = [1]`, each operand's axis 0 an axis of the result, no batch axes. At a printed record every
    field is `rfl`. -/
structure RowsDot {M K N : Nat} (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

variable {M K N : Nat} {d : DotDims ⟨2, ![M, K]⟩ ⟨2, ![N, K]⟩ ⟨2, ![M, N]⟩}

/-- A product of rows with rows contracts one axis. -/
theorem RowsDot.rank_contr (hd : RowsDot d) : d.contr.rank = 1 := by
  rw [d.rank_contr, hd.lc]; rfl

/-- The contracted axis has extent `K`, the length of a row. -/
theorem RowsDot.size_contr (hd : RowsDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem RowsDot.lhs0 (hd : RowsDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem RowsDot.lhs1 (hd : RowsDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the output's column. -/
theorem RowsDot.rhs0 (hd : RowsDot d) (i : (⟨2, ![M, N]⟩ : Shape).Idx) (q : d.contr.Idx) :
    (d.rhsIdx i q 0).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The right operand's column is the contraction coordinate. -/
theorem RowsDot.rhs1 (hd : RowsDot d) (i : (⟨2, ![M, N]⟩ : Shape).Idx) (q : d.contr.Idx) :
    (d.rhsIdx i q 1).val = (q ⟨0, by rw [hd.rank_contr]; exact Nat.one_pos⟩).val :=
  d.rhsIdx_val_of_single hd.rc i q

/-- The contraction of a product of rows with rows, re-indexed by the contracted coordinate: at output element
    `(a, b)` it is the inner product of row `a` of the left operand and row `b` of the right one,
    `∑ k : Fin K, lhs (a, k) * rhs (b, k)`. -/
theorem RowsDot.sum_contr (hd : RowsDot d) (lhs : (⟨2, ![M, K]⟩ : Shape).Idx → EReal)
    (rhs : (⟨2, ![N, K]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 b k) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 b k :=
    funext fun x => Fin.ext (by
      match x with
      | ⟨0, _⟩ => exact hd.rhs0 _ _
      | ⟨1, _⟩ => exact (hd.rhs1 _ _).trans hk)
  rw [el, er]

/-- A product of rows with rows accumulated into the zero splat, at element `(a, b)`:
    `∑ k, lhs (a, k) * rhs (b, k)`. -/
theorem RowsDot.matmul_zero_apply (hd : RowsDot d) {φ₁ φ₂ : FTy} (prec : Option ContractPrecision)
    (lhs : FVec Ideal ⟨2, ![M, K]⟩ φ₁) (rhs : FVec Ideal ⟨2, ![N, K]⟩ φ₂) (a : Fin M) (b : Fin N) :
    FloatOps.matmul d prec lhs rhs (constant ⟨2, ![M, N]⟩ .f32 0x00000000#32) (ix2 a b)
      = ∑ k : Fin K, lhs (ix2 a k) * rhs (ix2 b k) :=
  (Ideal.matmul_constant_zero_apply d prec lhs rhs (ix2 a b)).trans (hd.sum_contr lhs rhs a b)

/-- The host's `dot_general` of rows with rows at element `(a, b)`: the same sum. -/
theorem RowsDot.dotGeneral_apply (hd : RowsDot d) {φ₁ φ₂ : FTy} (prec : Option ContractPrecision) (sched : HostSchedule)
    (lhs : FVec Ideal ⟨2, ![M, K]⟩ φ₁) (rhs : FVec Ideal ⟨2, ![N, K]⟩ φ₂) (a : Fin M) (b : Fin N) :
    FloatOps.dotGeneral d prec sched lhs rhs (ix2 a b) = ∑ k : Fin K, lhs (ix2 a k) * rhs (ix2 b k) :=
  (Ideal.dotGeneral_apply d prec sched lhs rhs (ix2 a b)).trans (hd.sum_contr lhs rhs a b)

end Cert.Lib

end
-- ==== Proof.LibMaskSum.lean ====
/-
  A 0/1-masked contraction over the extended reals is a sum over the mask's support.

  On the extended reals `x * 0 = 0` and `x * 1 = x` for EVERY `x`, the infinities included (the extended reals are a
  commutative monoid with zero), so a mask factor `if g i = k then 1 else 0` inside a sum keeps exactly the terms with
  `g i = k`, with no finiteness side condition. When the index set is `H` consecutive blocks of `B` and `g` is
  "which block" (`c / B`), the support of block `k` is the `B` positions `B * k + b`, and the sum over it is a sum
  over `Fin B`. The one-hot expansion `∑ h, t h * [q = h] = t q` is the same fact read the other way.
-/
import Mathlib.Data.EReal.Inv
import Mathlib.Algebra.BigOperators.Group.Finset.Basic
import Mathlib.Algebra.BigOperators.Group.Finset.Piecewise

open scoped BigOperators

namespace Cert.Lib

/-- A 0/1 mask factor on the extended reals: `(if c then 1 else 0) * a` is `a` where the condition holds and `0`
    where it does not, for every `a` (infinite ones too). -/
theorem mask_mul (c : Prop) [Decidable c] (a : EReal) : (if c then (1 : EReal) else 0) * a = if c then a else 0 := by
  split_ifs <;> simp

/-- The same with the mask on the right. -/
theorem mul_mask (c : Prop) [Decidable c] (a : EReal) : a * (if c then (1 : EReal) else 0) = if c then a else 0 := by
  split_ifs <;> simp

/-- A masked term of a contraction: `p * ((if c then 1 else 0) * a)` is `p * a` where the condition holds and `0`
    where it does not, for every `p`, `a` on the extended reals. -/
theorem mul_mask_mul (c : Prop) [Decidable c] (p a : EReal) :
    p * ((if c then (1 : EReal) else 0) * a) = if c then p * a else 0 := by
  split_ifs <;> simp

/-- A 0/1-masked contraction is the sum over the mask's support: for finite `ι`, any `g : ι → κ`, `k : κ` and any
    `p a : ι → EReal`, `∑ i, p i * ((if g i = k then 1 else 0) * a i) = ∑ i ∈ univ.filter (g · = k), p i * a i`. -/
theorem sum_mul_mask_mul {ι κ : Type*} [Fintype ι] [DecidableEq κ] (g : ι → κ) (k : κ) (p a : ι → EReal) :
    ∑ i, p i * ((if g i = k then (1 : EReal) else 0) * a i)
      = ∑ i ∈ Finset.univ.filter (fun i => g i = k), p i * a i := by
  rw [Finset.sum_filter]
  exact Finset.sum_congr rfl fun i _ => mul_mask_mul _ _ _

/-- The same for a mask stated by any decidable predicate `q` on the index. -/
theorem sum_mul_maskP_mul {ι : Type*} [Fintype ι] (q : ι → Prop) [DecidablePred q] (p a : ι → EReal) :
    ∑ i, p i * ((if q i then (1 : EReal) else 0) * a i) = ∑ i ∈ Finset.univ.filter q, p i * a i := by
  rw [Finset.sum_filter]
  exact Finset.sum_congr rfl fun i _ => mul_mask_mul _ _ _

/-- A masked sum with the mask as the only other factor: `∑ i, (if q i then 1 else 0) * a i` is the sum of `a` over
    the indices where `q` holds. -/
theorem sum_maskP_mul {ι : Type*} [Fintype ι] (q : ι → Prop) [DecidablePred q] (a : ι → EReal) :
    ∑ i, (if q i then (1 : EReal) else 0) * a i = ∑ i ∈ Finset.univ.filter q, a i := by
  rw [Finset.sum_filter]
  exact Finset.sum_congr rfl fun i _ => mask_mul _ _

/-- Position `B * k + b` of block `k < H` at offset `b < B` lies below `H * B`. -/
theorem block_pos_lt {n H B : Nat} (hn : n = H * B) (k : Fin H) (b : Fin B) : B * k.val + b.val < n := by
  subst hn
  calc B * k.val + b.val < B * k.val + B := Nat.add_lt_add_left b.isLt _
    _ = B * (k.val + 1) := (Nat.mul_succ _ _).symm
    _ ≤ B * H := Nat.mul_le_mul_left B k.isLt
    _ = H * B := Nat.mul_comm _ _

/-- The sum over block `k` of an index set of `H` consecutive blocks of `B`: the indices `c : Fin n`
    (`n = H * B`) with `c / B = k` are the `B` positions `B * k + b`, so the filtered sum is a sum over `Fin B`.
    For any additive commutative monoid. -/
theorem sum_filter_block {α : Type*} [AddCommMonoid α] {n H B : Nat} (hn : n = H * B) (k : Fin H) (f : Fin n → α) :
    ∑ c ∈ Finset.univ.filter (fun c : Fin n => c.val / B = k.val), f c
      = ∑ b : Fin B, f ⟨B * k.val + b.val, block_pos_lt hn k b⟩ := by
  symm
  refine Finset.sum_bij (fun b _ => (⟨B * k.val + b.val, block_pos_lt hn k b⟩ : Fin n)) ?_ ?_ ?_ ?_
  · intro b _
    have hB : 0 < B := Nat.lt_of_le_of_lt (Nat.zero_le _) b.isLt
    simp only [Finset.mem_filter, Finset.mem_univ, true_and]
    rw [Nat.mul_add_div hB, Nat.div_eq_of_lt b.isLt, Nat.add_zero]
  · intro b₁ _ b₂ _ h
    have := congrArg Fin.val h
    simp only at this
    exact Fin.ext (by omega)
  · intro c hc
    simp only [Finset.mem_filter, Finset.mem_univ, true_and] at hc
    have hB : 0 < B := Nat.pos_of_ne_zero (by
      rintro rfl
      have h1 : c.val < H * 0 := lt_of_lt_of_eq c.isLt hn
      exact absurd h1 (by simp))
    refine ⟨⟨c.val % B, Nat.mod_lt _ hB⟩, Finset.mem_univ _, ?_⟩
    apply Fin.ext
    show B * k.val + c.val % B = c.val
    rw [← hc]; exact Nat.div_add_mod _ _
  · intro b _; rfl

/-- The block form of the masked contraction: over `Fin n` with `n = H * B` and the mask "`c` lies in block `k`"
    (`c / B = k`), `∑ c, p c * ((if c / B = k then 1 else 0) * a c) = ∑ b : Fin B, p (B·k + b) * a (B·k + b)`. -/
theorem sum_mul_blockmask_mul {n H B : Nat} (hn : n = H * B) (k : Fin H) (p a : Fin n → EReal) :
    ∑ c : Fin n, p c * ((if c.val / B = k.val then (1 : EReal) else 0) * a c)
      = ∑ b : Fin B, p ⟨B * k.val + b.val, block_pos_lt hn k b⟩ * a ⟨B * k.val + b.val, block_pos_lt hn k b⟩ := by
  rw [sum_mul_maskP_mul (fun c : Fin n => c.val / B = k.val) p a]
  exact sum_filter_block hn k fun c => p c * a c

/-- The one-hot expansion: `∑ h : Fin H, t h * (if j = h then 1 else 0) = t j` on the extended reals. -/
theorem sum_mul_onehot {H : Nat} (t : Fin H → EReal) (j : Fin H) :
    ∑ h : Fin H, t h * (if j = h then (1 : EReal) else 0) = t j := by
  simp only [mul_mask]
  rw [Finset.sum_ite_eq Finset.univ j t, if_pos (Finset.mem_univ _)]

/-- The one-hot expansion with the selected position a natural number `q < H` compared with the summation index's
    value: `∑ h : Fin H, t h * (if q = h then 1 else 0) = t q`. With `q = c / B` for `c < H * B` this is the block
    number of `c`. -/
theorem sum_mul_onehot_val {H : Nat} (t : Fin H → EReal) (q : Nat) (hq : q < H) :
    ∑ h : Fin H, t h * (if q = h.val then (1 : EReal) else 0) = t ⟨q, hq⟩ := by
  rw [← sum_mul_onehot t ⟨q, hq⟩]
  refine Finset.sum_congr rfl fun h _ => ?_
  have : (q = h.val) ↔ ((⟨q, hq⟩ : Fin H) = h) := ⟨fun e => Fin.ext e, fun e => congrArg Fin.val e⟩
  simp only [this]

/-- The block number of a position below `H * B` is below `H`. -/
theorem block_lt {n H B : Nat} (hn : n = H * B) (c : Fin n) : c.val / B < H := by
  have hc : c.val < H * B := lt_of_lt_of_eq c.isLt hn
  exact Nat.div_lt_of_lt_mul (lt_of_lt_of_eq hc (Nat.mul_comm H B))

/-- The one-hot expansion at a block number: for `c : Fin n`, `n = H * B`,
    `∑ h : Fin H, t h * (if c / B = h then 1 else 0) = t (c / B)`. -/
theorem sum_mul_onehot_block {n H B : Nat} (hn : n = H * B) (t : Fin H → EReal) (c : Fin n) :
    ∑ h : Fin H, t h * (if c.val / B = h.val then (1 : EReal) else 0) = t ⟨c.val / B, block_lt hn c⟩ :=
  sum_mul_onehot_val t _ _

end Cert.Lib
-- ==== Proof.LibRowReduce.lean ====
/-
  Row reductions of a matrix and the "keepdims" column they are carried in, read at coordinates.

  A matrix of shape `[a, b]` reduced along its second axis gives one number per row. Kept as a column `[a, 1]`
  (a shape cast of the `[a]` vector) and broadcast back over the `b` columns, entry `(r, c)` of the broadcast is
  the number of row `r`. At the extended reals the sum along a row is the finite sum of the row's entries, and the
  maximum along a row is the fold of `max` over them from the accumulator's value.
-/
import Idealize.ShloMosaic.Lib.ValueLayout
import Idealize.ShloMosaic.PureOps.Ideal.Laws

noncomputable section

namespace Cert.RowReduce

open Idealize.ShloMosaic Idealize.ShloMosaic.ValueIdx

variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(i, j)`, the column at row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Along the second axis of `[a, b]`, the source index over row `r` with coordinate `k` inserted is `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

variable {φ : FTy}

/-- A sum along the rows of a matrix of extended reals, at row `r`: the finite sum of that row's entries. -/
theorem rowSum_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the rows of a matrix of extended reals, at row `r`: the fold of `max` over that row's entries
    from the accumulator's value. -/
theorem rowMax_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (lift_row h r k))

end Cert.RowReduce

end
-- ==== Proof.Val.AccValue.lean ====
/- What the kernel body's scratch holds at an element, on the extended reals.
   Each step of the body adds to the scratch the product of a 0/1 matrix with the rows of a table
   slice: entry (r, l) of the 0/1 matrix is 1 exactly when row r's index word, less the slice's
   first column, is the lane number l.  A 0/1 factor keeps or kills its term on every extended real,
   so the product's entry (r, c) is the slice's entry (c, l) at the one lane l that matches, and 0
   when no lane of the slice does.  Folding the eight slices of the first field, the two of the
   second, and the single tables of the last two, the scratch at (r, c) is the sum of the four
   table entries that row r's four index words name. -/
import proofs.«416439_j75557064671821_3_alg».proof.Proof.Val.Acc
import proofs.«416439_j75557064671821_3_alg».proof.Proof.LibRowsDot
import proofs.«416439_j75557064671821_3_alg».proof.Proof.LibMaskSum
import proofs.«416439_j75557064671821_3_alg».proof.Proof.LibRowReduce
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Idealize.ShloMosaic Idealize.SL.Sem Idealize.ShloMosaic.ValueIdx
open Cert.KernelIdeal Cert.KernelIdeal.Gen

/-! ## Words -/

/-- A word less the word of `a` is the word of `l` exactly when the word's value is `a + l`, as long as
   `a + l` fits in 32 bits. -/
theorem sub_ofNat_eq_ofNat_iff (w : BitVec 32) (a l : ℕ) (h : a + l < 2 ^ 32) :
    w - BitVec.ofNat 32 a = BitVec.ofNat 32 l ↔ w.toNat = a + l := by
  have hw := w.isLt
  constructor
  · intro e
    have := congrArg BitVec.toNat e
    simp only [BitVec.toNat_sub, BitVec.toNat_ofNat] at this
    omega
  · intro e
    apply BitVec.eq_of_toNat_eq
    simp only [BitVec.toNat_sub, BitVec.toNat_ofNat]
    omega

/-- The column offset the body computes at trip `k`: `4096 * k` as a word. -/
theorem tripWord_eq (k : ℕ) :
    Scalar.muli (Scalar.addi 0#32 (Scalar.muli (Scf.iv 0#32 1#32 k) 1#32)) 4096#32 = BitVec.ofNat 32 (4096 * k) := by
  simp only [Scalar.muli, Scalar.addi, IntOp.muli, IntOp.addi, Scf.iv]
  rw [BitVec.ofNat_mul]
  simp only [BitVec.zero_add, BitVec.mul_one]
  exact BitVec.mul_comm _ _

/-- The widened bit of a word comparison, converted to a number at the extended reals: 1 where the
   words agree, 0 where they differ. -/
theorem maskBit_eq (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  by_cases h : a = b
  · subst h
    simp [IntOp.cmpi]
  · rw [if_neg h]
    have : (a == b) = false := by simpa using h
    simp [IntOp.cmpi, this]

/-! ## A sum against a one-lane mask -/

/-- Over `N` lanes, the sum of `f` against the mask "the number `X` is `N * k` plus the lane" keeps the one
   lane `X % N` when `X` lies in block `k`, and nothing otherwise. -/
theorem sum_laneMask_mul (N : ℕ) (hN : 0 < N) (X k : ℕ) (f : Fin N → EReal) :
    ∑ l : Fin N, (if X = N * k + l.val then (1 : EReal) else 0) * f l
      = if X / N = k then f ⟨X % N, Nat.mod_lt _ hN⟩ else 0 := by
  simp only [Cert.Lib.mask_mul]
  by_cases hk : X / N = k
  · rw [if_pos hk]
    have hiff : ∀ l : Fin N, (X = N * k + l.val) ↔ l = ⟨X % N, Nat.mod_lt _ hN⟩ := by
      intro l
      constructor
      · intro e
        apply Fin.ext
        show l.val = X % N
        rw [e, Nat.mul_add_mod, Nat.mod_eq_of_lt l.isLt]
      · intro e
        have : l.val = X % N := congrArg Fin.val e
        rw [this, ← hk]
        exact (Nat.div_add_mod X N).symm
    simp only [hiff]
    rw [Finset.sum_ite_eq' Finset.univ _ f, if_pos (Finset.mem_univ _)]
  · rw [if_neg hk]
    refine Finset.sum_eq_zero fun l _ => ?_
    rw [if_neg]
    intro e
    apply hk
    rw [e, Nat.mul_add_div hN, Nat.div_eq_of_lt l.isLt, Nat.add_zero]

/-! ## The 0/1 matrix and one step of the body -/

/-- The 0/1 matrix the body builds from a column of words: entry `(r, l)` compares row `r`'s word with
   the lane number `l`, widens the bit and converts it; on the extended reals it is 1 or 0. -/
theorem hot_apply {N : ℕ} (col : IVec ⟨2, ![512, 1]⟩ 32)
    (hb : (⟨2, ![512, 1]⟩ : Shape).Broadcasts ⟨2, ![512, N]⟩) (hi : (⟨2, ![512, N]⟩ : Shape).Iotas .tc 32 [1])
    (h1 : 1 < 32) (h2 : FTy.bits .bf16 < FTy.bits .f32) (r : Fin 512) (l : Fin N) :
    (truncf .bf16 (sitofp (F := Ideal) .f32 (extui 32 (cmpi .eq (broadcastTo ⟨2, ![512, N]⟩ col hb)
        (iota .tc ⟨2, ![512, N]⟩ 32 [1] hi)) h1)) h2 : FVec Ideal ⟨2, ![512, N]⟩ .bf16) (ix2 r l)
      = if col (ix2 r (0 : Fin 1)) = BitVec.ofNat 32 l.val then (1 : EReal) else 0 := by
  rw [truncf_apply, sitofp_apply, extui_apply]
  show FloatOps.sitofp (F := Ideal) .f32 ((IntOp.cmpi .eq (broadcastTo ⟨2, ![512, N]⟩ col hb (ix2 r l))
    (iota .tc ⟨2, ![512, N]⟩ 32 [1] hi (ix2 r l))).setWidth 32) = _
  rw [Cert.RowReduce.broadcastTo_a1_ab_apply, iota_single_apply, maskBit_eq]
  rfl

/-- One step of the body at an element. The column holds each row's index word less the word of
   `N * k` (the first column of the table slice in hand); the product of its 0/1 matrix with the rows
   of the slice, into the zero splat, is at `(r, c)` the slice's entry `(c, X % N)` when the word's value
   `X` lies in block `k`, and 0 otherwise. -/
theorem hotStep_apply {N : ℕ} (hN : 0 < N) (d : DotDims ⟨2, ![512, N]⟩ ⟨2, ![48, N]⟩ ⟨2, ![512, 48]⟩)
    (hd : Cert.Lib.RowsDot d) (col : IVec ⟨2, ![512, 1]⟩ 32)
    (hb : (⟨2, ![512, 1]⟩ : Shape).Broadcasts ⟨2, ![512, N]⟩) (hi : (⟨2, ![512, N]⟩ : Shape).Iotas .tc 32 [1])
    (h1 : 1 < 32) (h2 : FTy.bits .bf16 < FTy.bits .f32) (tbl : FVec Ideal ⟨2, ![48, N]⟩ .bf16)
    (k : ℕ) (w : BitVec 32) (r : Fin 512) (c : Fin 48)
    (hcol : col (ix2 r (0 : Fin 1)) = w - BitVec.ofNat 32 (N * k)) (hfit : N * k + N ≤ 2 ^ 32) :
    FloatOps.matmul d none
        (truncf .bf16 (sitofp (F := Ideal) .f32 (extui 32 (cmpi .eq (broadcastTo ⟨2, ![512, N]⟩ col hb)
          (iota .tc ⟨2, ![512, N]⟩ 32 [1] hi)) h1)) h2 : FVec Ideal ⟨2, ![512, N]⟩ .bf16)
        tbl (constant ⟨2, ![512, 48]⟩ .f32 0x00000000#32) (ix2 r c)
      = if w.toNat / N = k then tbl (ix2 c ⟨w.toNat % N, Nat.mod_lt _ hN⟩) else 0 := by
  refine (hd.matmul_zero_apply none _ tbl r c).trans ?_
  refine Eq.trans (Finset.sum_congr rfl fun l _ => ?_) (sum_laneMask_mul N hN w.toNat k fun l => tbl (ix2 c l))
  rw [hot_apply, hcol]
  have hl := l.isLt
  simp only [sub_ofNat_eq_ofNat_iff w (N * k) l.val (by omega)]

/-! ## The payloads at an element -/

/-- The first loop runs eight trips, the second two. -/
theorem trips1_eq : k0_t1_loop.trips = 8 := by decide
theorem trips2_eq : k0_t2_loop.trips = 2 := by decide

/-- The cleared scratch is zero everywhere. -/
theorem pay3_apply (j : S512x48.Idx) : (k0_pay3 (F := Ideal)) j = 0 := by
  unfold k0_pay3
  simp only [shapeCast_self]
  exact Ideal.ofBits_zero_f32

/-- Trip `k` over the first field's table: the scratch gains the slice's entry `(c, X % 4096)` when row
   `r`'s first index word `X` lies in block `k`, and is unchanged otherwise. -/
theorem pay4_apply (v4 : Vec Ideal S512x4 .i32) (k : Fin k0_t1_loop.trips) (s : Vec Ideal S48x4096 .bf16)
    (acc : Vec Ideal S512x48 .f32) (r : Fin 512) (c : Fin 48) (X : ℕ) (hX : (v4 (ix2 r (0 : Fin 4))).toNat = X) :
    k0_pay4 v4 k s acc (ix2 r c)
      = acc (ix2 r c) + (if X / 4096 = k.val then s (ix2 c ⟨X % 4096, Nat.mod_lt _ (by decide)⟩) else 0) := by
  subst hX
  have hk : k.val < 8 := lt_of_lt_of_eq k.isLt trips1_eq
  unfold k0_pay4
  simp only [shapeCast_self, matmul]
  rw [addf_apply]
  congr 1
  refine hotStep_apply (N := 4096) (by decide) _ ⟨rfl, rfl, rfl, rfl, rfl, rfl⟩ _ _ _ _ _ s k.val
    (v4 (ix2 r (0 : Fin 4))) r c ?_ (by omega)
  show IntOp.subi (extractStridedSlice S512x1 ![0, 0] v4 slices_S512x4_o0_0_S512x1 (ix2 r (0 : Fin 1))) _ = _
  rw [slice2_axis1_apply 0 v4 _ r (0 : Fin 1) (0 : Fin 4) rfl, tripWord_eq]
  rfl

/-- Trip `k` over the second field's table, the same with row `r`'s second index word. -/
theorem pay5_apply (v4 : Vec Ideal S512x4 .i32) (k : Fin k0_t2_loop.trips) (s : Vec Ideal S48x4096 .bf16)
    (acc : Vec Ideal S512x48 .f32) (r : Fin 512) (c : Fin 48) (X : ℕ) (hX : (v4 (ix2 r (1 : Fin 4))).toNat = X) :
    k0_pay5 v4 k s acc (ix2 r c)
      = acc (ix2 r c) + (if X / 4096 = k.val then s (ix2 c ⟨X % 4096, Nat.mod_lt _ (by decide)⟩) else 0) := by
  subst hX
  have hk : k.val < 2 := lt_of_lt_of_eq k.isLt trips2_eq
  unfold k0_pay5
  simp only [shapeCast_self, matmul]
  rw [addf_apply]
  congr 1
  refine hotStep_apply (N := 4096) (by decide) _ ⟨rfl, rfl, rfl, rfl, rfl, rfl⟩ _ _ _ _ _ s k.val
    (v4 (ix2 r (1 : Fin 4))) r c ?_ (by omega)
  show IntOp.subi (extractStridedSlice S512x1 ![0, 1] v4 slices_S512x4_o0_1_S512x1 (ix2 r (0 : Fin 1))) _ = _
  rw [slice2_axis1_apply 1 v4 _ r (0 : Fin 1) (1 : Fin 4) rfl, tripWord_eq]
  rfl

/-- The third field's step: its table has 128 columns and row `r`'s third index word `X` is below 128,
   so the scratch gains the table's entry `(c, X)`. -/
theorem pay6_apply (v4 : Vec Ideal S512x4 .i32) (x3 : Vec Ideal S48x128 .bf16) (acc : Vec Ideal S512x48 .f32)
    (r : Fin 512) (c : Fin 48) (X : ℕ) (hX : (v4 (ix2 r (2 : Fin 4))).toNat = X) (h : X < 128) :
    k0_pay6 v4 x3 acc (ix2 r c) = acc (ix2 r c) + x3 (ix2 c ⟨X, h⟩) := by
  subst hX
  unfold k0_pay6
  simp only [shapeCast_self, matmul]
  rw [addf_apply]
  congr 1
  refine (hotStep_apply (N := 128) (by decide) _ ⟨rfl, rfl, rfl, rfl, rfl, rfl⟩ _ _ _ _ _ x3 0
    (v4 (ix2 r (2 : Fin 4))) r c ?_ (by omega)).trans ?_
  · rw [slice2_axis1_apply 2 v4 _ r (0 : Fin 1) (2 : Fin 4) rfl]
    simp
  · rw [if_pos (Nat.div_eq_of_lt h)]
    exact congrArg (fun l => x3 (ix2 c l)) (Fin.ext (Nat.mod_eq_of_lt h))

/-- The fourth field's step, the same with row `r`'s fourth index word. -/
theorem pay1_apply (v4 : Vec Ideal S512x4 .i32) (x4 : Vec Ideal S48x128 .bf16) (acc : Vec Ideal S512x48 .f32)
    (r : Fin 512) (c : Fin 48) (X : ℕ) (hX : (v4 (ix2 r (3 : Fin 4))).toNat = X) (h : X < 128) :
    k0_pay1 (k0_pay7 x4) (k0_pay8 v4) acc (ix2 r c) = acc (ix2 r c) + x4 (ix2 c ⟨X, h⟩) := by
  subst hX
  unfold k0_pay1 k0_pay7 k0_pay8
  simp only [shapeCast_self, matmul]
  rw [addf_apply]
  congr 1
  refine (hotStep_apply (N := 128) (by decide) _ ⟨rfl, rfl, rfl, rfl, rfl, rfl⟩ _ _ _ _ _ x4 0
    (v4 (ix2 r (3 : Fin 4))) r c ?_ (by omega)).trans ?_
  · rw [slice2_axis1_apply 3 v4 _ r (0 : Fin 1) (3 : Fin 4) rfl]
    simp
  · rw [if_pos (Nat.div_eq_of_lt h)]
    exact congrArg (fun l => x4 (ix2 c l)) (Fin.ext (Nat.mod_eq_of_lt h))

/-! ## The two folds and the whole body -/

/-- After `n` trips over the first field's table the scratch holds, at `(r, c)`, the table entry row `r`'s
   first index word names once its block has been passed, and 0 before. -/
theorem acc1_apply (v4 : Vec Ideal S512x4 .i32) (s1 : Fin k0_t1_loop.trips → Vec Ideal S48x4096 .bf16)
    (r : Fin 512) (c : Fin 48) (X : ℕ) (hX : (v4 (ix2 r (0 : Fin 4))).toNat = X)
    (hq : X / 4096 < k0_t1_loop.trips) (n : ℕ) (hn : n ≤ k0_t1_loop.trips) :
    acc1 v4 s1 n (ix2 r c)
      = if X / 4096 < n then s1 ⟨X / 4096, hq⟩ (ix2 c ⟨X % 4096, Nat.mod_lt _ (by decide)⟩) else 0 := by
  induction n with
  | zero =>
    rw [if_neg (Nat.not_lt_zero _)]
    exact pay3_apply _
  | succ n ih =>
    have hlt : n < k0_t1_loop.trips := hn
    rw [acc1, dif_pos hlt, pay4_apply v4 ⟨n, hlt⟩ (s1 ⟨n, hlt⟩) _ r c X hX, ih (Nat.le_of_lt hlt)]
    by_cases e : X / 4096 = n
    · have e' : (⟨n, hlt⟩ : Fin k0_t1_loop.trips) = ⟨X / 4096, hq⟩ := Fin.ext e.symm
      rw [if_neg (by omega), if_pos e, if_pos (by omega), zero_add, e']
    · rw [if_neg e, add_zero]
      by_cases l : X / 4096 < n
      · rw [if_pos l, if_pos (by omega)]
      · rw [if_neg l, if_neg (by omega)]

/-- After `n` trips over the second field's table, started from `a`: `a` plus the table entry row `r`'s
   second index word names once its block has been passed. -/
theorem acc2_apply (v4 : Vec Ideal S512x4 .i32) (s2 : Fin k0_t2_loop.trips → Vec Ideal S48x4096 .bf16)
    (a : FVec Ideal S512x48 .f32) (r : Fin 512) (c : Fin 48) (X : ℕ) (hX : (v4 (ix2 r (1 : Fin 4))).toNat = X)
    (hq : X / 4096 < k0_t2_loop.trips) (n : ℕ) (hn : n ≤ k0_t2_loop.trips) :
    acc2 v4 s2 a n (ix2 r c)
      = a (ix2 r c)
        + (if X / 4096 < n then s2 ⟨X / 4096, hq⟩ (ix2 c ⟨X % 4096, Nat.mod_lt _ (by decide)⟩) else 0) := by
  induction n with
  | zero =>
    rw [if_neg (Nat.not_lt_zero _), add_zero]
    rfl
  | succ n ih =>
    have hlt : n < k0_t2_loop.trips := hn
    rw [acc2, dif_pos hlt, pay5_apply v4 ⟨n, hlt⟩ (s2 ⟨n, hlt⟩) _ r c X hX, ih (Nat.le_of_lt hlt)]
    by_cases e : X / 4096 = n
    · have e' : (⟨n, hlt⟩ : Fin k0_t2_loop.trips) = ⟨X / 4096, hq⟩ := Fin.ext e.symm
      rw [if_neg (by omega), if_pos e, if_pos (by omega), add_zero, e']
    · rw [if_neg e, add_zero]
      by_cases l : X / 4096 < n
      · rw [if_pos l, if_pos (by omega)]
      · rw [if_neg l, if_neg (by omega)]

/-- The scratch at the end of the body, at `(r, c)`, with row `r`'s four index words named `X0 … X3`: the sum
   of the four table entries they name, in the order the body adds them. It holds on all extended
   reals: the only arithmetic used is `0 + a = a`, `a + 0 = a` and a 0/1 factor. -/
theorem accAll_apply_nat (v4 : Vec Ideal S512x4 .i32) (s1 : Fin k0_t1_loop.trips → Vec Ideal S48x4096 .bf16)
    (s2 : Fin k0_t2_loop.trips → Vec Ideal S48x4096 .bf16) (x3 x4 : Vec Ideal S48x128 .bf16)
    (r : Fin 512) (c : Fin 48) (X0 X1 X2 X3 : ℕ)
    (e0 : (v4 (ix2 r (0 : Fin 4))).toNat = X0) (e1 : (v4 (ix2 r (1 : Fin 4))).toNat = X1)
    (e2 : (v4 (ix2 r (2 : Fin 4))).toNat = X2) (e3 : (v4 (ix2 r (3 : Fin 4))).toNat = X3)
    (h0 : X0 < 32768) (h1 : X1 < 8192) (h2 : X2 < 128) (h3 : X3 < 128) :
    accAll (F := Ideal) v4 s1 s2 x3 x4 (ix2 r c)
      = s1 ⟨X0 / 4096, by rw [trips1_eq]; omega⟩ (ix2 c ⟨X0 % 4096, Nat.mod_lt _ (by decide)⟩)
        + s2 ⟨X1 / 4096, by rw [trips2_eq]; omega⟩ (ix2 c ⟨X1 % 4096, Nat.mod_lt _ (by decide)⟩)
        + x3 (ix2 c ⟨X2, h2⟩) + x4 (ix2 c ⟨X3, h3⟩) := by
  have q0 : X0 / 4096 < k0_t1_loop.trips := by rw [trips1_eq]; omega
  have q1 : X1 / 4096 < k0_t2_loop.trips := by rw [trips2_eq]; omega
  unfold accAll
  rw [pay1_apply v4 x4 _ r c X3 e3 h3, pay6_apply v4 x3 _ r c X2 e2 h2,
    acc2_apply v4 s2 _ r c X1 e1 q1 _ (Nat.le_refl _), acc1_apply v4 s1 r c X0 e0 q0 _ (Nat.le_refl _),
    if_pos q0, if_pos q1]

/-- The same with the index words written out. -/
theorem accAll_apply (v4 : Vec Ideal S512x4 .i32) (s1 : Fin k0_t1_loop.trips → Vec Ideal S48x4096 .bf16)
    (s2 : Fin k0_t2_loop.trips → Vec Ideal S48x4096 .bf16) (x3 x4 : Vec Ideal S48x128 .bf16)
    (r : Fin 512) (c : Fin 48)
    (h0 : (v4 (ix2 r (0 : Fin 4))).toNat < 32768) (h1 : (v4 (ix2 r (1 : Fin 4))).toNat < 8192)
    (h2 : (v4 (ix2 r (2 : Fin 4))).toNat < 128) (h3 : (v4 (ix2 r (3 : Fin 4))).toNat < 128) :
    accAll (F := Ideal) v4 s1 s2 x3 x4 (ix2 r c)
      = s1 ⟨(v4 (ix2 r (0 : Fin 4))).toNat / 4096, by rw [trips1_eq]; omega⟩
            (ix2 c ⟨(v4 (ix2 r (0 : Fin 4))).toNat % 4096, Nat.mod_lt _ (by decide)⟩)
        + s2 ⟨(v4 (ix2 r (1 : Fin 4))).toNat / 4096, by rw [trips2_eq]; omega⟩
            (ix2 c ⟨(v4 (ix2 r (1 : Fin 4))).toNat % 4096, Nat.mod_lt _ (by decide)⟩)
        + x3 (ix2 c ⟨(v4 (ix2 r (2 : Fin 4))).toNat, h2⟩) + x4 (ix2 c ⟨(v4 (ix2 r (3 : Fin 4))).toNat, h3⟩) :=
  accAll_apply_nat v4 s1 s2 x3 x4 r c _ _ _ _ rfl rfl rfl rfl h0 h1 h2 h3

end Cert.KernelIdeal.Val

end
-- ==== Proof.FmSpec.lean ====
/-
  The factorization machine both programs compute, stated once over the argument arrays.

  A batch row carries one index per field (user, item, genre, year); field `f`'s index `x b f` names row
  `off f + x b f` of the concatenated tables. With `e_f` that row of the embedding table and `β_f` that row of
  the bias column, the logit of row `b` is

      Σ_f β_f  +  ½ · Σ_k ( (Σ_f e_f k)² − Σ_f (e_f k)² ),

  and the result is its logistic. The sums are over the four fields and the sixteen embedding coordinates; all
  entries are real numbers (the inputs are finite), so the logit is a real number and the only extended-real
  operation left is the logistic itself.
-/
import Idealize.ShloMosaic.PureOps.Ideal
import Idealize.ShloMosaic.Lib.ValueIdx

noncomputable section

open scoped BigOperators

namespace Cert.Fm

open Idealize.ShloMosaic Idealize.ShloMosaic.ValueIdx

/-- The index array `[4096, 4]`, the embedding table `[38279, 16]`, the bias column `[38279, 1]`, the result `[4096, 1]`. -/
abbrev SX : Shape := ⟨2, ![4096, 4]⟩
abbrev SV : Shape := ⟨2, ![38279, 16]⟩
abbrev SB : Shape := ⟨2, ![38279, 1]⟩
abbrev SO : Shape := ⟨2, ![4096, 1]⟩

/-- Where each field's table starts in the concatenated table, and how many rows it has. -/
def off : Fin 4 → ℕ := ![0, 31360, 38167, 38185]
def card : Fin 4 → ℕ := ![31360, 6807, 18, 94]

/-- Every index word, read as an unsigned number, is below its own field's cardinality. -/
def InRange (x : IVec SX 32) : Prop := ∀ (b : Fin 4096) (f : Fin 4), (x (ix2 b f)).toNat < card f

/-- Every entry of an array of extended reals is a real number. -/
def Finite {S : Shape} (a : S.Idx → EReal) : Prop := ∀ i, a i ≠ ⊤ ∧ a i ≠ ⊥

/-- The row of the concatenated table that field `f` of batch row `b` names. -/
def grow (x : IVec SX 32) (b : Fin 4096) (f : Fin 4) : ℕ := off f + (x (ix2 b f)).toNat

theorem grow_lt {x : IVec SX 32} (h : InRange x) (b : Fin 4096) (f : Fin 4) : grow x b f < 38279 := by
  have := h b f
  fin_cases f <;> simp [grow, off, card] at this ⊢ <;> omega

/-- Distinct fields name distinct rows: the fields' row ranges are disjoint. -/
theorem grow_injective {x : IVec SX 32} (h : InRange x) (b : Fin 4096) : Function.Injective (grow x b) := by
  intro f f' hff
  have h1 := h b f
  have h2 := h b f'
  fin_cases f <;> fin_cases f' <;> simp [grow, off, card] at h1 h2 hff ⊢ <;> omega

/-- Entry `(g, k)` of the embedding table as a real number (zero past the table). -/
def vAt (v : SV.Idx → EReal) (g : ℕ) (k : Fin 16) : ℝ :=
  if h : g < 38279 then (v (ix2 ⟨g, h⟩ k)).toReal else 0

/-- Entry `g` of the bias column as a real number (zero past the table). -/
def bAt (bias : SB.Idx → EReal) (g : ℕ) : ℝ :=
  if h : g < 38279 then (bias (ix2 ⟨g, h⟩ (0 : Fin 1))).toReal else 0

/-- The logit of batch row `b`. -/
def logit (x : IVec SX 32) (v : SV.Idx → EReal) (bias : SB.Idx → EReal) (b : Fin 4096) : ℝ :=
  (∑ f : Fin 4, bAt bias (grow x b f))
    + (1 / 2 : ℝ) * ∑ k : Fin 16, ((∑ f : Fin 4, vAt v (grow x b f) k) ^ 2 - ∑ f : Fin 4, (vAt v (grow x b f) k) ^ 2)

/-- The result array: the logistic of each row's logit. -/
def G (x : IVec SX 32) (v : SV.Idx → EReal) (bias : SB.Idx → EReal) : SO.Idx → EReal :=
  fun i => Ideal.logistic ((logit x v bias (i 0) : ℝ) : EReal)

theorem G_apply (x : IVec SX 32) (v : SV.Idx → EReal) (bias : SB.Idx → EReal) (b : Fin 4096) (u : Fin 1) :
    G x v bias (ix2 b u) = Ideal.logistic ((logit x v bias b : ℝ) : EReal) := rfl

/-- A finite entry is the coercion of its real part. -/
theorem Finite.coe_toReal {S : Shape} {a : S.Idx → EReal} (h : Finite a) (i : S.Idx) : ((a i).toReal : EReal) = a i :=
  EReal.coe_toReal (h i).1 (h i).2

end Cert.Fm

end
-- ==== Proof.FmTable.lean ====
/-
  The tables the kernel program lays out on the host before its region.

  Row `g` of the concatenated embedding table is widened to 33 entries: its 16 coordinates, their 16 squares, and its
  bias. Field `f`'s table is that field's rows of the widened table, transposed (entry `(j, p)` is widened coordinate
  `j` of the field's row `p`), and zero wherever `j` is not one of the 33 coordinates or `p` is not a row of the field
  (the padding to 48 rows and to the field's padded length).
-/
import proofs.«416439_j75557064671821_3_alg».proof.Proof.FmSpec

noncomputable section

namespace Cert.Fm

open Idealize.ShloMosaic Idealize.ShloMosaic.ValueIdx

/-- Widened coordinate `j < 33` of row `g` of the concatenated table: coordinate `j`, the square of coordinate
    `j - 16`, or the bias. -/
def aug (v : SV.Idx → EReal) (bias : SB.Idx → EReal) (g : Fin 38279) (j : ℕ) : EReal :=
  if h : j < 16 then v (ix2 g ⟨j, h⟩)
  else if h2 : j < 32 then v (ix2 g ⟨j - 16, by omega⟩) * v (ix2 g ⟨j - 16, by omega⟩)
  else bias (ix2 g (0 : Fin 1))

/-- Field `f`'s rows start at `off f` and stay inside the concatenated table. -/
theorem off_add_lt (f : Fin 4) {p : ℕ} (hp : p < card f) : off f + p < 38279 := by
  fin_cases f <;> simp [off, card] at hp ⊢ <;> omega

/-- Entry `(j, p)` of field `f`'s padded, transposed table. -/
def table (v : SV.Idx → EReal) (bias : SB.Idx → EReal) (f : Fin 4) (j p : ℕ) : EReal :=
  if h : j < 33 ∧ p < card f then aug v bias ⟨off f + p, off_add_lt f h.2⟩ j else 0

end Cert.Fm

end
-- ==== Proof.LibNary3.lean ====
/-
  A general lemma about the host operation builder of several operands (`StableHlo.nary`), for a literal
  family of THREE references — a `stablehlo.concatenate` of three operands prints so.
-/
import Idealize.ShloMosaic.Lib.StableHlo.Run

noncomputable section

namespace Idealize.ShloMosaic.StableHlo

open Idealize.SL.Sem

variable {τ : Topo} {sig : RefSig} {Val : EltTy → Type}
variable {x a b y : Ref sig .tc}

/-- `nary` over a literal family of three references writes, at its result reference, its function of the three
    operands' contents, each read AT ITS OWN REFERENCE: `Fin.cons (F ↑x) (Fin.cons (F ↑a) (Fin.cons (F ↑b) …))` in place
    of `fun k => F ↑(![x, a, b] k)`. Under the binder the reference `![x, a, b] k` is no literal, so no result lemma
    of an earlier operation applies to it; in this form the rewriting of the operands' contents goes on, and the
    function's body with `u k` read as operand `k`'s term is the result by β and `Fin.cons` at the literals 0, 1, 2.
    The three-operand companion of the library's `nary4_result`. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) :=
  (nary_result ![x, a, b] y f hxs hy F).trans (congrArg f (funext fun k => by fin_cases k <;> rfl))

/-- `nary3_result` with the result reference un-indexed, for one rewriting pass over a whole stretch. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.LibPadRead.lean ====
/-
  A host `pad` at the high end of the leading axis, and reshapes between a matrix and its flat row-major vector, read
  at an index written by coordinates.

  `pad_high_ix1` / `pad_high_rows_ix2`: a vector (a matrix) padded behind its last entry (its last row) only, with no low
  or interior padding, reads the operand where the leading coordinate is inside it and the padding value past it.
  `shapeCast_ab_flat_apply` / `shapeCast_abc_ab_apply`: a matrix flattened reads, at position `i b + j`, the matrix at
  `(i, j)`; a rank-3 array with its two trailing axes merged reads, at `(k, i c + j)`, the array at `(k, i, j)`.
  `broadcastInDim_rows_ix2`: a vector copied along a new trailing axis reads the vector at the row.
-/
import Idealize.ShloMosaic.Lib.KernelVsHost
import Idealize.ShloMosaic.Lib.Pipeline.Value
import Idealize.ShloMosaic.Lib.ValueLayout

noncomputable section

namespace Cert.LibPadRead

open Idealize.ShloMosaic Idealize.ShloMosaic.ValueIdx

variable {α : Type}

/-- A vector padded behind its last entry reads, at `j`, the vector when `j` is inside it and the padding value past it. -/
theorem pad_high_ix1 {n n' : ℕ} (hi : Fin 1 → ℕ) (x : (⟨1, ![n]⟩ : Shape).Idx → α) {u : Shape} (v : u.Idx → α)
    (h : (⟨1, ![n]⟩ : Shape).Pads ![0] hi ![0] ⟨1, ![n']⟩) (hu : 0 < u.numel) (j : Fin n') :
    pad ⟨1, ![n']⟩ ![0] hi ![0] x v h hu (ix1 j)
      = if hj : j.val < n then x (ix1 ⟨j.val, hj⟩) else v (Shape.Idx.first hu) := by
  split
  · next hj =>
    exact pad_apply_of_inside _ _ _ x v h hu _ (ix1 ⟨j.val, hj⟩) (fun a => match a with | ⟨0, _⟩ => by simp)
  · next hj =>
    exact pad_apply_of_not_inside _ _ _ x v h hu _ (0 : Fin 1) (fun hin => hj (by simpa using hin.2.2))

/-- A matrix padded behind its last row reads, at `(i, j)`, the matrix when row `i` is inside it and the padding value
    past it. -/
theorem pad_high_rows_ix2 {n n' c : ℕ} (hi : Fin 2 → ℕ) (x : (⟨2, ![n, c]⟩ : Shape).Idx → α) {u : Shape} (v : u.Idx → α)
    (h : (⟨2, ![n, c]⟩ : Shape).Pads ![0, 0] hi ![0, 0] ⟨2, ![n', c]⟩) (hu : 0 < u.numel) (i : Fin n') (j : Fin c) :
    pad ⟨2, ![n', c]⟩ ![0, 0] hi ![0, 0] x v h hu (ix2 i j)
      = if hi' : i.val < n then x (ix2 ⟨i.val, hi'⟩ j) else v (Shape.Idx.first hu) := by
  split
  · next hi' =>
    exact pad_apply_of_inside _ _ _ x v h hu _ (ix2 ⟨i.val, hi'⟩ j)
      (fun a => match a with | ⟨0, _⟩ => by simp | ⟨1, _⟩ => by simp)
  · next hi' =>
    exact pad_apply_of_not_inside _ _ _ x v h hu _ (0 : Fin 2) (fun hin => hi' (by simpa using hin.2.2))

/-- A matrix flattened row-major reads, at position `i b + j`, the matrix at `(i, j)`. -/
theorem shapeCast_ab_flat_apply {a b N : ℕ} (x : (⟨2, ![a, b]⟩ : Shape).Idx → α)
    (h : (⟨2, ![a, b]⟩ : Shape).ShapeCasts ⟨1, ![N]⟩) (i : Fin a) (j : Fin b) (k : Fin N) (hk : k.val = i.val * b + j.val) :
    shapeCast ⟨1, ![N]⟩ x h (ix1 k) = x (ix2 i j) :=
  shapeCast_apply x h _ _ (by
    rw [Shape.rowMajor_val_two, Shape.rowMajor_val_one]
    show i.val * b + j.val = k.val
    exact hk.symm)

/-- A rank-3 array with its two trailing axes merged reads, at `(k, i c + j)`, the array at `(k, i, j)`. -/
theorem shapeCast_abc_ab_apply {a b c M : ℕ} (x : (⟨3, ![a, b, c]⟩ : Shape).Idx → α)
    (h : (⟨3, ![a, b, c]⟩ : Shape).ShapeCasts ⟨2, ![a, M]⟩) (hM : M = b * c) (k : Fin a) (i : Fin b) (j : Fin c) (l : Fin M)
    (hl : l.val = i.val * c + j.val) :
    shapeCast ⟨2, ![a, M]⟩ x h (ix2 k l) = x (ix3 k i j) :=
  shapeCast_apply x h _ _ (by
    rw [Shape.rowMajor_val_three, Shape.rowMajor_val_two]
    show (k.val * b + i.val) * c + j.val = k.val * M + l.val
    rw [hl, hM, Nat.add_mul, Nat.mul_assoc, Nat.add_assoc])

/-- A vector copied along a new trailing axis reads, at `(i, j)`, the vector at `i`. -/
theorem broadcastInDim_rows_ix2 {a b : ℕ} (ha : a ≠ 1) (x : (⟨1, ![a]⟩ : Shape).Idx → α)
    (h : (⟨1, ![a]⟩ : Shape).BroadcastsInDim ⟨2, ![a, b]⟩ ![0]) (i : Fin a) (j : Fin b) :
    broadcastInDim ⟨2, ![a, b]⟩ ![0] h x (ix2 i j) = x (ix1 i) :=
  broadcastInDim_apply _ h x _ _ (fun c => match c with
    | ⟨0, _⟩ => by
      show i.val = if a = 1 then 0 else i.val
      rw [if_neg ha])

end Cert.LibPadRead

end
-- ==== Proof.Val.Tables.lean ====
/-
  The four field tables the kernel program lays out on the host, read entry by entry.

  Before its region the program squares the embedding table, puts table, squares and bias column side by side as one
  array of 33 columns, and for each field cuts that field's rows out, pads them with zero rows to the field's padded
  length, changes the format (the identity on extended reals), transposes, and pads the 33 rows to 48 with zero rows.
  Here each of the four resulting arrays is read at an entry `(j, p)`: widened coordinate `j` of the field's row `p`
  when `j` is one of the 33 coordinates and `p` one of the field's rows, and zero elsewhere.
-/
import proofs.«416439_j75557064671821_3_alg».proof.Proof.FrKernelIdeal.Entry
import proofs.«416439_j75557064671821_3_alg».proof.Proof.FmTable
import proofs.«416439_j75557064671821_3_alg».proof.Proof.LibNary3
import proofs.«416439_j75557064671821_3_alg».proof.Proof.LibPadRead
import Idealize.ShloMosaic.Lib.ValueLayout
import Idealize.ShloMosaic.Lib.ValueIdx
import Idealize.ShloMosaic.Lib.Pipeline.Value
import Idealize.ShloMosaic.Lib.StableHlo.Run
import Idealize.ShloMosaic.PureOps.Ideal

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem

/-- The widened table: the embedding table, its entrywise squares and the bias column side by side. -/
def aug33 (v : FVec Ideal S38279x16 .f32) (bias : FVec Ideal S38279x1 .f32) : FVec Ideal S38279x33 .f32 :=
  concatenate S38279x33 1 [⟨S38279x16, v⟩, ⟨S38279x16, mulf v v⟩, ⟨S38279x1, bias⟩]
    concatenates_S38279x16_S38279x16_S38279x1_S38279x33_d1

/-- Off the concatenation axis an index of a piece and the index of the whole have the same coordinate. -/
private theorem off_axis {n k w : ℕ} (g : Fin n) (x : Fin k) (y : Fin w) (hr : (⟨2, ![n, k]⟩ : Shape).rank = S38279x33.rank)
    (b : Fin (⟨2, ![n, k]⟩ : Shape).rank) (hb : b.cast hr ≠ (1 : Fin 2)) :
    ((ix2 g x) b).val = ((ix2 g y) (b.cast hr)).val :=
  match b, hb with
  | ⟨0, _⟩, _ => rfl
  | ⟨1, _⟩, hb => absurd rfl hb

/-- Entry `(g, j)` of the widened table: coordinate `j` of row `g`, the square of coordinate `j - 16`, or the bias. -/
theorem aug33_apply (v : FVec Ideal S38279x16 .f32) (bias : FVec Ideal S38279x1 .f32) (g : Fin 38279) (j : Fin 33) :
    aug33 v bias (ix2 g j) = Cert.Fm.aug v bias g j.val := by
  unfold aug33 Cert.Fm.aug
  by_cases h1 : j.val < 16
  · rw [dif_pos h1]
    exact concatenate_apply_piece (t := S38279x33) (a := (1 : Fin 2))
      (xs := [⟨S38279x16, v⟩, ⟨S38279x16, mulf v v⟩, ⟨S38279x1, bias⟩])
      (h := concatenates_S38279x16_S38279x16_S38279x1_S38279x33_d1) (j := ix2 g j) (k := 0) (hk := show (0 : ℕ) < 3 by omega)
      (s₁ := S38279x16) (x₁ := v) (hxk := rfl) (hr := rfl) (pre := 0) (hpre := rfl)
      (i := ix2 g ⟨j.val, h1⟩) (hi := off_axis (k := 16) g ⟨j.val, h1⟩ j rfl) (ha := Nat.zero_add _)
  · rw [dif_neg h1]
    by_cases h2 : j.val < 32
    · rw [dif_pos h2]
      exact concatenate_apply_piece (t := S38279x33) (a := (1 : Fin 2))
        (xs := [⟨S38279x16, v⟩, ⟨S38279x16, mulf v v⟩, ⟨S38279x1, bias⟩])
        (h := concatenates_S38279x16_S38279x16_S38279x1_S38279x33_d1) (j := ix2 g j) (k := 1) (hk := show (1 : ℕ) < 3 by omega)
        (s₁ := S38279x16) (x₁ := mulf v v) (hxk := rfl) (hr := rfl) (pre := 16) (hpre := rfl)
        (i := ix2 g ⟨j.val - 16, by omega⟩) (hi := off_axis (k := 16) g ⟨j.val - 16, by omega⟩ j rfl) (ha := show 16 + (j.val - 16) = j.val by omega)
    · rw [dif_neg h2]
      exact concatenate_apply_piece (t := S38279x33) (a := (1 : Fin 2))
        (xs := [⟨S38279x16, v⟩, ⟨S38279x16, mulf v v⟩, ⟨S38279x1, bias⟩])
        (h := concatenates_S38279x16_S38279x16_S38279x1_S38279x33_d1) (j := ix2 g j) (k := 2) (hk := show (2 : ℕ) < 3 by omega)
        (s₁ := S38279x1) (x₁ := bias) (hxk := rfl) (hr := rfl) (pre := 32) (hpre := rfl)
        (i := ix2 g (0 : Fin 1)) (hi := off_axis (k := 1) g (0 : Fin 1) j rfl) (ha := show 32 + 0 = j.val by have := j.isLt; omega)

/-- The padding value, the integer constant zero converted to a float format, is zero. -/
theorem zero_pad (φ : FTy) (i : S_.Idx) : (sitofp (F := Ideal) φ (constantI S_ 32 0#32) i : EReal) = 0 := by
  show (((0#32 : BitVec 32).toInt : ℝ) : EReal) = 0
  rw [BitVec.toInt_zero, Int.cast_zero, EReal.coe_zero]

/-- One field's table from the widened table `A`: rows `o` to `o + n` cut out, padded with zero rows to `n'` rows,
    the format changed, transposed, and the 33 rows padded with zero rows to 48. -/
def fieldTab {n n' : ℕ} (o : ℕ) (hi1 hi2 : Fin 2 → ℕ) (A : FVec Ideal S38279x33 .f32)
    (hs : S38279x33.Slices ![o, 0] ⟨2, ![n, 33]⟩)
    (hp1 : (⟨2, ![n, 33]⟩ : Shape).Pads (![0, 0] : Fin 2 → ℕ) hi1 ![0, 0] ⟨2, ![n', 33]⟩)
    (ht : (⟨2, ![n', 33]⟩ : Shape).Transposes [1, 0] ⟨2, ![33, n']⟩)
    (hp2 : (⟨2, ![33, n']⟩ : Shape).Pads (![0, 0] : Fin 2 → ℕ) hi2 ![0, 0] ⟨2, ![48, n']⟩) :
    FVec Ideal ⟨2, ![48, n']⟩ .bf16 :=
  pad ⟨2, ![48, n']⟩ ![0, 0] hi2 ![0, 0]
    (transpose ⟨2, ![33, n']⟩ [1, 0]
      (truncf .bf16
        (pad ⟨2, ![n', 33]⟩ ![0, 0] hi1 ![0, 0] (extractStridedSlice ⟨2, ![n, 33]⟩ ![o, 0] A hs)
          (sitofp (F := Ideal) .f32 (constantI S_ 32 0#32)) hp1 h_S_ : FVec Ideal ⟨2, ![n', 33]⟩ .f32)
        bitsLt_bf16_f32)
      ht)
    (sitofp (F := Ideal) .bf16 (constantI S_ 32 0#32)) hp2 h_S_

/-- Entry `(j, p)` of a field's table: entry `(o + p, j)` of the widened table when `j` is one of the 33 coordinates and
    `p` one of the field's `n` rows, and zero in the padding. -/
theorem fieldTab_apply {n n' : ℕ} (o : ℕ) (hi1 hi2 : Fin 2 → ℕ) (A : FVec Ideal S38279x33 .f32)
    (hs : S38279x33.Slices ![o, 0] ⟨2, ![n, 33]⟩)
    (hp1 : (⟨2, ![n, 33]⟩ : Shape).Pads (![0, 0] : Fin 2 → ℕ) hi1 ![0, 0] ⟨2, ![n', 33]⟩)
    (ht : (⟨2, ![n', 33]⟩ : Shape).Transposes [1, 0] ⟨2, ![33, n']⟩)
    (hp2 : (⟨2, ![33, n']⟩ : Shape).Pads (![0, 0] : Fin 2 → ℕ) hi2 ![0, 0] ⟨2, ![48, n']⟩)
    (j : Fin 48) (p : Fin n') :
    (fieldTab o hi1 hi2 A hs hp1 ht hp2 (ix2 j p) : EReal)
      = if h : j.val < 33 ∧ p.val < n then
          A (ix2 ⟨o + p.val, Nat.lt_of_lt_of_le (Nat.add_lt_add_left h.2 o) (hs.2 0)⟩ ⟨j.val, h.1⟩)
        else 0 := by
  unfold fieldTab
  refine (Cert.LibPadRead.pad_high_rows_ix2 hi2 _ _ hp2 h_S_ j p).trans ?_
  by_cases hj : j.val < 33
  · rw [dif_pos hj]
    refine (transpose_ix2_apply _ ht ⟨j.val, hj⟩ p).trans ?_
    refine (truncf_apply _ bitsLt_bf16_f32 (ix2 p ⟨j.val, hj⟩)).trans ?_
    refine (Cert.LibPadRead.pad_high_rows_ix2 hi1 _ _ hp1 h_S_ p ⟨j.val, hj⟩).trans ?_
    by_cases hp : p.val < n
    · rw [dif_pos hp, dif_pos ⟨hj, hp⟩]
      exact slice2_axis0_eq o A hs ⟨p.val, hp⟩ ⟨j.val, hj⟩
    · rw [dif_neg hp, dif_neg (fun h => hp h.2)]
      exact zero_pad _ _
  · rw [dif_neg hj, dif_neg (fun h => hj h.1)]
    exact zero_pad _ _

/-- A field's table cut from the widened table of `v` and `bias`, at the field's own offset and row count, is the
    table the specification names. -/
theorem fieldTab_aug33 (f : Fin 4) {n n' : ℕ} (o : ℕ) (hi1 hi2 : Fin 2 → ℕ)
    (v : FVec Ideal S38279x16 .f32) (bias : FVec Ideal S38279x1 .f32)
    (hs : S38279x33.Slices ![o, 0] ⟨2, ![n, 33]⟩)
    (hp1 : (⟨2, ![n, 33]⟩ : Shape).Pads (![0, 0] : Fin 2 → ℕ) hi1 ![0, 0] ⟨2, ![n', 33]⟩)
    (ht : (⟨2, ![n', 33]⟩ : Shape).Transposes [1, 0] ⟨2, ![33, n']⟩)
    (hp2 : (⟨2, ![33, n']⟩ : Shape).Pads (![0, 0] : Fin 2 → ℕ) hi2 ![0, 0] ⟨2, ![48, n']⟩)
    (ho : o = Cert.Fm.off f) (hn : n = Cert.Fm.card f) (j : Fin 48) (p : Fin n') :
    (fieldTab o hi1 hi2 (aug33 v bias) hs hp1 ht hp2 (ix2 j p) : EReal) = Cert.Fm.table v bias f j.val p.val := by
  rw [fieldTab_apply]
  unfold Cert.Fm.table
  by_cases h : j.val < 33 ∧ p.val < n
  · rw [dif_pos h, dif_pos (hn ▸ h), aug33_apply]
    exact congrArg (fun g => Cert.Fm.aug v bias g j.val) (Fin.ext (by show o + p.val = Cert.Fm.off f + p.val; rw [ho]))
  · rw [dif_neg h, dif_neg (hn ▸ h)]

variable (m : (ℓ : Loc nD τ sig) → Buf (Elt Ideal) ℓ) (c : Dev nD)

/-- The rewriting of a line's results at a reference, operation by operation from the last one back, with the
    three-operand concatenate among the rules. -/
macro "after_results3" : tactic =>
  `(tactic| (simp only [StableHlo.after_cons, StableHlo.after_nil]
             repeat (first
               | rw [StableHlo.nullary_result] | rw [StableHlo.unary_result] | rw [StableHlo.binary_result]
               | rw [StableHlo.nary3_result]
               | (rw [StableHlo.nullary_result_ne]; rotate_left; decide)
               | (rw [StableHlo.unary_result_ne]; rotate_left; decide)
               | (rw [StableHlo.binary_result_ne]; rotate_left; decide)
               | (rw [StableHlo.nary_result_ne]; rotate_left; decide))))

/-- The host stretches written out as one line, and the typed references' transports dropped. -/
macro "host_line" : tactic =>
  `(tactic| (dsimp only [V, prefixOps]
             simp only [hostOps0, hostOps0_1, hostOps0_2, hostOps0_3, hostOps0_4, hostOps0_5, hostOps0_6, hostOps0_7,
               hostOps0_8, hostOps0_9, hostOps0_10, hostOps0_11, hostOps0_12, hostOps0_13, hostOps0_14, hostOps0_15,
               List.flatten_cons, List.flatten_nil, List.append_nil, List.cons_append, List.nil_append]
             after_results3
             simp only [StableHlo.TRef.ofBuf, StableHlo.TRef.toBuf, cast_eq]))

/-- The first field's array when the region is entered, as the host operations' term of the two argument arrays. -/
theorem V_main_v6 :
    (V m c main_v6 : S48x32768.Idx → EReal)
      = fieldTab 0 ![1408, 0] ![15, 0] (aug33 (m ((c : Thread nD τ).loc main_arg1)) (m ((c : Thread nD τ).loc main_arg2)))
          slices_S38279x33_S31360x33_0_0 pads_S31360x33_S32768x33_014080_000 transposes_S32768x33_S33x32768_1_0
          pads_S33x32768_S48x32768_0150_000 := by
  host_line
  rfl

/-- The second field's array. -/
theorem V_main_v11 :
    (V m c main_v11 : S48x8192.Idx → EReal)
      = fieldTab 31360 ![1385, 0] ![15, 0] (aug33 (m ((c : Thread nD τ).loc main_arg1)) (m ((c : Thread nD τ).loc main_arg2)))
          slices_S38279x33_S6807x33_31360_0 pads_S6807x33_S8192x33_013850_000 transposes_S8192x33_S33x8192_1_0
          pads_S33x8192_S48x8192_0150_000 := by
  host_line
  rfl

/-- The third field's array. -/
theorem V_main_v16 :
    (V m c main_v16 : S48x128.Idx → EReal)
      = fieldTab 38167 ![110, 0] ![15, 0] (aug33 (m ((c : Thread nD τ).loc main_arg1)) (m ((c : Thread nD τ).loc main_arg2)))
          slices_S38279x33_S18x33_38167_0 pads_S18x33_S128x33_01100_000 transposes_S128x33_S33x128_1_0
          pads_S33x128_S48x128_0150_000 := by
  host_line
  rfl

/-- The fourth field's array. -/
theorem V_main_v21 :
    (V m c main_v21 : S48x128.Idx → EReal)
      = fieldTab 38185 ![34, 0] ![15, 0] (aug33 (m ((c : Thread nD τ).loc main_arg1)) (m ((c : Thread nD τ).loc main_arg2)))
          slices_S38279x33_S94x33_38185_0 pads_S94x33_S128x33_0340_000 transposes_S128x33_S33x128_1_0
          pads_S33x128_S48x128_0150_000 := by
  host_line
  rfl

/-- Entry `(j, p)` of the first field's array is entry `(j, p)` of the first field's table. -/
theorem V_main_v6_apply (j : Fin 48) (p : Fin 32768) :
    (V m c main_v6 : S48x32768.Idx → EReal) (ix2 j p)
      = Cert.Fm.table (m ((c : Thread nD τ).loc main_arg1)) (m ((c : Thread nD τ).loc main_arg2)) 0 j.val p.val :=
  (congrFun (V_main_v6 m c) (ix2 j p)).trans (fieldTab_aug33 0 _ _ _ _ _ _ _ _ _ rfl rfl j p)

/-- The same for the second field. -/
theorem V_main_v11_apply (j : Fin 48) (p : Fin 8192) :
    (V m c main_v11 : S48x8192.Idx → EReal) (ix2 j p)
      = Cert.Fm.table (m ((c : Thread nD τ).loc main_arg1)) (m ((c : Thread nD τ).loc main_arg2)) 1 j.val p.val :=
  (congrFun (V_main_v11 m c) (ix2 j p)).trans (fieldTab_aug33 1 _ _ _ _ _ _ _ _ _ rfl rfl j p)

/-- The same for the third field. -/
theorem V_main_v16_apply (j : Fin 48) (p : Fin 128) :
    (V m c main_v16 : S48x128.Idx → EReal) (ix2 j p)
      = Cert.Fm.table (m ((c : Thread nD τ).loc main_arg1)) (m ((c : Thread nD τ).loc main_arg2)) 2 j.val p.val :=
  (congrFun (V_main_v16 m c) (ix2 j p)).trans (fieldTab_aug33 2 _ _ _ _ _ _ _ _ _ rfl rfl j p)

/-- The same for the fourth field. -/
theorem V_main_v21_apply (j : Fin 48) (p : Fin 128) :
    (V m c main_v21 : S48x128.Idx → EReal) (ix2 j p)
      = Cert.Fm.table (m ((c : Thread nD τ).loc main_arg1)) (m ((c : Thread nD τ).loc main_arg2)) 3 j.val p.val :=
  (congrFun (V_main_v21 m c) (ix2 j p)).trans (fieldTab_aug33 3 _ _ _ _ _ _ _ _ _ rfl rfl j p)

end Cert.KernelIdeal.Val

end
-- ==== Proof.FmConsts.lean ====
/-
  The two float patterns this certificate reads as extended reals, each stated once: the word of one half and the word
  of plus infinity.
-/
import Idealize.ShloMosaic.PureOps.Ideal

noncomputable section

namespace Cert.Fm

open Idealize.ShloMosaic

/-- The f32 word 0x3F000000 (exponent 126, fraction zero) denotes one half. -/
theorem half_word : Ideal.ofBits .f32 0x3F000000#32 = ((1 / 2 : ℝ) : EReal) := by
  simp [Ideal.ofBits, Ideal.ieee, -EReal.coe_mul]; norm_num

/-- The f32 word 0x7F800000 (exponent all ones, fraction zero, sign clear) denotes the top element. -/
theorem inf_word : Ideal.ofBits .f32 0x7F800000#32 = (⊤ : EReal) := by
  simp [Ideal.ofBits, Ideal.ieee]

end Cert.Fm

end
-- ==== Proof.Val.Logit.lean ====
/-
  From the accumulated row of widened table entries to the result.

  The last arithmetic of the kernel's body reads three bands of its 48-column accumulator: columns 0..15 (the sums,
  over the four fields, of the embedding coordinates), columns 16..31 (the sums of their squares) and column 32 (the
  sum of the biases). It returns the logistic of

      bias sum  +  ½ · Σ_k ( (coordinate sum k)² − square sum k ).

  First the arithmetic is read at a row, for any accumulator. Then, when every entry of the row is the sum over the
  four fields of the widened table entry the batch row's index names, each entry is a real number (the inputs are
  finite and the indices are in range), the value under the logistic is the factorization machine's logit of the
  batch row, and the result is the specification's.
-/
import proofs.«416439_j75557064671821_3_alg».proof.Proof.Gen.KernelIdeal.Skeleton
import proofs.«416439_j75557064671821_3_alg».proof.Proof.FmTable
import proofs.«416439_j75557064671821_3_alg».proof.Proof.LibRowReduce
import proofs.«416439_j75557064671821_3_alg».proof.Proof.FmConsts
import Idealize.ShloMosaic.Lib.ValueIdx
import Idealize.ShloMosaic.Lib.ValueLayout
import Idealize.ShloMosaic.PureOps.Ideal
import Idealize.ShloMosaic.PureOps.Ideal.Laws

noncomputable section

open scoped BigOperators

namespace Cert.KernelIdeal.Val

open Idealize.ShloMosaic Idealize.ShloMosaic.ValueIdx
open Cert.KernelIdeal Cert.KernelIdeal.Gen Cert.Fm

/-! ## Two facts about the extended reals -/

/-- The pattern of the constant 0.5 denotes the real number one half. -/
theorem ofBits_half : Ideal.ofBits .f32 0x3F000000#32 = ((1 / 2 : ℝ) : EReal) := Cert.Fm.half_word

/-- The coercion of a finite sum of real numbers is the sum of the coercions. -/
theorem coe_sum {ι : Type} (s : Finset ι) (g : ι → ℝ) : ((∑ k ∈ s, g k : ℝ) : EReal) = ∑ k ∈ s, (g k : EReal) := by
  classical
  refine Finset.induction_on s (by simp) fun a s ha ih => ?_
  rw [Finset.sum_insert ha, Finset.sum_insert ha, EReal.coe_add, ih]

/-! ## The arithmetic at a row, for any accumulator -/

/-- Column `k` of the first band (the coordinate sums). -/
abbrev lo (k : Fin 16) : Fin 48 := ⟨k.val, Nat.lt_of_lt_of_le k.isLt (by decide)⟩

/-- Column `16 + k`, the second band (the sums of squares). -/
abbrev mid (k : Fin 16) : Fin 48 := ⟨16 + k.val, by have := k.isLt; omega⟩

/-- Column 32, the bias sum. -/
abbrev hi : Fin 48 := ⟨32, by decide⟩

/-- The first band of the accumulator at `(r, k)`. -/
theorem band_lo (acc : Vec Ideal S512x48 .f32) (r : Fin 512) (k : Fin 16) :
    extractStridedSlice S512x16 ![0, 0] acc slices_S512x48_o0_0_S512x16 (ix2 r k) = acc (ix2 r (lo k)) :=
  slice2_axis1_apply 0 acc slices_S512x48_o0_0_S512x16 r k (lo k) (Nat.zero_add _).symm

/-- The second band of the accumulator at `(r, k)`. -/
theorem band_mid (acc : Vec Ideal S512x48 .f32) (r : Fin 512) (k : Fin 16) :
    extractStridedSlice S512x16 ![0, 16] acc slices_S512x48_o0_16_S512x16 (ix2 r k) = acc (ix2 r (mid k)) :=
  slice2_axis1_apply 16 acc slices_S512x48_o0_16_S512x16 r k (mid k) rfl

/-- The third band of the accumulator at `(r, 0)`. -/
theorem band_hi (acc : Vec Ideal S512x48 .f32) (r : Fin 512) :
    extractStridedSlice S512x1 ![0, 32] acc slices_S512x48_o0_32_S512x1 (ix2 r (0 : Fin 1)) = acc (ix2 r hi) :=
  slice2_axis1_apply 32 acc slices_S512x48_o0_32_S512x1 r (0 : Fin 1) hi rfl

/-- The sum along a row of a 16-column matrix of extended reals from the neutral accumulator, kept as a column:
    at `(r, 0)` it is the sum of the row's sixteen entries. -/
theorem laneSum_apply (src : FVec Ideal S512x16 .f32) (r : Fin 512)
    (hφ : FKind.Formats .f32) (hacc : (0x00000000#32 : BitVec 32) = FKind.add.neutral .f32 hφ) :
    shapeCast S512x1 (multiReduction .add [1] S512 src 0x00000000#32 reduces_S512x16_S512 hφ hacc)
        shapeCasts_S512_S512x1 (ix2 r (0 : Fin 1))
      = ∑ k : Fin 16, src (ix2 r k) :=
  (Cert.RowReduce.shapeCast_a_a1_apply (a := 512) _ shapeCasts_S512_S512x1 r (0 : Fin 1)).trans
    (Cert.RowReduce.rowSum_apply (a := 512) (b := 16) src 0x00000000#32 reduces_S512x16_S512 hφ hacc r)

/-- The logistic of a vector of extended reals, at an index. -/
theorem logistic_ix {s : Shape} (a : FVec Ideal s .f32) (i : s.Idx) : logistic a i = Ideal.logistic (a i) := rfl

/-- The body's last arithmetic at row `r`: the logistic of column 32 plus one half of the sum, over the sixteen
    coordinates, of the square of column `k` less column `16 + k`. -/
theorem pay2_apply (acc : Vec Ideal S512x48 .f32) (r : Fin 512) :
    k0_pay2 (F := Ideal) acc (ix2 r (0 : Fin 1))
      = Ideal.logistic (acc (ix2 r hi) + ((1 / 2 : ℝ) : EReal) *
          ∑ k : Fin 16, (acc (ix2 r (lo k)) * acc (ix2 r (lo k)) - acc (ix2 r (mid k)))) := by
  unfold k0_pay2
  dsimp only
  rw [logistic_ix, addf_apply, mulf_apply, broadcast_apply, band_hi, Ideal.ofBits_def, ofBits_half]
  refine congrArg (fun t => Ideal.logistic (acc (ix2 r hi) + ((1 / 2 : ℝ) : EReal) * t)) ?_
  refine (laneSum_apply _ r _ _).trans ?_
  refine Finset.sum_congr rfl fun k _ => ?_
  rw [subf_apply, mulf_apply, band_lo, band_mid]

/-! ## The widened table entries as real numbers -/

section Entries

variable {x : IVec SX 32} {v : SV.Idx → EReal} {bias : SB.Idx → EReal}

/-- Inside a field's rows the padded table is the widened concatenated table. -/
theorem table_in (f : Fin 4) {j p : ℕ} (hj : j < 33) (hp : p < card f) :
    table v bias f j p = aug v bias ⟨off f + p, off_add_lt f hp⟩ j := by
  rw [table, dif_pos ⟨hj, hp⟩]

/-- Widened coordinate `k < 16` is coordinate `k`. -/
theorem aug_lo (g : Fin 38279) (k : Fin 16) : aug v bias g k.val = v (ix2 g k) := by
  rw [aug, dif_pos k.isLt]

/-- Widened coordinate `16 + k` is the square of coordinate `k`. -/
theorem aug_mid (g : Fin 38279) (k : Fin 16) : aug v bias g (16 + k.val) = v (ix2 g k) * v (ix2 g k) := by
  have e : ∀ h, (⟨16 + k.val - 16, h⟩ : Fin 16) = k := fun _ => Fin.ext (Nat.add_sub_cancel_left 16 k.val)
  rw [aug, dif_neg (by omega), dif_pos (by have := k.isLt; omega)]
  simp only [e]

/-- Widened coordinate 32 is the bias. -/
theorem aug_hi (g : Fin 38279) : aug v bias g 32 = bias (ix2 g (0 : Fin 1)) := by
  rw [aug, dif_neg (by omega), dif_neg (by omega)]

/-- A finite embedding entry of a named row is the coercion of the real number the specification reads there. -/
theorem vAt_coe (hx : InRange x) (hv : Finite v) (b : Fin 4096) (f : Fin 4) (k : Fin 16) :
    ((vAt v (grow x b f) k : ℝ) : EReal) = v (ix2 ⟨grow x b f, grow_lt hx b f⟩ k) := by
  rw [vAt, dif_pos (grow_lt hx b f)]
  exact hv.coe_toReal _

/-- A finite bias entry of a named row is the coercion of the real number the specification reads there. -/
theorem bAt_coe (hx : InRange x) (hb : Finite bias) (b : Fin 4096) (f : Fin 4) :
    ((bAt bias (grow x b f) : ℝ) : EReal) = bias (ix2 ⟨grow x b f, grow_lt hx b f⟩ (0 : Fin 1)) := by
  rw [bAt, dif_pos (grow_lt hx b f)]
  exact hb.coe_toReal _

/-- Field `f`'s table at column `k` and the batch row's index: the embedding coordinate, a real number. -/
theorem table_lo (hx : InRange x) (hv : Finite v) (b : Fin 4096) (f : Fin 4) (k : Fin 16) :
    table v bias f k.val (x (ix2 b f)).toNat = ((vAt v (grow x b f) k : ℝ) : EReal) := by
  rw [table_in f (by have := k.isLt; omega) (hx b f), aug_lo, vAt_coe hx hv]
  rfl

/-- Field `f`'s table at column `16 + k` and the batch row's index: the square of the embedding coordinate. -/
theorem table_mid (hx : InRange x) (hv : Finite v) (b : Fin 4096) (f : Fin 4) (k : Fin 16) :
    table v bias f (16 + k.val) (x (ix2 b f)).toNat = (((vAt v (grow x b f) k) ^ 2 : ℝ) : EReal) := by
  rw [table_in f (by have := k.isLt; omega) (hx b f), aug_mid, pow_two, EReal.coe_mul, vAt_coe hx hv]
  rfl

/-- Field `f`'s table at column 32 and the batch row's index: the bias, a real number. -/
theorem table_hi (hx : InRange x) (hb : Finite bias) (b : Fin 4096) (f : Fin 4) :
    table v bias f 32 (x (ix2 b f)).toNat = ((bAt bias (grow x b f) : ℝ) : EReal) := by
  rw [table_in f (by omega) (hx b f), aug_hi, bAt_coe hx hb]
  rfl

end Entries

/-! ## The result -/

/-- With each entry of row `r` of the accumulator the sum, over the four fields, of the table entry the index of batch
    row `b` names, the body's last arithmetic at row `r` is the specification's result at batch row `b`. -/
theorem pay2_eq_G (x : IVec SX 32) (v : SV.Idx → EReal) (bias : SB.Idx → EReal) (hx : InRange x) (hv : Finite v)
    (hb : Finite bias) (b : Fin 4096) (r : Fin 512) (acc : Vec Ideal S512x48 .f32)
    (hacc : ∀ c : Fin 48, acc (ix2 r c)
      = table v bias 0 c.val (x (ix2 b (0 : Fin 4))).toNat + table v bias 1 c.val (x (ix2 b (1 : Fin 4))).toNat
        + table v bias 2 c.val (x (ix2 b (2 : Fin 4))).toNat + table v bias 3 c.val (x (ix2 b (3 : Fin 4))).toNat) :
    k0_pay2 (F := Ideal) acc (ix2 r (0 : Fin 1)) = G x v bias (ix2 b (0 : Fin 1)) := by
  have hlo : ∀ k : Fin 16, acc (ix2 r (lo k)) = ((∑ f : Fin 4, vAt v (grow x b f) k : ℝ) : EReal) := fun k => by
    rw [hacc (lo k), Fin.sum_univ_four, EReal.coe_add, EReal.coe_add, EReal.coe_add]
    show table v bias 0 k.val _ + table v bias 1 k.val _ + table v bias 2 k.val _ + table v bias 3 k.val _ = _
    rw [table_lo hx hv b 0 k, table_lo hx hv b 1 k, table_lo hx hv b 2 k, table_lo hx hv b 3 k]
  have hmid : ∀ k : Fin 16, acc (ix2 r (mid k)) = ((∑ f : Fin 4, (vAt v (grow x b f) k) ^ 2 : ℝ) : EReal) := fun k => by
    rw [hacc (mid k), Fin.sum_univ_four, EReal.coe_add, EReal.coe_add, EReal.coe_add]
    show table v bias 0 (16 + k.val) _ + table v bias 1 (16 + k.val) _ + table v bias 2 (16 + k.val) _
      + table v bias 3 (16 + k.val) _ = _
    rw [table_mid hx hv b 0 k, table_mid hx hv b 1 k, table_mid hx hv b 2 k, table_mid hx hv b 3 k]
  have hhi : acc (ix2 r hi) = ((∑ f : Fin 4, bAt bias (grow x b f) : ℝ) : EReal) := by
    rw [hacc hi, Fin.sum_univ_four, EReal.coe_add, EReal.coe_add, EReal.coe_add]
    show table v bias 0 32 _ + table v bias 1 32 _ + table v bias 2 32 _ + table v bias 3 32 _ = _
    rw [table_hi hx hb b 0, table_hi hx hb b 1, table_hi hx hb b 2, table_hi hx hb b 3]
  have hterm : ∀ k : Fin 16, acc (ix2 r (lo k)) * acc (ix2 r (lo k)) - acc (ix2 r (mid k))
      = (((∑ f : Fin 4, vAt v (grow x b f) k) ^ 2 - ∑ f : Fin 4, (vAt v (grow x b f) k) ^ 2 : ℝ) : EReal) := fun k => by
    rw [hlo k, hmid k, EReal.coe_sub, pow_two, EReal.coe_mul]
  rw [pay2_apply, G_apply, hhi, Finset.sum_congr rfl fun k _ => hterm k, ← coe_sum, ← EReal.coe_mul, ← EReal.coe_add]
  rfl

end Cert.KernelIdeal.Val

end
-- ==== Proof.FrKernelIdeal.KernelValue.lean ====
/-
  The idealized kernel program's result array.

  At grid point t the body's index block is rows 512 t … of the index array and its four table blocks are the host-built
  per-field tables; the accumulation over the four fields at row r, column c is then the sum of the four fields' table
  entries at the row's four indices, and the body's final arithmetic turns it into the logistic of the row's logit. So
  point t writes back rows 512 t … 512 t + 511 of the one result function; the eight points' blocks cover the result
  array, which therefore ends holding that function.
-/
import proofs.«416439_j75557064671821_3_alg».proof.Proof.FrKernelIdeal.OutValue
import proofs.«416439_j75557064671821_3_alg».proof.Proof.FrKernelIdeal.Blocks
import proofs.«416439_j75557064671821_3_alg».proof.Proof.Val.AccValue
import proofs.«416439_j75557064671821_3_alg».proof.Proof.Val.Tables
import proofs.«416439_j75557064671821_3_alg».proof.Proof.Val.Logit

set_option maxRecDepth 16384

noncomputable section

namespace Cert.KernelIdeal.Fr

open Cert.KernelIdeal Cert.KernelIdeal.Gen Cert.KernelIdeal.Val Cert.Fm
open Idealize.ShloMosaic Idealize.ShloMosaic.TcCoe Idealize.ShloMosaic.ValueIdx
open Idealize.SL Idealize.SL.Sem
open Idealize.ShloMosaic.Pipeline (Dat Cfg Window)

/-- From blocks that agree with the index array's row `b` and with the four fields' tables, the body's value at row `r`
    of its block is the result function at row `b`. -/
theorem body_value (x : IVec SX 32) (v : SV.Idx → EReal) (bias : SB.Idx → EReal)
    (hx : InRange x) (hv : Finite v) (hb : Finite bias) (b : Fin 4096) (r : Fin 512)
    (arg2 : Memref sig .tc .vmem S48x32768 .bf16) (harg2 : arg2.IsWhole) (arg3 : Memref sig .tc .vmem S48x8192 .bf16) (harg3 : arg3.IsWhole)
    (x0 : Vec Ideal S512x4 .i32) (x1 : Vec Ideal S48x32768 .bf16) (x2 : Vec Ideal S48x8192 .bf16) (x3 x4 : Vec Ideal S48x128 .bf16)
    (h0 : ∀ f : Fin 4, x0 (ix2 r f) = x (ix2 b f))
    (h1 : ∀ (j : Fin 48) (p : Fin 32768), x1 (ix2 j p) = table v bias 0 j.val p.val)
    (h2 : ∀ (j : Fin 48) (p : Fin 8192), x2 (ix2 j p) = table v bias 1 j.val p.val)
    (h3 : ∀ (j : Fin 48) (p : Fin 128), x3 (ix2 j p) = table v bias 2 j.val p.val)
    (h4 : ∀ (j : Fin 48) (p : Fin 128), x4 (ix2 j p) = table v bias 3 j.val p.val) :
    k0_pay2 (F := Ideal) (accAll x0 (tile1 arg2 (harg2.unread x1)) (tile2 arg3 (harg3.unread x2)) x3 x4) (ix2 r (0 : Fin 1))
      = G x v bias (ix2 b (0 : Fin 1)) := by
  refine pay2_eq_G x v bias hx hv hb b r _ (fun c' => ?_)
  have hX0 : (x (ix2 b (0 : Fin 4))).toNat < 32768 := by have := hx b 0; simp [card] at this; omega
  have hX1 : (x (ix2 b (1 : Fin 4))).toNat < 8192 := by have := hx b 1; simp [card] at this; omega
  have hX2 : (x (ix2 b (2 : Fin 4))).toNat < 128 := by have := hx b 2; simp [card] at this; omega
  have hX3 : (x (ix2 b (3 : Fin 4))).toNat < 128 := by have := hx b 3; simp [card] at this; omega
  rw [accAll_apply_nat x0 _ _ x3 x4 r c' _ _ _ _ (congrArg BitVec.toNat (h0 0)) (congrArg BitVec.toNat (h0 1))
      (congrArg BitVec.toNat (h0 2)) (congrArg BitVec.toNat (h0 3)) hX0 hX1 hX2 hX3,
    tile1_apply, tile2_apply, h1, h2, h3, h4]
  simp only [Fin.val_mk, Nat.div_add_mod]

variable (m : (ℓ : Loc nD τ sig) → Buf (Elt Ideal) ℓ) (ρ : Dev nD → PrngReg)

/-- The three argument arrays as launched on core `c`. -/
abbrev xA (c : Dev nD) : IVec SX 32 := m ((c : Thread nD τ).loc main_arg0)
abbrev vA (c : Dev nD) : SV.Idx → EReal := m ((c : Thread nD τ).loc main_arg1)
abbrev bA (c : Dev nD) : SB.Idx → EReal := m ((c : Thread nD τ).loc main_arg2)

/-- The blocks at point `t`, at their literal types. -/
abbrev blk0 (c : Dev nD) (t : Fin cfg0.N) : Vec Ideal S512x4 .i32 := iblk m c 0 t
abbrev blk1 (c : Dev nD) (t : Fin cfg0.N) : Vec Ideal S48x32768 .bf16 := iblk m c 1 t
abbrev blk2 (c : Dev nD) (t : Fin cfg0.N) : Vec Ideal S48x8192 .bf16 := iblk m c 2 t
abbrev blk3 (c : Dev nD) (t : Fin cfg0.N) : Vec Ideal S48x128 .bf16 := iblk m c 3 t
abbrev blk4 (c : Dev nD) (t : Fin cfg0.N) : Vec Ideal S48x128 .bf16 := iblk m c 4 t

/-- What point `t` leaves in the output's buffer, at row `r`: the result function at row `512 t + r`. -/
theorem outsAt0_apply (c : Dev nD) (hx : InRange (xA m c)) (hv : Finite (vA m c)) (hb : Finite (bA m c))
    (t : Fin cfg0.N) (r : Fin 512) :
    outsAt0 m c t (ix2 r (0 : Fin 1)) = G (xA m c) (vA m c) (bA m c) (ix2 ⟨512 * t.val + r.val, row_lt t r⟩ (0 : Fin 1)) := by
  unfold outsAt0
  rw [out0_5_eq]
  exact body_value (xA m c) (vA m c) (bA m c) hx hv hb ⟨512 * t.val + r.val, row_lt t r⟩ r _ _ _ _
    (blk0 m c t) (blk1 m c t) (blk2 m c t) (blk3 m c t) (blk4 m c t)
    (fun f => (iblk0_apply m c t r f).trans (congrFun (V_main_arg0 m c) _))
    (fun j p => (iblk1_apply m c t j p).trans (V_main_v6_apply m c j p))
    (fun j p => (iblk2_apply m c t j p).trans (V_main_v11_apply m c j p))
    (fun j p => (iblk3_apply m c t j p).trans (V_main_v16_apply m c j p))
    (fun j p => (iblk4_apply m c t j p).trans (V_main_v21_apply m c j p))

/-- What point `t` writes back is block `t` of the result function. -/
theorem flushed5_eq (c : Dev nD) (hx : InRange (xA m c)) (hv : Finite (vA m c)) (hb : Finite (bA m c)) (t : Fin cfg0.N) :
    (dats m 0 c).flushed 5 t = ((cfg0.win 5).blk t).view.read (Elt Ideal) (G (xA m c) (vA m c) (bA m c)) := by
  show (cfg0.win 5).cut (grid0.coords t) ((dats m 0 c).after 5 t) = _
  rw [after0_5]
  funext j
  obtain ⟨r, u, rfl⟩ : ∃ (r : Fin 512) (u : Fin 1), j = ix2 r u := ⟨j 0, j 1, eq_ix2 j⟩
  obtain rfl : u = 0 := Subsingleton.elim _ _
  show outsAt0 m c t (ix2 r (0 : Fin 1)) = G (xA m c) (vA m c) (bA m c) (((cfg0.win 5).blk t).view.emb (ix2 r (0 : Fin 1)))
  rw [outsAt0_apply m c hx hv hb t r]
  refine congrArg (G (xA m c) (vA m c) (bA m c)) ?_
  obtain ⟨-, -, -, -, -, -, -, -, -, -, e50, e51⟩ := idx_facts t
  funext a; apply Fin.ext
  match a with
  | ⟨0, _⟩ => show 512 * t.val + r.val = win0_5.index t (0 : Fin 2) * 512 + 1 * r.val; omega
  | ⟨1, _⟩ => show 0 = win0_5.index t (1 : Fin 2) * 1 + 1 * 0; omega

/-- An index of the result array is in point `t`'s block iff each coordinate is in the block's range. -/
theorem mem_blk5 (t : Fin cfg0.N) (i : S4096x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v22).slice (win0_5.rect t)).set ↔ _
  rw [View.set_slice_whole, Rect.mem_set_unit]
  exact Iff.rfl

/-- The result array after the run is the result function. -/
theorem final5 (c : Dev nD) (hx : InRange (xA m c)) (hv : Finite (vA m c)) (hb : Finite (bA m c)) :
    (dats m 0 c).arrAt 5 cfg0.N = G (xA m c) (vA m c) (bA m c) :=
  (dats m 0 c).arrAt_eq_of_cover 5 (G (xA m c) (vA m c) (bA m c)) (fun t _ => flushed5_eq m c hx hv hb t) fun i => by
    have hi0 : (i 0).val < 4096 := (i 0).isLt
    have hi1 : (i 1).val < 1 := (i 1).isLt
    have hN : cfg0.N = 8 := N_0
    refine ⟨⟨(i 0).val / 512, by rw [hN]; omega⟩, flush0_5 _, ?_⟩
    rw [mem_blk5]
    obtain ⟨-, -, -, -, -, -, -, -, -, -, e50, e51⟩ := idx_facts (⟨(i 0).val / 512, by rw [hN]; omega⟩ : Fin cfg0.N)
    intro a
    match a with
    | ⟨0, _⟩ => show win0_5.index _ (0 : Fin 2) * 512 ≤ (i 0).val ∧ (i 0).val < win0_5.index _ (0 : Fin 2) * 512 + 512; rw [e50]; dsimp only; omega
    | ⟨1, _⟩ => show win0_5.index _ (1 : Fin 2) * 1 ≤ (i 1).val ∧ (i 1).val < win0_5.index _ (1 : Fin 2) * 1 + 1; rw [e51]; omega

/-- The idealized kernel program's run: the result array ends at the result function of the arguments, which end
    unchanged. -/
theorem kernel_run (hpre : ∀ c : Dev nD, InRange (xA m c) ∧ Finite (vA m c) ∧ Finite (bA m c)) :
    θ_run defs (onTc (τ := τ) (main (F := Ideal))) ⟨m, fun _ => 0, ρ⟩ fun r => ∀ c : Dev nD,
      r.2.mem ((c.tc : Thread nD τ).loc main_v22) = G (xA m c) (vA m c) (bA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 5).trans (final5 m c (hpre c).1 (hpre c).2.1 (hpre c).2.2),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Fr

end
-- ==== Proof.Ref.Ops.lean ====
/-
  The reference program's host line as a list, and what its run leaves in memory.

  The reference has no kernel: its @main is sixty-six host operations (a gather of the bias column, an overwriting
  scatter that builds the one-hot rows, two contractions against the factor table, two row sums and the logistic
  function), printed in two windows. Here each window is restated as the list of its operations (`ops0`, `ops1`),
  the whole program as the line over their concatenation (`main_eq`), every operation is shown to touch TensorCore
  references only and to determine all it writes (`ops_sub`, `ops_fresh`), and the machine's run theorem for a
  straight line is applied (`run_after`): every weakly fair execution terminates, each buffer of each device holding
  the fold of the operations' results over the launch contents.
-/
import proofs.«416439_j75557064671821_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first window's sixty operations, in order. -/
abbrev ops0 : List (HloOp τ sig (Elt F)) :=
  [ StableHlo.nullary main_c (fun i => lit0 (S4.rowMajor i)),
    StableHlo.unary main_c main_v0 (broadcastInDim S1x4 ![1] bcast_S4_S1x4_1 : (⟨S4, .i32⟩ : BufTy).Contents (Elt F) → (⟨S1x4, .i32⟩ : BufTy).Contents (Elt F)),
    StableHlo.unary main_v0 main_v1 (broadcastInDim S4096x4 ![0, 1] bcast_S1x4_S4096x4_0_1 : (⟨S1x4, .i32⟩ : BufTy).Contents (Elt F) → (⟨S4096x4, .i32⟩ : BufTy).Contents (Elt F)),
    StableHlo.binary main_arg0 main_v1 main_v2 (addi : (⟨S4096x4, .i32⟩ : BufTy).Contents (Elt F) → (⟨S4096x4, .i32⟩ : BufTy).Contents (Elt F) → (⟨S4096x4, .i32⟩ : BufTy).Contents (Elt F)),
    StableHlo.nullary main_c_0 (constantI S_ 32 0#32),
    StableHlo.unary main_c_0 main_v3 (broadcastInDim S4096x4 ![] bcast_S_S4096x4 : (⟨S_, .i32⟩ : BufTy).Contents (Elt F) → (⟨S4096x4, .i32⟩ : BufTy).Contents (Elt F)),
    StableHlo.binary main_v2 main_v3 main_v4 (cmpi .slt : (⟨S4096x4, .i32⟩ : BufTy).Contents (Elt F) → (⟨S4096x4, .i32⟩ : BufTy).Contents (Elt F) → (⟨S4096x4, .i1⟩ : BufTy).Contents (Elt F)),
    StableHlo.nullary main_c_1 (constantI S_ 32 38279#32),
    StableHlo.unary main_c_1 main_v5 (broadcastInDim S4096x4 ![] bcast_S_S4096x4 : (⟨S_, .i32⟩ : BufTy).Contents (Elt F) → (⟨S4096x4, .i32⟩ : BufTy).Contents (Elt F)),
    StableHlo.binary main_v2 main_v5 main_v6 (addi : (⟨S4096x4, .i32⟩ : BufTy).Contents (Elt F) → (⟨S4096x4, .i32⟩ : BufTy).Contents (Elt F) → (⟨S4096x4, .i32⟩ : BufTy).Contents (Elt F)),
    StableHlo.ternary main_v4 main_v6 main_v2 main_v7 (select : (⟨S4096x4, .i1⟩ : BufTy).Contents (Elt F) → (⟨S4096x4, .i32⟩ : BufTy).Contents (Elt F) → (⟨S4096x4, .i32⟩ : BufTy).Contents (Elt F) → (⟨S4096x4, .i32⟩ : BufTy).Contents (Elt F)),
    StableHlo.nullary main_c_2 (constantI S_ 32 0#32),
    StableHlo.unary main_c_2 main_v8 (broadcastInDim S4096x4 ![] bcast_S_S4096x4 : (⟨S_, .i32⟩ : BufTy).Contents (Elt F) → (⟨S4096x4, .i32⟩ : BufTy).Contents (Elt F)),
    StableHlo.unary main_v8 main_v9 (id : (⟨S4096x4, .i32⟩ : BufTy).Contents (Elt F) → (⟨S4096x4, .i32⟩ : BufTy).Contents (Elt F)),
    StableHlo.unary main_v7 main_v10 (broadcastInDim S4096x4x1 ![0, 1] bcast_S4096x4_S4096x4x1_0_1 : (⟨S4096x4, .i32⟩ : BufTy).Contents (Elt F) → (⟨S4096x4x1, .i32⟩ : BufTy).Contents (Elt F)),
    StableHlo.unary main_v9 main_v11 (broadcastInDim S4096x4x1 ![0, 1] bcast_S4096x4_S4096x4x1_0_1 : (⟨S4096x4, .i32⟩ : BufTy).Contents (Elt F) → (⟨S4096x4x1, .i32⟩ : BufTy).Contents (Elt F)),
    StableHlo.binary main_v10 main_v11 main_v12 ((fun a b => concatenate S4096x4x2 2 [⟨S4096x4x1, a⟩, ⟨S4096x4x1, b⟩] concatenates_S4096x4x1_S4096x4x1_S4096x4x2_d2) : (⟨S4096x4x1, .i32⟩ : BufTy).Contents (Elt F) → (⟨S4096x4x1, .i32⟩ : BufTy).Contents (Elt F) → (⟨S4096x4x2, .i32⟩ : BufTy).Contents (Elt F)),
    StableHlo.binary main_arg2 main_v12 main_v13 ((fun x i => Host.gather gather_S38279x1_S4096x4x2_S4096x4_n_01_n_n_01_2_11 x i) : (⟨S38279x1, .f32⟩ : BufTy).Contents (Elt F) → (⟨S4096x4x2, .i32⟩ : BufTy).Contents (Elt F) → (⟨S4096x4, .f32⟩ : BufTy).Contents (Elt F)),
    StableHlo.nullary main_cst (constant S_ .f32 0x00000000#32),
    StableHlo.binary main_v13 main_cst main_v14 ((fun x v => Host.reduceAdd x v reducesTo_S4096x4_S4096_d1 h_S_) : (⟨S4096x4, .f32⟩ : BufTy).Contents (Elt F) → (⟨S_, .f32⟩ : BufTy).Contents (Elt F) → (⟨S4096, .f32⟩ : BufTy).Contents (Elt F)),
    StableHlo.nullary main_cst_3 (constant S_ .f32 0x00000000#32),
    StableHlo.unary main_cst_3 main_v15 (broadcastInDim S4096x38279 ![] bcast_S_S4096x38279 : (⟨S_, .f32⟩ : BufTy).Contents (Elt F) → (⟨S4096x38279, .f32⟩ : BufTy).Contents (Elt F)),
    StableHlo.nullary main_v16 (iotaInDim S4096 32 0),
    StableHlo.unary main_v16 main_v17 (broadcastInDim S4096x1 ![0] bcast_S4096_S4096x1_0 : (⟨S4096, .i32⟩ : BufTy).Contents (Elt F) → (⟨S4096x1, .i32⟩ : BufTy).Contents (Elt F)),
    StableHlo.nullary main_c_4 (constantI S_ 32 0#32),
    StableHlo.unary main_c_4 main_v18 (broadcastInDim S4096x1 ![] bcast_S_S4096x1 : (⟨S_, .i32⟩ : BufTy).Contents (Elt F) → (⟨S4096x1, .i32⟩ : BufTy).Contents (Elt F)),
    StableHlo.binary main_v17 main_v18 main_v19 (cmpi .slt : (⟨S4096x1, .i32⟩ : BufTy).Contents (Elt F) → (⟨S4096x1, .i32⟩ : BufTy).Contents (Elt F) → (⟨S4096x1, .i1⟩ : BufTy).Contents (Elt F)),
    StableHlo.nullary main_c_5 (constantI S_ 32 4096#32),
    StableHlo.unary main_c_5 main_v20 (broadcastInDim S4096x1 ![] bcast_S_S4096x1 : (⟨S_, .i32⟩ : BufTy).Contents (Elt F) → (⟨S4096x1, .i32⟩ : BufTy).Contents (Elt F)),
    StableHlo.binary main_v17 main_v20 main_v21 (addi : (⟨S4096x1, .i32⟩ : BufTy).Contents (Elt F) → (⟨S4096x1, .i32⟩ : BufTy).Contents (Elt F) → (⟨S4096x1, .i32⟩ : BufTy).Contents (Elt F)),
    StableHlo.ternary main_v19 main_v21 main_v17 main_v22 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    StableHlo.nullary main_c_6 (constantI S_ 32 0#32),
    StableHlo.unary main_c_6 main_v23 (broadcastInDim S4096x4 ![] bcast_S_S4096x4 : (⟨S_, .i32⟩ : BufTy).Contents (Elt F) → (⟨S4096x4, .i32⟩ : BufTy).Contents (Elt F)),
    StableHlo.binary main_v2 main_v23 main_v24 (cmpi .slt : (⟨S4096x4, .i32⟩ : BufTy).Contents (Elt F) → (⟨S4096x4, .i32⟩ : BufTy).Contents (Elt F) → (⟨S4096x4, .i1⟩ : BufTy).Contents (Elt F)),
    StableHlo.nullary main_c_7 (constantI S_ 32 38279#32),
    StableHlo.unary main_c_7 main_v25 (broadcastInDim S4096x4 ![] bcast_S_S4096x4 : (⟨S_, .i32⟩ : BufTy).Contents (Elt F) → (⟨S4096x4, .i32⟩ : BufTy).Contents (Elt F)),
    StableHlo.binary main_v2 main_v25 main_v26 (addi : (⟨S4096x4, .i32⟩ : BufTy).Contents (Elt F) → (⟨S4096x4, .i32⟩ : BufTy).Contents (Elt F) → (⟨S4096x4, .i32⟩ : BufTy).Contents (Elt F)),
    StableHlo.ternary main_v24 main_v26 main_v2 main_v27 (select : (⟨S4096x4, .i1⟩ : BufTy).Contents (Elt F) → (⟨S4096x4, .i32⟩ : BufTy).Contents (Elt F) → (⟨S4096x4, .i32⟩ : BufTy).Contents (Elt F) → (⟨S4096x4, .i32⟩ : BufTy).Contents (Elt F)),
    StableHlo.unary main_v22 main_v28 (broadcastInDim S4096x4 ![0, 1] bcast_S4096x1_S4096x4_0_1 : (⟨S4096x1, .i32⟩ : BufTy).Contents (Elt F) → (⟨S4096x4, .i32⟩ : BufTy).Contents (Elt F)),
    StableHlo.unary main_v28 main_v29 (broadcastInDim S4096x4x1 ![0, 1] bcast_S4096x4_S4096x4x1_0_1 : (⟨S4096x4, .i32⟩ : BufTy).Contents (Elt F) → (⟨S4096x4x1, .i32⟩ : BufTy).Contents (Elt F)),
    StableHlo.unary main_v27 main_v30 (broadcastInDim S4096x4x1 ![0, 1] bcast_S4096x4_S4096x4x1_0_1 : (⟨S4096x4, .i32⟩ : BufTy).Contents (Elt F) → (⟨S4096x4x1, .i32⟩ : BufTy).Contents (Elt F)),
    StableHlo.binary main_v29 main_v30 main_v31 ((fun a b => concatenate S4096x4x2 2 [⟨S4096x4x1, a⟩, ⟨S4096x4x1, b⟩] concatenates_S4096x4x1_S4096x4x1_S4096x4x2_d2) : (⟨S4096x4x1, .i32⟩ : BufTy).Contents (Elt F) → (⟨S4096x4x1, .i32⟩ : BufTy).Contents (Elt F) → (⟨S4096x4x2, .i32⟩ : BufTy).Contents (Elt F)),
    StableHlo.nullary main_cst_8 (constant S_ .f32 0x3F800000#32),
    StableHlo.unary main_cst_8 main_v32 (broadcastInDim S4096x4 ![] bcast_S_S4096x4 : (⟨S_, .f32⟩ : BufTy).Contents (Elt F) → (⟨S4096x4, .f32⟩ : BufTy).Contents (Elt F)),
    StableHlo.ternary main_v15 main_v31 main_v32 main_v33 ((fun x i u => Host.scatter scatter_S4096x38279_S4096x4x2_S4096x4_n_01_01_2 (fun _ b => b) x i u) : (⟨S4096x38279, .f32⟩ : BufTy).Contents (Elt F) → (⟨S4096x4x2, .i32⟩ : BufTy).Contents (Elt F) → (⟨S4096x4, .f32⟩ : BufTy).Contents (Elt F) → (⟨S4096x38279, .f32⟩ : BufTy).Contents (Elt F)),
    StableHlo.binary main_v33 main_arg1 main_v34 ((fun l r => Host.dotGeneral dot_S4096x38279_S38279x16_S4096x16_1_0_0_1_n_n none l r) : (⟨S4096x38279, .f32⟩ : BufTy).Contents (Elt F) → (⟨S38279x16, .f32⟩ : BufTy).Contents (Elt F) → (⟨S4096x16, .f32⟩ : BufTy).Contents (Elt F)),
    StableHlo.binary main_v34 main_v34 main_v35 (mulf : (⟨S4096x16, .f32⟩ : BufTy).Contents (Elt F) → (⟨S4096x16, .f32⟩ : BufTy).Contents (Elt F) → (⟨S4096x16, .f32⟩ : BufTy).Contents (Elt F)),
    StableHlo.binary main_v33 main_v33 main_v36 (mulf : (⟨S4096x38279, .f32⟩ : BufTy).Contents (Elt F) → (⟨S4096x38279, .f32⟩ : BufTy).Contents (Elt F) → (⟨S4096x38279, .f32⟩ : BufTy).Contents (Elt F)),
    StableHlo.binary main_arg1 main_arg1 main_v37 (mulf : (⟨S38279x16, .f32⟩ : BufTy).Contents (Elt F) → (⟨S38279x16, .f32⟩ : BufTy).Contents (Elt F) → (⟨S38279x16, .f32⟩ : BufTy).Contents (Elt F)),
    StableHlo.binary main_v36 main_v37 main_v38 ((fun l r => Host.dotGeneral dot_S4096x38279_S38279x16_S4096x16_1_0_0_1_n_n none l r) : (⟨S4096x38279, .f32⟩ : BufTy).Contents (Elt F) → (⟨S38279x16, .f32⟩ : BufTy).Contents (Elt F) → (⟨S4096x16, .f32⟩ : BufTy).Contents (Elt F)),
    StableHlo.binary main_v35 main_v38 main_v39 (subf : (⟨S4096x16, .f32⟩ : BufTy).Contents (Elt F) → (⟨S4096x16, .f32⟩ : BufTy).Contents (Elt F) → (⟨S4096x16, .f32⟩ : BufTy).Contents (Elt F)),
    StableHlo.nullary main_cst_9 (constant S_ .f32 0x00000000#32),
    StableHlo.binary main_v39 main_cst_9 main_v40 ((fun x v => Host.reduceAdd x v reducesTo_S4096x16_S4096_d1 h_S_) : (⟨S4096x16, .f32⟩ : BufTy).Contents (Elt F) → (⟨S_, .f32⟩ : BufTy).Contents (Elt F) → (⟨S4096, .f32⟩ : BufTy).Contents (Elt F)),
    StableHlo.nullary main_cst_10 (constant S_ .f32 0x3F000000#32),
    StableHlo.unary main_cst_10 main_v41 (broadcastInDim S4096 ![] bcast_S_S4096 : (⟨S_, .f32⟩ : BufTy).Contents (Elt F) → (⟨S4096, .f32⟩ : BufTy).Contents (Elt F)),
    StableHlo.binary main_v41 main_v40 main_v42 (mulf : (⟨S4096, .f32⟩ : BufTy).Contents (Elt F) → (⟨S4096, .f32⟩ : BufTy).Contents (Elt F) → (⟨S4096, .f32⟩ : BufTy).Contents (Elt F)),
    StableHlo.binary main_v14 main_v42 main_v43 (addf : (⟨S4096, .f32⟩ : BufTy).Contents (Elt F) → (⟨S4096, .f32⟩ : BufTy).Contents (Elt F) → (⟨S4096, .f32⟩ : BufTy).Contents (Elt F)),
    StableHlo.unary main_v43 main_v44 (Host.negf : (⟨S4096, .f32⟩ : BufTy).Contents (Elt F) → (⟨S4096, .f32⟩ : BufTy).Contents (Elt F)),
    StableHlo.unary main_v44 main_v45 (Host.exp : (⟨S4096, .f32⟩ : BufTy).Contents (Elt F) → (⟨S4096, .f32⟩ : BufTy).Contents (Elt F)),
    StableHlo.nullary main_cst_11 (constant S_ .f32 0x3F800000#32) ]

/-- The second window's six operations, in order. -/
abbrev ops1 : List (HloOp τ sig (Elt F)) :=
  [ StableHlo.unary main_cst_11 main_v46 (broadcastInDim S4096 ![] bcast_S_S4096 : (⟨S_, .f32⟩ : BufTy).Contents (Elt F) → (⟨S4096, .f32⟩ : BufTy).Contents (Elt F)),
    StableHlo.binary main_v46 main_v45 main_v47 (addf : (⟨S4096, .f32⟩ : BufTy).Contents (Elt F) → (⟨S4096, .f32⟩ : BufTy).Contents (Elt F) → (⟨S4096, .f32⟩ : BufTy).Contents (Elt F)),
    StableHlo.nullary main_cst_12 (constant S_ .f32 0x3F800000#32),
    StableHlo.unary main_cst_12 main_v48 (broadcastInDim S4096 ![] bcast_S_S4096 : (⟨S_, .f32⟩ : BufTy).Contents (Elt F) → (⟨S4096, .f32⟩ : BufTy).Contents (Elt F)),
    StableHlo.binary main_v48 main_v47 main_v49 (Host.divf : (⟨S4096, .f32⟩ : BufTy).Contents (Elt F) → (⟨S4096, .f32⟩ : BufTy).Contents (Elt F) → (⟨S4096, .f32⟩ : BufTy).Contents (Elt F)),
    StableHlo.unary main_v49 main_v50 (broadcastInDim S4096x1 ![0] bcast_S4096_S4096x1_0 : (⟨S4096, .f32⟩ : BufTy).Contents (Elt F) → (⟨S4096x1, .f32⟩ : BufTy).Contents (Elt F)) ]

/-- The whole program's operations: the first window's, then the second's. -/
abbrev ops : List (HloOp τ sig (Elt F)) := ops0 ++ ops1

set_option maxRecDepth 8192 in
set_option maxHeartbeats 4000000 in
/-- The first window is the line over its operations (the final return grafted on by the bind's own recursion). -/
theorem main_part0_eq (c : Dev nD) : main_part0 (F := F) c = seq ops0 := rfl

set_option maxRecDepth 8192 in
theorem main_part1_eq (c : Dev nD) : main_part1 (F := F) c = seq ops1 := rfl

/-- The program is the line over all its operations: two lines in a row are their concatenation's line. -/
theorem main_eq (c : Dev nD) : main (F := F) c = seq ops :=
  calc main (F := F) c = main_part0 (F := F) c >>= fun _ => main_part1 (F := F) c := rfl
    _ = (seq ops0 >>= fun _ => seq ops1) := by rw [main_part0_eq, main_part1_eq]
    _ = seq ops := (seq_append ops0 ops1).symm

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., unary_bufs_sub .., unary_bufs_sub .., unary_bufs_sub .., binary_bufs_sub .., binary_bufs_sub .., nullary_bufs_sub .., binary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., nullary_bufs_sub .., unary_bufs_sub .., ternary_bufs_sub .., binary_bufs_sub .., binary_bufs_sub .., binary_bufs_sub .., binary_bufs_sub .., binary_bufs_sub .., binary_bufs_sub .., nullary_bufs_sub .., binary_bufs_sub .., nullary_bufs_sub .., unary_bufs_sub .., binary_bufs_sub .., binary_bufs_sub .., unary_bufs_sub .., unary_bufs_sub .., nullary_bufs_sub ..⟩

theorem ops1_sub : (ops1 : List (HloOp τ sig (Elt F))).Forall fun op => op.bufs ⊆ tcRefs τ sig :=
  ⟨unary_bufs_sub .., binary_bufs_sub .., nullary_bufs_sub .., unary_bufs_sub .., binary_bufs_sub .., unary_bufs_sub ..⟩

/-- Every operation touches TensorCore references only. -/
theorem ops_sub : (ops : List (HloOp τ sig (Elt F))).Forall fun op => op.bufs ⊆ tcRefs τ sig :=
  List.forall_iff_forall_mem.mpr fun op h => by
    rcases List.mem_append.mp h with h | h
    exacts [List.forall_iff_forall_mem.mp ops0_sub op h, List.forall_iff_forall_mem.mp ops1_sub op h]

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops1_fresh : (ops1 : List (HloOp τ sig (Elt F))).Forall fun op => op.fresh = ∅ :=
  ⟨rfl, rfl, rfl, rfl, rfl, rfl⟩

/-- Every operation determines all it writes. -/
theorem ops_fresh : ∀ op ∈ (ops : List (HloOp τ sig (Elt F))), op.fresh = ∅ := fun op h => by
  rcases List.mem_append.mp h with h | h
  exacts [List.forall_iff_forall_mem.mp ops0_fresh op h, List.forall_iff_forall_mem.mp ops1_fresh op h]

/-- On the one device, for any float values, from any memory with zero counters: every weakly fair execution of
    @main terminates, and every buffer ends at the fold of the operations' results over what the launch gave. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.Hand

end
-- ==== Proof.Ref.Fn.lean ====
/-
  The value of the reference program as one closed term.

  The reference's host function is a straight line of 67 whole-array operations. Read with its three arguments as
  free variables, each operation's result is a function of earlier results, so the array the function returns is
  one expression in the arguments. This module writes that expression down, stage by stage and operation by
  operation, with exactly the operations, shape records, side-condition names and constants of the printed program
  and with nothing simplified:

    * the field offsets added to the index array;
    * the wrap of a negative index (add the table length where the word is negative), which the program applies
      to the offset indices before the lookup and again before the scatter, and to the row counter;
    * the bias lookup (a gather of single entries at [row, 0]) and its sum over the four fields;
    * the one-hot array (a scatter of ones into a zero array at [batch row, offset index]);
    * the two products of the one-hot array (and of its square) with the table (and with its square), the
      difference of the first product's square and the second, summed over the sixteen coordinates and halved;
    * the logistic of the sum of the two terms, as a column.
-/
import proofs.«416439_j75557064671821_3_alg».proof.Proof.Gen.ReferenceIdeal

noncomputable section

namespace Cert.ReferenceIdeal.Fn

open Idealize.ShloMosaic Idealize.SL.Sem
open Cert.ReferenceIdeal Cert.ReferenceIdeal.Facts₀

variable {F : FTy → Type} [FloatOps F]

/-! ## The offset indices -/

/-- The four field offsets, as the program's literal table lists them. -/
def offs : IVec S4 32 := fun i => lit0 (S4.rowMajor i)

/-- The offsets as a row. -/
def offsRow : IVec S1x4 32 := broadcastInDim S1x4 ![1] bcast_S4_S1x4_1 offs

/-- The offsets repeated down the batch. -/
def offsAll : IVec S4096x4 32 := broadcastInDim S4096x4 ![0, 1] bcast_S1x4_S4096x4_0_1 offsRow

/-- Each index plus its field's offset. -/
def xo (x : IVec S4096x4 32) : IVec S4096x4 32 := addi x offsAll

/-- The offset indices with a negative word moved up by the table length 38279. The program computes this twice,
    by the same operations on the same operands: before the lookup and before the scatter. -/
def xoWrap (x : IVec S4096x4 32) : IVec S4096x4 32 :=
  select
    (cmpi .slt (xo x) (broadcastInDim S4096x4 ![] bcast_S_S4096x4 (constantI S_ 32 0#32)))
    (addi (xo x) (broadcastInDim S4096x4 ![] bcast_S_S4096x4 (constantI S_ 32 38279#32)))
    (xo x)

/-! ## The bias term -/

/-- The column index of the lookup: zero everywhere (a splat, passed through a conversion that changes nothing). -/
def zeroCol : IVec S4096x4 32 := id (broadcastInDim S4096x4 ![] bcast_S_S4096x4 (constantI S_ 32 0#32))

/-- The lookup's start indices: [row, column] per batch row and field. -/
def gatherIdx (x : IVec S4096x4 32) : IVec S4096x4x2 32 :=
  concatenate S4096x4x2 2
    [⟨S4096x4x1, broadcastInDim S4096x4x1 ![0, 1] bcast_S4096x4_S4096x4x1_0_1 (xoWrap x)⟩,
     ⟨S4096x4x1, broadcastInDim S4096x4x1 ![0, 1] bcast_S4096x4_S4096x4x1_0_1 zeroCol⟩]
    concatenates_S4096x4x1_S4096x4x1_S4096x4x2_d2

/-- The bias entries the four fields name. -/
def biasRows (x : IVec S4096x4 32) (bias : FVec F S38279x1 .f32) : FVec F S4096x4 .f32 :=
  Host.gather gather_S38279x1_S4096x4x2_S4096x4_n_01_n_n_01_2_11 bias (gatherIdx x)

/-- Their sum over the fields. -/
def biasTerm (x : IVec S4096x4 32) (bias : FVec F S38279x1 .f32) : FVec F S4096 .f32 :=
  Host.reduceAdd (biasRows x bias) (constant S_ .f32 0x00000000#32 : FVec F S_ .f32) reducesTo_S4096x4_S4096_d1 h_S_

/-! ## The one-hot array -/

/-- The all-zero array the ones are written into. -/
def zeros : FVec F S4096x38279 .f32 :=
  broadcastInDim S4096x38279 ![] bcast_S_S4096x38279 (constant S_ .f32 0x00000000#32 : FVec F S_ .f32)

/-- The batch row counter, as a column. -/
def rowIota : IVec S4096x1 32 := broadcastInDim S4096x1 ![0] bcast_S4096_S4096x1_0 (iotaInDim S4096 32 0)

/-- The row counter with a negative word moved up by the batch size 4096. -/
def rowWrap : IVec S4096x1 32 :=
  select
    (cmpi .slt rowIota (broadcastInDim S4096x1 ![] bcast_S_S4096x1 (constantI S_ 32 0#32)))
    (addi rowIota (broadcastInDim S4096x1 ![] bcast_S_S4096x1 (constantI S_ 32 4096#32)))
    rowIota

/-- The scatter's indices: [batch row, offset index] per batch row and field. -/
def scatterIdx (x : IVec S4096x4 32) : IVec S4096x4x2 32 :=
  concatenate S4096x4x2 2
    [⟨S4096x4x1, broadcastInDim S4096x4x1 ![0, 1] bcast_S4096x4_S4096x4x1_0_1
        (broadcastInDim S4096x4 ![0, 1] bcast_S4096x1_S4096x4_0_1 rowWrap)⟩,
     ⟨S4096x4x1, broadcastInDim S4096x4x1 ![0, 1] bcast_S4096x4_S4096x4x1_0_1 (xoWrap x)⟩]
    concatenates_S4096x4x1_S4096x4x1_S4096x4x2_d2

/-- The ones that are written. -/
def ones : FVec F S4096x4 .f32 :=
  broadcastInDim S4096x4 ![] bcast_S_S4096x4 (constant S_ .f32 0x3F800000#32 : FVec F S_ .f32)

/-- The one-hot array: ones written over zeros at the scatter's indices. -/
def onehot (x : IVec S4096x4 32) : FVec F S4096x38279 .f32 :=
  Host.scatter scatter_S4096x38279_S4096x4x2_S4096x4_n_01_01_2 (fun _ b => b) (zeros (F := F)) (scatterIdx x)
    (ones (F := F))

/-! ## The interaction term -/

/-- The one-hot array times the table. -/
def sumV (x : IVec S4096x4 32) (v : FVec F S38279x16 .f32) : FVec F S4096x16 .f32 :=
  Host.dotGeneral dot_S4096x38279_S38279x16_S4096x16_1_0_0_1_n_n none (onehot (F := F) x) v

/-- The squared one-hot array times the squared table. -/
def sqS (x : IVec S4096x4 32) (v : FVec F S38279x16 .f32) : FVec F S4096x16 .f32 :=
  Host.dotGeneral dot_S4096x38279_S38279x16_S4096x16_1_0_0_1_n_n none
    (mulf (onehot (F := F) x) (onehot (F := F) x)) (mulf v v)

/-- Square of the sum minus sum of the squares, per coordinate. -/
def diff (x : IVec S4096x4 32) (v : FVec F S38279x16 .f32) : FVec F S4096x16 .f32 :=
  subf (mulf (sumV x v) (sumV x v)) (sqS x v)

/-- Half its sum over the coordinates. -/
def fm (x : IVec S4096x4 32) (v : FVec F S38279x16 .f32) : FVec F S4096 .f32 :=
  mulf
    (broadcastInDim S4096 ![] bcast_S_S4096 (constant S_ .f32 0x3F000000#32 : FVec F S_ .f32))
    (Host.reduceAdd (diff x v) (constant S_ .f32 0x00000000#32 : FVec F S_ .f32) reducesTo_S4096x16_S4096_d1 h_S_)

/-! ## The result -/

/-- The logit: the bias term plus the interaction term. -/
def logit (x : IVec S4096x4 32) (v : FVec F S38279x16 .f32) (bias : FVec F S38279x1 .f32) : FVec F S4096 .f32 :=
  addf (biasTerm x bias) (fm x v)

/-- One, along the batch. -/
def oneRow : FVec F S4096 .f32 :=
  broadcastInDim S4096 ![] bcast_S_S4096 (constant S_ .f32 0x3F800000#32 : FVec F S_ .f32)

/-- One over one plus the exponential of the negated logit. -/
def sigm (x : IVec S4096x4 32) (v : FVec F S38279x16 .f32) (bias : FVec F S38279x1 .f32) : FVec F S4096 .f32 :=
  Host.divf (oneRow (F := F)) (addf (oneRow (F := F)) (Host.exp (Host.negf (logit x v bias))))

/-- The array the reference returns: that, as a column. -/
def result (x : IVec S4096x4 32) (v : FVec F S38279x16 .f32) (bias : FVec F S38279x1 .f32) : FVec F S4096x1 .f32 :=
  broadcastInDim S4096x1 ![0] bcast_S4096_S4096x1_0 (sigm x v bias)

end Cert.ReferenceIdeal.Fn

end
-- ==== Proof.LibSeqLine.lean ====
/-
  Lines of host operations: three general facts for running a host program whose operations are listed piece by piece
  (one piece per window of the program, or per call of a local function).

  `chain_map_seq`: pieces run one after the other are their concatenation run as one line. `after_append`: the
  contents after two lines in a row are the second line's applied to what the first leaves. `forall_flatten`: a
  property every operation of every piece has, every operation of the concatenation has.
-/
import Idealize.ShloMosaic.Lib.StableHlo.Run
import Idealize.ShloMosaic.Lib.Pipeline.Regions

noncomputable section

namespace Cert.LibSeqLine

open Idealize.ShloMosaic Idealize.ShloMosaic.TcCoe Idealize.SL.Sem Idealize.ShloMosaic.StableHlo

section General

variable {nD : Nat} {τ : Topo} {sig : RefSig} {Val : EltTy → Type} {Λ : Labels}

/-- Lines run one after the other are their concatenation run as one line. -/
theorem chain_map_seq : ∀ L : List (List (HloOp τ sig Val)),
    Pipeline.chain (L.map fun l => (seq l : Prog (TpuEff nD τ sig Val Λ .tc) PUnit)) = seq L.flatten
  | [] => rfl
  | l :: L => by rw [List.map_cons, Pipeline.chain_cons, List.flatten_cons, seq_append, chain_map_seq L]

/-- The contents after two lines in a row: the second applied to what the first leaves. -/
theorem after_append : ∀ (l₁ l₂ : List (HloOp τ sig Val)) (V : Valuation τ sig Val), after (l₁ ++ l₂) V = after l₂ (after l₁ V)
  | [], _, _ => rfl
  | op :: l, l₂, V => by rw [List.cons_append, after_cons, after_cons, after_append l l₂]

/-- A property of every operation of every line holds of every operation of their concatenation. -/
theorem forall_flatten {α : Type} {p : α → Prop} (L : List (List α)) (h : ∀ l ∈ L, l.Forall p) : ∀ x ∈ L.flatten, p x := by
  intro x hx
  obtain ⟨l, hl, hxl⟩ := List.mem_flatten.mp hx
  exact (List.forall_iff_forall_mem.mp (h l hl)) x hxl

end General

end Cert.LibSeqLine

end
-- ==== Proof.Ref.Run.lean ====
/-
  The reference program's run, read back as one closed term of its arguments.

  The line of sixty-six host operations is cut into four stretches (before each of the two concatenations, and at the
  second window). For each stretch, and from ANY memory it may start in, the buffers the later stretches read are
  computed as terms over the buffers the stretch itself reads from earlier ones; the three argument buffers pass
  through every stretch untouched. Chaining the four, the result buffer after the whole line is the staged term
  of the arguments (the offset indices and their wrap, the bias lookup summed over the fields, the one-hot rows
  scattered over zeros, half the sum over coordinates of the squared contraction minus the contraction of squares,
  and the logistic function of the sum, as a column), and the arguments end as they began. The machine's run theorem
  for a straight line then gives the statement over every weakly fair execution.
-/
import proofs.«416439_j75557064671821_3_alg».proof.Proof.Ref.Ops
import proofs.«416439_j75557064671821_3_alg».proof.Proof.Ref.Fn
import proofs.«416439_j75557064671821_3_alg».proof.Proof.LibSeqLine

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The line in four stretches

The cuts fall before each concatenation, so that a concatenation's pieces are contents of the memory its stretch
starts in, and before the second window. -/

/-- Operations 1 to 16: the offset indices, their wrap, and the two index planes of the lookup. -/
abbrev opsA : List (HloOp τ sig (Elt F)) :=
  [ StableHlo.nullary main_c (fun i => lit0 (S4.rowMajor i)),
    StableHlo.unary main_c main_v0 (broadcastInDim S1x4 ![1] bcast_S4_S1x4_1 : (⟨S4, .i32⟩ : BufTy).Contents (Elt F) → (⟨S1x4, .i32⟩ : BufTy).Contents (Elt F)),
    StableHlo.unary main_v0 main_v1 (broadcastInDim S4096x4 ![0, 1] bcast_S1x4_S4096x4_0_1 : (⟨S1x4, .i32⟩ : BufTy).Contents (Elt F) → (⟨S4096x4, .i32⟩ : BufTy).Contents (Elt F)),
    StableHlo.binary main_arg0 main_v1 main_v2 (addi : (⟨S4096x4, .i32⟩ : BufTy).Contents (Elt F) → (⟨S4096x4, .i32⟩ : BufTy).Contents (Elt F) → (⟨S4096x4, .i32⟩ : BufTy).Contents (Elt F)),
    StableHlo.nullary main_c_0 (constantI S_ 32 0#32),
    StableHlo.unary main_c_0 main_v3 (broadcastInDim S4096x4 ![] bcast_S_S4096x4 : (⟨S_, .i32⟩ : BufTy).Contents (Elt F) → (⟨S4096x4, .i32⟩ : BufTy).Contents (Elt F)),
    StableHlo.binary main_v2 main_v3 main_v4 (cmpi .slt : (⟨S4096x4, .i32⟩ : BufTy).Contents (Elt F) → (⟨S4096x4, .i32⟩ : BufTy).Contents (Elt F) → (⟨S4096x4, .i1⟩ : BufTy).Contents (Elt F)),
    StableHlo.nullary main_c_1 (constantI S_ 32 38279#32),
    StableHlo.unary main_c_1 main_v5 (broadcastInDim S4096x4 ![] bcast_S_S4096x4 : (⟨S_, .i32⟩ : BufTy).Contents (Elt F) → (⟨S4096x4, .i32⟩ : BufTy).Contents (Elt F)),
    StableHlo.binary main_v2 main_v5 main_v6 (addi : (⟨S4096x4, .i32⟩ : BufTy).Contents (Elt F) → (⟨S4096x4, .i32⟩ : BufTy).Contents (Elt F) → (⟨S4096x4, .i32⟩ : BufTy).Contents (Elt F)),
    StableHlo.ternary main_v4 main_v6 main_v2 main_v7 (select : (⟨S4096x4, .i1⟩ : BufTy).Contents (Elt F) → (⟨S4096x4, .i32⟩ : BufTy).Contents (Elt F) → (⟨S4096x4, .i32⟩ : BufTy).Contents (Elt F) → (⟨S4096x4, .i32⟩ : BufTy).Contents (Elt F)),
    StableHlo.nullary main_c_2 (constantI S_ 32 0#32),
    StableHlo.unary main_c_2 main_v8 (broadcastInDim S4096x4 ![] bcast_S_S4096x4 : (⟨S_, .i32⟩ : BufTy).Contents (Elt F) → (⟨S4096x4, .i32⟩ : BufTy).Contents (Elt F)),
    StableHlo.unary main_v8 main_v9 (id : (⟨S4096x4, .i32⟩ : BufTy).Contents (Elt F) → (⟨S4096x4, .i32⟩ : BufTy).Contents (Elt F)),
    StableHlo.unary main_v7 main_v10 (broadcastInDim S4096x4x1 ![0, 1] bcast_S4096x4_S4096x4x1_0_1 : (⟨S4096x4, .i32⟩ : BufTy).Contents (Elt F) → (⟨S4096x4x1, .i32⟩ : BufTy).Contents (Elt F)),
    StableHlo.unary main_v9 main_v11 (broadcastInDim S4096x4x1 ![0, 1] bcast_S4096x4_S4096x4x1_0_1 : (⟨S4096x4, .i32⟩ : BufTy).Contents (Elt F) → (⟨S4096x4x1, .i32⟩ : BufTy).Contents (Elt F)) ]

/-- Operations 17 to 41: the lookup and its row sum, the zero array, the row counter and its wrap, the second wrap
    of the offset indices, and the two index planes of the scatter. -/
abbrev opsB : List (HloOp τ sig (Elt F)) :=
  [ StableHlo.binary main_v10 main_v11 main_v12 ((fun a b => concatenate S4096x4x2 2 [⟨S4096x4x1, a⟩, ⟨S4096x4x1, b⟩] concatenates_S4096x4x1_S4096x4x1_S4096x4x2_d2) : (⟨S4096x4x1, .i32⟩ : BufTy).Contents (Elt F) → (⟨S4096x4x1, .i32⟩ : BufTy).Contents (Elt F) → (⟨S4096x4x2, .i32⟩ : BufTy).Contents (Elt F)),
    StableHlo.binary main_arg2 main_v12 main_v13 ((fun x i => Host.gather gather_S38279x1_S4096x4x2_S4096x4_n_01_n_n_01_2_11 x i) : (⟨S38279x1, .f32⟩ : BufTy).Contents (Elt F) → (⟨S4096x4x2, .i32⟩ : BufTy).Contents (Elt F) → (⟨S4096x4, .f32⟩ : BufTy).Contents (Elt F)),
    StableHlo.nullary main_cst (constant S_ .f32 0x00000000#32),
    StableHlo.binary main_v13 main_cst main_v14 ((fun x v => Host.reduceAdd x v reducesTo_S4096x4_S4096_d1 h_S_) : (⟨S4096x4, .f32⟩ : BufTy).Contents (Elt F) → (⟨S_, .f32⟩ : BufTy).Contents (Elt F) → (⟨S4096, .f32⟩ : BufTy).Contents (Elt F)),
    StableHlo.nullary main_cst_3 (constant S_ .f32 0x00000000#32),
    StableHlo.unary main_cst_3 main_v15 (broadcastInDim S4096x38279 ![] bcast_S_S4096x38279 : (⟨S_, .f32⟩ : BufTy).Contents (Elt F) → (⟨S4096x38279, .f32⟩ : BufTy).Contents (Elt F)),
    StableHlo.nullary main_v16 (iotaInDim S4096 32 0),
    StableHlo.unary main_v16 main_v17 (broadcastInDim S4096x1 ![0] bcast_S4096_S4096x1_0 : (⟨S4096, .i32⟩ : BufTy).Contents (Elt F) → (⟨S4096x1, .i32⟩ : BufTy).Contents (Elt F)),
    StableHlo.nullary main_c_4 (constantI S_ 32 0#32),
    StableHlo.unary main_c_4 main_v18 (broadcastInDim S4096x1 ![] bcast_S_S4096x1 : (⟨S_, .i32⟩ : BufTy).Contents (Elt F) → (⟨S4096x1, .i32⟩ : BufTy).Contents (Elt F)),
    StableHlo.binary main_v17 main_v18 main_v19 (cmpi .slt : (⟨S4096x1, .i32⟩ : BufTy).Contents (Elt F) → (⟨S4096x1, .i32⟩ : BufTy).Contents (Elt F) → (⟨S4096x1, .i1⟩ : BufTy).Contents (Elt F)),
    StableHlo.nullary main_c_5 (constantI S_ 32 4096#32),
    StableHlo.unary main_c_5 main_v20 (broadcastInDim S4096x1 ![] bcast_S_S4096x1 : (⟨S_, .i32⟩ : BufTy).Contents (Elt F) → (⟨S4096x1, .i32⟩ : BufTy).Contents (Elt F)),
    StableHlo.binary main_v17 main_v20 main_v21 (addi : (⟨S4096x1, .i32⟩ : BufTy).Contents (Elt F) → (⟨S4096x1, .i32⟩ : BufTy).Contents (Elt F) → (⟨S4096x1, .i32⟩ : BufTy).Contents (Elt F)),
    StableHlo.ternary main_v19 main_v21 main_v17 main_v22 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    StableHlo.nullary main_c_6 (constantI S_ 32 0#32),
    StableHlo.unary main_c_6 main_v23 (broadcastInDim S4096x4 ![] bcast_S_S4096x4 : (⟨S_, .i32⟩ : BufTy).Contents (Elt F) → (⟨S4096x4, .i32⟩ : BufTy).Contents (Elt F)),
    StableHlo.binary main_v2 main_v23 main_v24 (cmpi .slt : (⟨S4096x4, .i32⟩ : BufTy).Contents (Elt F) → (⟨S4096x4, .i32⟩ : BufTy).Contents (Elt F) → (⟨S4096x4, .i1⟩ : BufTy).Contents (Elt F)),
    StableHlo.nullary main_c_7 (constantI S_ 32 38279#32),
    StableHlo.unary main_c_7 main_v25 (broadcastInDim S4096x4 ![] bcast_S_S4096x4 : (⟨S_, .i32⟩ : BufTy).Contents (Elt F) → (⟨S4096x4, .i32⟩ : BufTy).Contents (Elt F)),
    StableHlo.binary main_v2 main_v25 main_v26 (addi : (⟨S4096x4, .i32⟩ : BufTy).Contents (Elt F) → (⟨S4096x4, .i32⟩ : BufTy).Contents (Elt F) → (⟨S4096x4, .i32⟩ : BufTy).Contents (Elt F)),
    StableHlo.ternary main_v24 main_v26 main_v2 main_v27 (select : (⟨S4096x4, .i1⟩ : BufTy).Contents (Elt F) → (⟨S4096x4, .i32⟩ : BufTy).Contents (Elt F) → (⟨S4096x4, .i32⟩ : BufTy).Contents (Elt F) → (⟨S4096x4, .i32⟩ : BufTy).Contents (Elt F)),
    StableHlo.unary main_v22 main_v28 (broadcastInDim S4096x4 ![0, 1] bcast_S4096x1_S4096x4_0_1 : (⟨S4096x1, .i32⟩ : BufTy).Contents (Elt F) → (⟨S4096x4, .i32⟩ : BufTy).Contents (Elt F)),
    StableHlo.unary main_v28 main_v29 (broadcastInDim S4096x4x1 ![0, 1] bcast_S4096x4_S4096x4x1_0_1 : (⟨S4096x4, .i32⟩ : BufTy).Contents (Elt F) → (⟨S4096x4x1, .i32⟩ : BufTy).Contents (Elt F)),
    StableHlo.unary main_v27 main_v30 (broadcastInDim S4096x4x1 ![0, 1] bcast_S4096x4_S4096x4x1_0_1 : (⟨S4096x4, .i32⟩ : BufTy).Contents (Elt F) → (⟨S4096x4x1, .i32⟩ : BufTy).Contents (Elt F)) ]

/-- Operations 42 to 60: the scatter, the two contractions, the interaction term, the logit and its negated
    exponential. -/
abbrev opsC : List (HloOp τ sig (Elt F)) :=
  [ StableHlo.binary main_v29 main_v30 main_v31 ((fun a b => concatenate S4096x4x2 2 [⟨S4096x4x1, a⟩, ⟨S4096x4x1, b⟩] concatenates_S4096x4x1_S4096x4x1_S4096x4x2_d2) : (⟨S4096x4x1, .i32⟩ : BufTy).Contents (Elt F) → (⟨S4096x4x1, .i32⟩ : BufTy).Contents (Elt F) → (⟨S4096x4x2, .i32⟩ : BufTy).Contents (Elt F)),
    StableHlo.nullary main_cst_8 (constant S_ .f32 0x3F800000#32),
    StableHlo.unary main_cst_8 main_v32 (broadcastInDim S4096x4 ![] bcast_S_S4096x4 : (⟨S_, .f32⟩ : BufTy).Contents (Elt F) → (⟨S4096x4, .f32⟩ : BufTy).Contents (Elt F)),
    StableHlo.ternary main_v15 main_v31 main_v32 main_v33 ((fun x i u => Host.scatter scatter_S4096x38279_S4096x4x2_S4096x4_n_01_01_2 (fun _ b => b) x i u) : (⟨S4096x38279, .f32⟩ : BufTy).Contents (Elt F) → (⟨S4096x4x2, .i32⟩ : BufTy).Contents (Elt F) → (⟨S4096x4, .f32⟩ : BufTy).Contents (Elt F) → (⟨S4096x38279, .f32⟩ : BufTy).Contents (Elt F)),
    StableHlo.binary main_v33 main_arg1 main_v34 ((fun l r => Host.dotGeneral dot_S4096x38279_S38279x16_S4096x16_1_0_0_1_n_n none l r) : (⟨S4096x38279, .f32⟩ : BufTy).Contents (Elt F) → (⟨S38279x16, .f32⟩ : BufTy).Contents (Elt F) → (⟨S4096x16, .f32⟩ : BufTy).Contents (Elt F)),
    StableHlo.binary main_v34 main_v34 main_v35 (mulf : (⟨S4096x16, .f32⟩ : BufTy).Contents (Elt F) → (⟨S4096x16, .f32⟩ : BufTy).Contents (Elt F) → (⟨S4096x16, .f32⟩ : BufTy).Contents (Elt F)),
    StableHlo.binary main_v33 main_v33 main_v36 (mulf : (⟨S4096x38279, .f32⟩ : BufTy).Contents (Elt F) → (⟨S4096x38279, .f32⟩ : BufTy).Contents (Elt F) → (⟨S4096x38279, .f32⟩ : BufTy).Contents (Elt F)),
    StableHlo.binary main_arg1 main_arg1 main_v37 (mulf : (⟨S38279x16, .f32⟩ : BufTy).Contents (Elt F) → (⟨S38279x16, .f32⟩ : BufTy).Contents (Elt F) → (⟨S38279x16, .f32⟩ : BufTy).Contents (Elt F)),
    StableHlo.binary main_v36 main_v37 main_v38 ((fun l r => Host.dotGeneral dot_S4096x38279_S38279x16_S4096x16_1_0_0_1_n_n none l r) : (⟨S4096x38279, .f32⟩ : BufTy).Contents (Elt F) → (⟨S38279x16, .f32⟩ : BufTy).Contents (Elt F) → (⟨S4096x16, .f32⟩ : BufTy).Contents (Elt F)),
    StableHlo.binary main_v35 main_v38 main_v39 (subf : (⟨S4096x16, .f32⟩ : BufTy).Contents (Elt F) → (⟨S4096x16, .f32⟩ : BufTy).Contents (Elt F) → (⟨S4096x16, .f32⟩ : BufTy).Contents (Elt F)),
    StableHlo.nullary main_cst_9 (constant S_ .f32 0x00000000#32),
    StableHlo.binary main_v39 main_cst_9 main_v40 ((fun x v => Host.reduceAdd x v reducesTo_S4096x16_S4096_d1 h_S_) : (⟨S4096x16, .f32⟩ : BufTy).Contents (Elt F) → (⟨S_, .f32⟩ : BufTy).Contents (Elt F) → (⟨S4096, .f32⟩ : BufTy).Contents (Elt F)),
    StableHlo.nullary main_cst_10 (constant S_ .f32 0x3F000000#32),
    StableHlo.unary main_cst_10 main_v41 (broadcastInDim S4096 ![] bcast_S_S4096 : (⟨S_, .f32⟩ : BufTy).Contents (Elt F) → (⟨S4096, .f32⟩ : BufTy).Contents (Elt F)),
    StableHlo.binary main_v41 main_v40 main_v42 (mulf : (⟨S4096, .f32⟩ : BufTy).Contents (Elt F) → (⟨S4096, .f32⟩ : BufTy).Contents (Elt F) → (⟨S4096, .f32⟩ : BufTy).Contents (Elt F)),
    StableHlo.binary main_v14 main_v42 main_v43 (addf : (⟨S4096, .f32⟩ : BufTy).Contents (Elt F) → (⟨S4096, .f32⟩ : BufTy).Contents (Elt F) → (⟨S4096, .f32⟩ : BufTy).Contents (Elt F)),
    StableHlo.unary main_v43 main_v44 (Host.negf : (⟨S4096, .f32⟩ : BufTy).Contents (Elt F) → (⟨S4096, .f32⟩ : BufTy).Contents (Elt F)),
    StableHlo.unary main_v44 main_v45 (Host.exp : (⟨S4096, .f32⟩ : BufTy).Contents (Elt F) → (⟨S4096, .f32⟩ : BufTy).Contents (Elt F)),
    StableHlo.nullary main_cst_11 (constant S_ .f32 0x3F800000#32) ]

section Stretches

variable (W : Valuation τ sig (Elt F))

/-! ### First stretch, from any memory: it reads the index array only -/

theorem A_v2 : after opsA W (Proc.devRef .tc main_v2) = Fn.xo (W (Proc.devRef .tc main_arg0)) := by
  after_results_simp <;> rfl
theorem A_v10 : after opsA W (Proc.devRef .tc main_v10)
    = broadcastInDim S4096x4x1 ![0, 1] bcast_S4096x4_S4096x4x1_0_1 (Fn.xoWrap (W (Proc.devRef .tc main_arg0))) := by
  after_results_simp <;> rfl
theorem A_v11 : after opsA W (Proc.devRef .tc main_v11) = broadcastInDim S4096x4x1 ![0, 1] bcast_S4096x4_S4096x4x1_0_1 Fn.zeroCol := by
  after_results_simp <;> rfl
theorem A_arg0 : after opsA W (Proc.devRef .tc main_arg0) = W (Proc.devRef .tc main_arg0) := by after_results_simp
theorem A_arg1 : after opsA W (Proc.devRef .tc main_arg1) = W (Proc.devRef .tc main_arg1) := by after_results_simp
theorem A_arg2 : after opsA W (Proc.devRef .tc main_arg2) = W (Proc.devRef .tc main_arg2) := by after_results_simp

/-! ### Second stretch: it reads the two lookup planes, the bias column and the offset indices -/

theorem B_v14 : after opsB W (Proc.devRef .tc main_v14)
    = Host.reduceAdd
        (Host.gather gather_S38279x1_S4096x4x2_S4096x4_n_01_n_n_01_2_11 (W (Proc.devRef .tc main_arg2))
          (concatenate S4096x4x2 2 [⟨S4096x4x1, W (Proc.devRef .tc main_v10)⟩, ⟨S4096x4x1, W (Proc.devRef .tc main_v11)⟩]
            concatenates_S4096x4x1_S4096x4x1_S4096x4x2_d2))
        (constant S_ .f32 0x00000000#32 : FVec F S_ .f32) reducesTo_S4096x4_S4096_d1 h_S_ := by
  after_results_simp <;> rfl
theorem B_v15 : after opsB W (Proc.devRef .tc main_v15) = Fn.zeros (F := F) := by
  after_results_simp <;> rfl
theorem B_v29 : after opsB W (Proc.devRef .tc main_v29)
    = broadcastInDim S4096x4x1 ![0, 1] bcast_S4096x4_S4096x4x1_0_1 (broadcastInDim S4096x4 ![0, 1] bcast_S4096x1_S4096x4_0_1 Fn.rowWrap) := by
  after_results_simp <;> rfl
theorem B_v30 : after opsB W (Proc.devRef .tc main_v30)
    = broadcastInDim S4096x4x1 ![0, 1] bcast_S4096x4_S4096x4x1_0_1
        (select
          (cmpi .slt (W (Proc.devRef .tc main_v2)) (broadcastInDim S4096x4 ![] bcast_S_S4096x4 (constantI S_ 32 0#32)))
          (addi (W (Proc.devRef .tc main_v2)) (broadcastInDim S4096x4 ![] bcast_S_S4096x4 (constantI S_ 32 38279#32)))
          (W (Proc.devRef .tc main_v2))) := by
  after_results_simp <;> rfl
theorem B_arg0 : after opsB W (Proc.devRef .tc main_arg0) = W (Proc.devRef .tc main_arg0) := by after_results_simp
theorem B_arg1 : after opsB W (Proc.devRef .tc main_arg1) = W (Proc.devRef .tc main_arg1) := by after_results_simp
theorem B_arg2 : after opsB W (Proc.devRef .tc main_arg2) = W (Proc.devRef .tc main_arg2) := by after_results_simp

/-! ### Third stretch: it reads the two scatter planes, the zero array, the factor table and the bias term -/

/-- The one-hot rows as the third stretch builds them from the memory it starts in. -/
def onehotOf : FVec F S4096x38279 .f32 :=
  Host.scatter scatter_S4096x38279_S4096x4x2_S4096x4_n_01_01_2 (fun _ b => b) (W (Proc.devRef .tc main_v15))
    (concatenate S4096x4x2 2 [⟨S4096x4x1, W (Proc.devRef .tc main_v29)⟩, ⟨S4096x4x1, W (Proc.devRef .tc main_v30)⟩]
      concatenates_S4096x4x1_S4096x4x1_S4096x4x2_d2)
    (broadcastInDim S4096x4 ![] bcast_S_S4096x4 (constant S_ .f32 0x3F800000#32 : FVec F S_ .f32))

theorem C_v45 : after opsC W (Proc.devRef .tc main_v45)
    = Host.exp (Host.negf (addf (W (Proc.devRef .tc main_v14))
        (mulf (broadcastInDim S4096 ![] bcast_S_S4096 (constant S_ .f32 0x3F000000#32 : FVec F S_ .f32))
          (Host.reduceAdd
            (subf
              (mulf
                (Host.dotGeneral dot_S4096x38279_S38279x16_S4096x16_1_0_0_1_n_n none (onehotOf W) (W (Proc.devRef .tc main_arg1)))
                (Host.dotGeneral dot_S4096x38279_S38279x16_S4096x16_1_0_0_1_n_n none (onehotOf W) (W (Proc.devRef .tc main_arg1))))
              (Host.dotGeneral dot_S4096x38279_S38279x16_S4096x16_1_0_0_1_n_n none
                (mulf (onehotOf W) (onehotOf W)) (mulf (W (Proc.devRef .tc main_arg1)) (W (Proc.devRef .tc main_arg1)))))
            (constant S_ .f32 0x00000000#32 : FVec F S_ .f32) reducesTo_S4096x16_S4096_d1 h_S_)))) := by
  after_results_simp <;> rfl
theorem C_cst11 : after opsC W (Proc.devRef .tc main_cst_11) = (constant S_ .f32 0x3F800000#32 : FVec F S_ .f32) := by
  after_results_simp <;> rfl
theorem C_arg0 : after opsC W (Proc.devRef .tc main_arg0) = W (Proc.devRef .tc main_arg0) := by after_results_simp
theorem C_arg1 : after opsC W (Proc.devRef .tc main_arg1) = W (Proc.devRef .tc main_arg1) := by after_results_simp
theorem C_arg2 : after opsC W (Proc.devRef .tc main_arg2) = W (Proc.devRef .tc main_arg2) := by after_results_simp

/-! ### Fourth stretch (the second window): it reads the constant one and the exponential -/

theorem D_v50 : after ops1 W (Proc.devRef .tc main_v50)
    = broadcastInDim S4096x1 ![0] bcast_S4096_S4096x1_0
        (Host.divf (Fn.oneRow (F := F))
          (addf (broadcastInDim S4096 ![] bcast_S_S4096 (W (Proc.devRef .tc main_cst_11))) (W (Proc.devRef .tc main_v45)))) := by
  after_results_simp <;> rfl
theorem D_arg0 : after ops1 W (Proc.devRef .tc main_arg0) = W (Proc.devRef .tc main_arg0) := by after_results_simp
theorem D_arg1 : after ops1 W (Proc.devRef .tc main_arg1) = W (Proc.devRef .tc main_arg1) := by after_results_simp
theorem D_arg2 : after ops1 W (Proc.devRef .tc main_arg2) = W (Proc.devRef .tc main_arg2) := by after_results_simp

end Stretches

/-! ## The stretches joined -/

set_option maxRecDepth 8192 in
/-- The whole list is the four stretches in a row. -/
theorem ops_cut : (ops : List (HloOp τ sig (Elt F))) = opsA ++ (opsB ++ (opsC ++ ops1)) := rfl

/-- So the memory after the whole line is the fourth stretch's after the third's after the second's after the first's. -/
theorem after_cut (V : Valuation τ sig (Elt F)) :
    after ops V = after ops1 (after opsC (after opsB (after opsA V))) := by
  rw [ops_cut, Cert.LibSeqLine.after_append, Cert.LibSeqLine.after_append, Cert.LibSeqLine.after_append]

section Joined

variable (V : Valuation τ sig (Elt F))

/-- After the first two stretches the bias term's buffer holds the bias term of the arguments. -/
theorem bias_eq : after opsB (after opsA V) (Proc.devRef .tc main_v14)
    = Fn.biasTerm (V (Proc.devRef .tc main_arg0)) (V (Proc.devRef .tc main_arg2)) := by
  rw [B_v14, A_v10, A_v11, A_arg2]; rfl

/-- From the memory the first two stretches leave, the third builds the one-hot rows of the index argument. -/
theorem onehot_eq : onehotOf (after opsB (after opsA V)) = Fn.onehot (F := F) (V (Proc.devRef .tc main_arg0)) := by
  unfold onehotOf
  rw [B_v15, B_v29, B_v30, A_v2]; rfl

/-- The result buffer after the whole line: the staged term of the three arguments. -/
theorem after_v50 : after ops V (Proc.devRef .tc main_v50)
    = Fn.result (V (Proc.devRef .tc main_arg0)) (V (Proc.devRef .tc main_arg1)) (V (Proc.devRef .tc main_arg2)) := by
  rw [after_cut, D_v50, C_cst11, C_v45, bias_eq, onehot_eq, B_arg1, A_arg1]; rfl

theorem after_arg0 : after ops V (Proc.devRef .tc main_arg0) = V (Proc.devRef .tc main_arg0) := by
  rw [after_cut, D_arg0, C_arg0, B_arg0, A_arg0]
theorem after_arg1 : after ops V (Proc.devRef .tc main_arg1) = V (Proc.devRef .tc main_arg1) := by
  rw [after_cut, D_arg1, C_arg1, B_arg1, A_arg1]
theorem after_arg2 : after ops V (Proc.devRef .tc main_arg2) = V (Proc.devRef .tc main_arg2) := by
  rw [after_cut, D_arg2, C_arg2, B_arg2, A_arg2]

end Joined

/-! ## The run -/

/-- On the one device, for any float values, from any memory with zero counters: every weakly fair execution of
    @main terminates with the result buffer at the staged term of the arguments' launch contents and the three
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50)
          = Cert.ReferenceIdeal.Fn.result (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v50).trans (after_v50 (launchContents m c)),
      (h c main_arg0).trans (after_arg0 (launchContents m c)),
      (h c main_arg1).trans (after_arg1 (launchContents m c)),
      (h c main_arg2).trans (after_arg2 (launchContents m c))⟩)
    (run_after m ρ)

end Cert.ReferenceIdeal.Hand

end
-- ==== Proof.LibWordDiv.lean ====
/-
  Signed 32-bit word arithmetic on non-negative words.

  A word below 2³¹ is non-negative as a signed number, and on such words (with a positive divisor below 2³¹) the
  signed quotient and remainder are the quotient and remainder of the values as natural numbers. jnp's floor
  division and remainder are the truncated ones followed by a correction that applies only when signs differ; on
  non-negative words the correction never applies, so they too are the natural-number quotient and remainder.
  The same holds for the wrap of a negative index (nothing to wrap), the clip below at zero (nothing to clip) and
  the comparison of a position with a total (the comparison of the values).
-/
import Idealize.ShloMosaic.PureOps.Vector
import Idealize.ShloMosaic.PureOps.ShapeOps
import Idealize.ShloMosaic.Lib.StableHlo.Predicate

namespace Cert.LibWordDiv

open Idealize.ShloMosaic
open Idealize.ShloMosaic.StableHlo.Predicate (slt_iff_toNat sge_iff_toNat cmpi_eq_iff ofBool_eq_one_iff)

/-! ## Words -/

/-- A word below 2³¹ has its top bit clear. -/
theorem msb_false_of_lt {a : BitVec 32} (ha : a.toNat < 2 ^ 31) : a.msb = false :=
  BitVec.msb_eq_false_iff_two_mul_lt.mpr (by omega)

/-- Selecting on the zero bit takes the second branch. -/
theorem select_zero {α : Type} (a b : α) : Scalar.select 0#1 a b = b := by
  simp [Scalar.select]

/-- Selecting on the one bit takes the first branch. -/
theorem select_one {α : Type} (a b : α) : Scalar.select 1#1 a b = a := by
  simp [Scalar.select]

/-- A positive divisor below 2³¹ and a dividend below 2³¹ are not at the signed-division corner. -/
theorem not_corner (v d : BitVec 32) (hd0 : 0 < d.toNat) (hd : d.toNat < 2 ^ 31) : ¬ IntOp.SDivCorner v d := by
  rintro (hc | ⟨_, hc⟩)
  · rw [hc] at hd0; simp at hd0
  · rw [hc] at hd; revert hd; decide

/-- Signed division of a word below 2³¹ by a positive word below 2³¹ is the quotient of the values. -/
theorem divsi_host_eq (v d : BitVec 32) (hv : v.toNat < 2 ^ 31) (hd0 : 0 < d.toNat) (hd : d.toNat < 2 ^ 31) :
    IntOp.divsi .host v d = BitVec.ofNat 32 (v.toNat / d.toNat) := by
  have hle : v.toNat / d.toNat ≤ v.toNat := Nat.div_le_self _ _
  simp only [IntOp.divsi, if_neg (not_corner v d hd0 hd), BitVec.sdiv_eq, msb_false_of_lt hv, msb_false_of_lt hd,
    BitVec.udiv_eq]
  apply BitVec.eq_of_toNat_eq
  rw [BitVec.toNat_udiv, BitVec.toNat_ofNat, Nat.mod_eq_of_lt (by omega)]

/-- Signed remainder of a word below 2³¹ by a positive word below 2³¹ is the remainder of the values. -/
theorem remsi_host_eq (v d : BitVec 32) (hv : v.toNat < 2 ^ 31) (hd0 : 0 < d.toNat) (hd : d.toNat < 2 ^ 31) :
    IntOp.remsi .host v d = BitVec.ofNat 32 (v.toNat % d.toNat) := by
  have hlt : v.toNat % d.toNat < d.toNat := Nat.mod_lt _ hd0
  simp only [IntOp.remsi, if_neg (not_corner v d hd0 hd), BitVec.srem_eq, msb_false_of_lt hv, msb_false_of_lt hd,
    BitVec.umod_eq]
  apply BitVec.eq_of_toNat_eq
  rw [BitVec.toNat_umod, BitVec.toNat_ofNat, Nat.mod_eq_of_lt (a := v.toNat % d.toNat) (b := 2 ^ 32) (by omega)]

/-- The sign word of a word: 0 for zero, −1 for a negative word, 1 for a positive one. -/
def signW (x : BitVec 32) : BitVec 32 := if x = 0 then 0 else if x.msb then -1 else 1

/-- The sign word of a positive word below 2³¹ is 1. -/
theorem signW_pos (x : BitVec 32) (h0 : 0 < x.toNat) (h : x.toNat < 2 ^ 31) : signW x = 1 := by
  have hx : ¬ x = 0#32 := by rintro rfl; simp at h0
  simp [signW, hx, msb_false_of_lt h]

/-- jnp's floor division at one element, operation by operation: the truncated quotient, lowered by one where the
signs of dividend and divisor differ and the remainder is not zero. -/
def floorDivW (v d : BitVec 32) : BitVec 32 :=
  Scalar.select
    (IntOp.andi (IntOp.cmpi .ne (signW v) (signW d)) (IntOp.cmpi .ne (IntOp.remsi .host v d) 0#32))
    (IntOp.subi (IntOp.divsi .host v d) 1#32) (IntOp.divsi .host v d)

/-- jnp's remainder at one element, operation by operation: a zero divisor is replaced by one; the truncated
remainder, raised by the divisor where its sign differs from the divisor's and it is not zero. -/
def remainderW (v d : BitVec 32) : BitVec 32 :=
  let d' := Scalar.select (IntOp.cmpi .eq d 0#32) 1#32 d
  let r := IntOp.remsi .host v d'
  Scalar.select
    (IntOp.andi (IntOp.cmpi .ne (IntOp.cmpi .slt r 0#32) (IntOp.cmpi .slt d' 0#32)) (IntOp.cmpi .ne r 0#32))
    (IntOp.addi r d') r

/-- Floor division of a word below 2³¹ by a positive word below 2³¹ is the quotient of the values: no correction
is made, because either the signs agree or the dividend (hence the remainder) is zero. -/
theorem floorDivW_eq (v d : BitVec 32) (hv : v.toNat < 2 ^ 31) (hd0 : 0 < d.toNat) (hd : d.toNat < 2 ^ 31) :
    floorDivW v d = BitVec.ofNat 32 (v.toNat / d.toNat) := by
  have hcond : IntOp.andi (IntOp.cmpi .ne (signW v) (signW d)) (IntOp.cmpi .ne (IntOp.remsi .host v d) 0#32) = 0#1 := by
    rw [signW_pos d hd0 hd, remsi_host_eq v d hv hd0 hd]
    by_cases hz : v.toNat = 0
    · have : IntOp.cmpi .ne (BitVec.ofNat 32 (v.toNat % d.toNat)) 0#32 = 0#1 := by
        rw [hz, Nat.zero_mod]; decide
      rw [this]; simp [IntOp.andi]
    · have : IntOp.cmpi .ne (signW v) 1 = 0#1 := by
        rw [signW_pos v (by omega) hv]; decide
      rw [this]; simp [IntOp.andi]
  unfold floorDivW
  rw [hcond, select_zero, divsi_host_eq v d hv hd0 hd]

/-- The remainder of a word below 2³¹ by a positive word below 2³¹ is the remainder of the values: the divisor is
not zero, and no correction is made because remainder and divisor are both non-negative. -/
theorem remainderW_eq (v d : BitVec 32) (hv : v.toNat < 2 ^ 31) (hd0 : 0 < d.toNat) (hd : d.toNat < 2 ^ 31) :
    remainderW v d = BitVec.ofNat 32 (v.toNat % d.toNat) := by
  have hdne : d ≠ 0#32 := by rintro rfl; simp at hd0
  have hd' : Scalar.select (IntOp.cmpi .eq d 0#32) 1#32 d = d := by
    have : IntOp.cmpi .eq d 0#32 = 0#1 := by
      simp only [IntOp.cmpi]
      have : (d == 0#32) = false := by simpa using hdne
      rw [this]; rfl
    rw [this, select_zero]
  have hr : IntOp.remsi .host v d = BitVec.ofNat 32 (v.toNat % d.toNat) := remsi_host_eq v d hv hd0 hd
  have hrlt : (BitVec.ofNat 32 (v.toNat % d.toNat)).toNat < 2 ^ 31 := by
    have := Nat.mod_lt v.toNat hd0
    rw [BitVec.toNat_ofNat, Nat.mod_eq_of_lt (a := v.toNat % d.toNat) (b := 2 ^ 32) (by omega)]; omega
  have hneg (a : BitVec 32) (ha : a.toNat < 2 ^ 31) : IntOp.cmpi .slt a 0#32 = 0#1 := by
    have h := (slt_iff_toNat (a := a) (b := 0#32) ha (by decide)).not
    have h1 : ¬ IntOp.cmpi .slt a 0#32 = 1#1 := h.mpr (by simp)
    revert h1; generalize IntOp.cmpi .slt a 0#32 = c; revert c; decide
  unfold remainderW
  simp only [hd', hr, hneg _ hrlt, hneg d hd]
  have : IntOp.cmpi .ne (0#1) (0#1) = 0#1 := by decide
  rw [this]
  simp [IntOp.andi, select_zero]

/-- A word below 2³¹ is not below zero as a signed number. -/
theorem slt_zero_false (a : BitVec 32) (ha : a.toNat < 2 ^ 31) : a.slt 0#32 = false := by
  have h := StableHlo.Predicate.slt_bool_iff_toNat (a := a) (b := 0#32) ha (by decide)
  cases hb : a.slt 0#32
  · rfl
  · rw [hb] at h
    exact absurd (h.mp rfl) (by simp)

/-- The signed comparison "below zero" of a word below 2³¹ is the zero bit. -/
theorem cmpi_slt_zero (a : BitVec 32) (ha : a.toNat < 2 ^ 31) : IntOp.cmpi .slt a 0#32 = 0#1 := by
  simp only [IntOp.cmpi, slt_zero_false a ha]; rfl

/-- The wrap of a negative index (add c where the word is below zero) leaves a word below 2³¹ as it is. -/
theorem wrapW_eq (v c : BitVec 32) (hv : v.toNat < 2 ^ 31) :
    Scalar.select (IntOp.cmpi .slt v 0#32) (IntOp.addi v c) v = v := by
  rw [cmpi_slt_zero v hv, select_zero]

/-- The signed maximum of zero and a word below 2³¹ is the word. -/
theorem maxsi_zero_left (v : BitVec 32) (hv : v.toNat < 2 ^ 31) : IntOp.maxsi 0#32 v = v := by
  simp [IntOp.maxsi, slt_zero_false v hv]

/-- Selecting on the signed comparison "position k at least the total", for a position and a total below 2³¹, is
selecting on the comparison of the values. -/
theorem fillW_eq {α : Type} (k : ℕ) (hk : k < 2 ^ 31) (total : BitVec 32) (ht : total.toNat < 2 ^ 31) (f x : α) :
    Scalar.select (IntOp.cmpi .sge (BitVec.ofNat 32 k) total) f x = if total.toNat ≤ k then f else x := by
  have hk' : (BitVec.ofNat 32 k).toNat = k := by rw [BitVec.toNat_ofNat]; exact Nat.mod_eq_of_lt (by omega)
  have h := sge_iff_toNat (a := BitVec.ofNat 32 k) (b := total) (by omega) ht
  rw [hk'] at h
  by_cases hle : total.toNat ≤ k
  · rw [h.mpr hle, select_one, if_pos hle]
  · have h1 : ¬ IntOp.cmpi .sge (BitVec.ofNat 32 k) total = 1#1 := fun hc => hle (h.mp hc)
    have h0 : IntOp.cmpi .sge (BitVec.ofNat 32 k) total = 0#1 := by
      revert h1; generalize IntOp.cmpi .sge (BitVec.ofNat 32 k) total = c; revert c; decide
    rw [h0, select_zero, if_neg hle]

/-! ## Vectors: the helpers operation by operation, and their values -/

/-- The shape of a scalar. -/
abbrev S0 : Shape := ⟨0, ![]⟩

/-- The one index of a scalar. -/
def i0 : S0.Idx := fun a => a.elim0

/-- A scalar broadcast to any shape reads the scalar at every index. -/
theorem bcast0_apply {α : Type} {t : Shape} (bc : S0.BroadcastsInDim t ![]) (x : S0.Idx → α) (j : t.Idx) :
    broadcastInDim t ![] bc x j = x i0 := by
  simp only [broadcastInDim]
  congr 1
  funext a
  exact a.elim0

variable {t : Shape} (bc : S0.BroadcastsInDim t ![])

/-- jnp's floor division of a vector by a scalar, operation by operation. -/
def floorDivide (v : IVec t 32) (d : IVec S0 32) : IVec t 32 :=
  let v0 := broadcastInDim t ![] bc d
  let v1 := Host.divsi v v0
  let v2 := signi v
  let v3 := signi d
  let v4 := broadcastInDim t ![] bc v3
  let v5 := cmpi .ne v2 v4
  let v6 := broadcastInDim t ![] bc d
  let v7 := Host.remsi v v6
  let c := constantI S0 32 0#32
  let v8 := broadcastInDim t ![] bc c
  let v9 := cmpi .ne v7 v8
  let v10 := andi v5 v9
  let c_0 := constantI S0 32 1#32
  let v11 := broadcastInDim t ![] bc c_0
  let v12 := subi v1 v11
  select v10 v12 v1

/-- jnp's remainder of a vector by a scalar, operation by operation. -/
def remainder (v : IVec t 32) (d : IVec S0 32) : IVec t 32 :=
  let v0 : IVec S0 32 := id d
  let c := constantI S0 32 0#32
  let v1 := cmpi .eq v0 c
  let c_0 := constantI S0 32 1#32
  let v2 := select v1 c_0 v0
  let v3 := broadcastInDim t ![] bc v2
  let v4 := Host.remsi v v3
  let c_1 := constantI S0 32 0#32
  let v5 := broadcastInDim t ![] bc c_1
  let v6 := cmpi .ne v4 v5
  let c_2 := constantI S0 32 0#32
  let v7 := broadcastInDim t ![] bc c_2
  let v8 := cmpi .slt v4 v7
  let c_3 := constantI S0 32 0#32
  let v9 := cmpi .slt v2 c_3
  let v10 := broadcastInDim t ![] bc v9
  let v11 := cmpi .ne v8 v10
  let v12 := andi v11 v6
  let v13 := broadcastInDim t ![] bc v2
  let v14 := addi v4 v13
  select v12 v14 v4

/-- The selection between a broadcast scalar and a vector, operation by operation. -/
def where4 (c : IVec t 1) (f : IVec S0 32) (x : IVec t 32) : IVec t 32 :=
  let v0 : IVec S0 32 := id f
  let v1 := broadcastInDim t ![] bc v0
  select c v1 x

/-- The clip below at a scalar, operation by operation. -/
def clipLo (v : IVec t 32) (lo : IVec S0 32) : IVec t 32 :=
  let v0 : IVec S0 32 := id lo
  let v1 := broadcastInDim t ![] bc v0
  maxsi v1 v

/-- The wrap of negative indices by a constant c, operation by operation. -/
def wrapNeg (v : IVec t 32) (c : BitVec 32) : IVec t 32 :=
  let z := broadcastInDim t ![] bc (constantI S0 32 0#32)
  let m := cmpi .slt v z
  let cc := broadcastInDim t ![] bc (constantI S0 32 c)
  let s := addi v cc
  select m s v

/-- Floor division of a vector by a scalar is, at each index, the one-element floor division. -/
theorem floorDivide_apply (v : IVec t 32) (d : IVec S0 32) (j : t.Idx) :
    floorDivide bc v d j = floorDivW (v j) (d i0) := by
  simp only [floorDivide, floorDivW, select, andi, cmpi, signi, signW, Host.divsi, Host.remsi, subi, constantI,
    bcast0_apply]

/-- The remainder of a vector by a scalar is, at each index, the one-element remainder. -/
theorem remainder_apply (v : IVec t 32) (d : IVec S0 32) (j : t.Idx) :
    remainder bc v d j = remainderW (v j) (d i0) := by
  simp only [remainder, remainderW, select, andi, addi, cmpi, Host.remsi, constantI, bcast0_apply, id]

/-- The selection between a broadcast scalar and a vector is the selection at each index. -/
theorem where4_apply (c : IVec t 1) (f : IVec S0 32) (x : IVec t 32) (j : t.Idx) :
    where4 bc c f x j = Scalar.select (c j) (f i0) (x j) := by
  simp only [where4, select, bcast0_apply, id]

/-- Floor division of a vector of words below 2³¹ by a positive scalar below 2³¹: the quotient of the values. -/
theorem floorDivide_eq (v : IVec t 32) (d : IVec S0 32) (hv : ∀ j, (v j).toNat < 2 ^ 31)
    (hd0 : 0 < (d i0).toNat) (hd : (d i0).toNat < 2 ^ 31) :
    floorDivide bc v d = fun j => BitVec.ofNat 32 ((v j).toNat / (d i0).toNat) := by
  funext j
  rw [floorDivide_apply, floorDivW_eq _ _ (hv j) hd0 hd]

/-- The remainder of a vector of words below 2³¹ by a positive scalar below 2³¹: the remainder of the values. -/
theorem remainder_eq (v : IVec t 32) (d : IVec S0 32) (hv : ∀ j, (v j).toNat < 2 ^ 31)
    (hd0 : 0 < (d i0).toNat) (hd : (d i0).toNat < 2 ^ 31) :
    remainder bc v d = fun j => BitVec.ofNat 32 ((v j).toNat % (d i0).toNat) := by
  funext j
  rw [remainder_apply, remainderW_eq _ _ (hv j) hd0 hd]

/-- Clipping a vector of words below 2³¹ below at zero changes nothing. -/
theorem clipLo_zero_eq (v : IVec t 32) (hv : ∀ j, (v j).toNat < 2 ^ 31) :
    clipLo bc v (constantI S0 32 0#32) = v := by
  funext j
  simp only [clipLo, maxsi, bcast0_apply, id, constantI]
  exact maxsi_zero_left _ (hv j)

/-- Wrapping the negative entries of a vector of words below 2³¹ changes nothing. -/
theorem wrapNeg_eq (v : IVec t 32) (c : BitVec 32) (hv : ∀ j, (v j).toNat < 2 ^ 31) :
    wrapNeg bc v c = v := by
  funext j
  simp only [wrapNeg, select, cmpi, addi, bcast0_apply, constantI]
  exact wrapW_eq _ _ (hv j)

/-- The fill past a total, operation by operation: where the position is at least the total (signed comparison
against the broadcast total), the broadcast scalar f; elsewhere the vector x. -/
def fillFrom {n : ℕ} (bc : S0.BroadcastsInDim ⟨1, ![n]⟩ ![]) (total f : IVec S0 32) (x : IVec ⟨1, ![n]⟩ 32) :
    IVec ⟨1, ![n]⟩ 32 :=
  let v18 := iotaInDim ⟨1, ![n]⟩ 32 0
  let v21 := broadcastInDim ⟨1, ![n]⟩ ![] bc total
  let v22 := cmpi .sge v18 v21
  where4 bc v22 f x

/-- For a vector of at most 2³¹ entries and a total below 2³¹, the fill past the total is: at a position at least
the total, the scalar f; before it, the vector's own entry. -/
theorem fillFrom_apply {n : ℕ} (bc : S0.BroadcastsInDim ⟨1, ![n]⟩ ![]) (total f : IVec S0 32)
    (x : IVec ⟨1, ![n]⟩ 32) (hn : n ≤ 2 ^ 31) (ht : (total i0).toNat < 2 ^ 31) (j : (⟨1, ![n]⟩ : Shape).Idx) :
    fillFrom bc total f x j = if (total i0).toNat ≤ (j 0).val then f i0 else x j := by
  have hj : (j 0).val < n := (j 0).isLt
  simp only [fillFrom, where4_apply, cmpi, iotaInDim]
  rw [bcast0_apply bc total j]
  exact fillW_eq (j 0).val (by omega) (total i0) ht (f i0) (x j)

/-! ## Constant divisors -/

/-- The value of a small natural number written as a word is the number. -/
theorem toNat_ofNat_of_lt (a : ℕ) (ha : a < 2 ^ 31) : (BitVec.ofNat 32 a).toNat = a := by
  rw [BitVec.toNat_ofNat]; exact Nat.mod_eq_of_lt (by omega)

/-- Floor division of a vector of words below 2³¹ by a positive constant below 2³¹. -/
theorem floorDivide_const_eq (v : IVec t 32) (c : BitVec 32) (hv : ∀ j, (v j).toNat < 2 ^ 31)
    (hc0 : 0 < c.toNat) (hc : c.toNat < 2 ^ 31) :
    floorDivide bc v (constantI S0 32 c) = fun j => BitVec.ofNat 32 ((v j).toNat / c.toNat) :=
  floorDivide_eq bc v (constantI S0 32 c) hv hc0 hc

/-- The remainder of a vector of words below 2³¹ by a positive constant below 2³¹. -/
theorem remainder_const_eq (v : IVec t 32) (c : BitVec 32) (hv : ∀ j, (v j).toNat < 2 ^ 31)
    (hc0 : 0 < c.toNat) (hc : c.toNat < 2 ^ 31) :
    remainder bc v (constantI S0 32 c) = fun j => BitVec.ofNat 32 ((v j).toNat % c.toNat) :=
  remainder_eq bc v (constantI S0 32 c) hv hc0 hc

/-- Floor division of a vector of words below 2³¹ by one is the vector. -/
theorem floorDivide_one_eq (v : IVec t 32) (hv : ∀ j, (v j).toNat < 2 ^ 31) :
    floorDivide bc v (constantI S0 32 1#32) = v := by
  rw [floorDivide_const_eq bc v 1#32 hv (by decide) (by decide)]
  funext j
  apply BitVec.eq_of_toNat_eq
  have h1 : (1#32 : BitVec 32).toNat = 1 := by decide
  rw [h1, Nat.div_one, toNat_ofNat_of_lt _ (hv j)]

/-- Row of a flat position: the floor division by 4096 followed by the remainder by 4096 of a vector of words
below 2³¹ is, at each index, the value divided by 4096 and reduced modulo 4096. -/
theorem rowOf_eq (v : IVec t 32) (hv : ∀ j, (v j).toNat < 2 ^ 31) :
    remainder bc (floorDivide bc v (constantI S0 32 4096#32)) (constantI S0 32 4096#32)
      = fun j => BitVec.ofNat 32 ((v j).toNat / 4096 % 4096) := by
  have h4 : (4096#32 : BitVec 32).toNat = 4096 := by decide
  rw [floorDivide_const_eq bc v 4096#32 hv (by decide) (by decide)]
  have hq : ∀ j, (BitVec.ofNat 32 ((v j).toNat / (4096#32 : BitVec 32).toNat)).toNat < 2 ^ 31 := by
    intro j
    have := hv j
    rw [h4, toNat_ofNat_of_lt _ (by omega)]; omega
  rw [remainder_const_eq bc _ 4096#32 hq (by decide) (by decide)]
  funext j
  have := hv j
  rw [h4, toNat_ofNat_of_lt _ (by omega)]

/-- Column of a flat position: the floor division by one followed by the remainder by 4096 of a vector of words
below 2³¹ is, at each index, the value reduced modulo 4096. -/
theorem colOf_eq (v : IVec t 32) (hv : ∀ j, (v j).toNat < 2 ^ 31) :
    remainder bc (floorDivide bc v (constantI S0 32 1#32)) (constantI S0 32 4096#32)
      = fun j => BitVec.ofNat 32 ((v j).toNat % 4096) := by
  have h4 : (4096#32 : BitVec 32).toNat = 4096 := by decide
  rw [floorDivide_one_eq bc v hv, remainder_const_eq bc v 4096#32 hv (by decide) (by decide), h4]

end Cert.LibWordDiv
-- ==== Proof.LibScatterSet.lean ====
/-
  A scatter whose combiner keeps the update ("set"), read at an index of the result.

  `Host.scatter` is a left fold over the update's indices in row-major order: each update index lands at a result
  index (or is dropped when it falls outside the operand) and the fold replaces the element there.  With the
  overwriting combiner `fun _ b => b` the result at `i` is therefore the update's element at the LAST update index
  landing at `i`, and the operand's element when none does.  When at most one update index lands at `i` — always so
  for one index vector whose window covers every axis — "last" needs no mention: that is what is stated here, first
  for any dimension numbers, then for a window that covers all axes and is moved along the leading axis only.
-/
import Idealize.ShloMosaic.PureOps.ShapeOps
import Idealize.ShloMosaic.PureOps.Dims

namespace Idealize.ShloMosaic

variable {α : Type} {s si u : Shape} {w : Nat}

/-- One step of the scatter's fold with the overwriting combiner. -/
private abbrev setStep (d : ScatterDims s si u) (idx : IVec si w) (upd : u.Idx → α) (r : s.Idx → α) (n : Fin u.numel) :
    s.Idx → α :=
  match d.resultIdx? (u.rowMajor.symm n) idx with
  | some i => fun i' => if i' = i then (fun _ b => b) (r i) (upd (u.rowMajor.symm n)) else r i'
  | none => r

private theorem setStep_ne (d : ScatterDims s si u) (idx : IVec si w) (upd : u.Idx → α) (r : s.Idx → α) (n : Fin u.numel)
    (i : s.Idx) (h : d.resultIdx? (u.rowMajor.symm n) idx ≠ some i) : setStep d idx upd r n i = r i := by
  unfold setStep
  generalize d.resultIdx? (u.rowMajor.symm n) idx = o at h ⊢
  cases o with
  | none => rfl
  | some i₀ =>
    have : i ≠ i₀ := fun e => h (e ▸ rfl)
    show (if i = i₀ then _ else r i) = r i
    rw [if_neg this]

private theorem setStep_eq (d : ScatterDims s si u) (idx : IVec si w) (upd : u.Idx → α) (r : s.Idx → α) (n : Fin u.numel)
    (i : s.Idx) (h : d.resultIdx? (u.rowMajor.symm n) idx = some i) : setStep d idx upd r n i = upd (u.rowMajor.symm n) := by
  unfold setStep
  generalize d.resultIdx? (u.rowMajor.symm n) idx = o at h ⊢
  cases o with
  | none => exact absurd h (by simp)
  | some i₀ =>
    have : i = i₀ := (Option.some.inj h).symm
    show (if i = i₀ then _ else r i) = _
    rw [if_pos this]

private theorem fold_miss (d : ScatterDims s si u) (idx : IVec si w) (upd : u.Idx → α) (i : s.Idx) :
    ∀ (l : List (Fin u.numel)) (r : s.Idx → α), (∀ n ∈ l, d.resultIdx? (u.rowMajor.symm n) idx ≠ some i) →
      l.foldl (setStep d idx upd) r i = r i
  | [], _, _ => rfl
  | n :: l, r, h => by
    rw [List.foldl_cons, fold_miss d idx upd i l _ fun n' hn' => h n' (List.mem_cons_of_mem _ hn'),
      setStep_ne d idx upd r n i (h n List.mem_cons_self)]

private theorem fold_hit (d : ScatterDims s si u) (idx : IVec si w) (upd : u.Idx → α) (i : s.Idx) (n₀ : Fin u.numel)
    (h₀ : d.resultIdx? (u.rowMajor.symm n₀) idx = some i) :
    ∀ (l : List (Fin u.numel)) (r : s.Idx → α), n₀ ∈ l → (∀ n ∈ l, d.resultIdx? (u.rowMajor.symm n) idx = some i → n = n₀) →
      l.foldl (setStep d idx upd) r i = upd (u.rowMajor.symm n₀)
  | [], _, hm, _ => absurd hm (by simp)
  | n :: l, r, hm, hu => by
    rw [List.foldl_cons]
    by_cases hl : n₀ ∈ l
    · exact fold_hit d idx upd i n₀ h₀ l _ hl fun n' hn' => hu n' (List.mem_cons_of_mem _ hn')
    · have hn : n = n₀ := by
        rcases List.mem_cons.1 hm with e | e
        · exact e.symm
        · exact absurd e hl
      rw [fold_miss d idx upd i l _ fun n' hn' e => hl (hu n' (List.mem_cons_of_mem _ hn') e ▸ hn'), hn,
        setStep_eq d idx upd r n₀ i h₀]

/-- The overwriting scatter at a result index `i` that exactly one update index `j` lands at: the update's element at `j`. -/
theorem Host.scatter_overwrite_hit (d : ScatterDims s si u) (x : s.Idx → α) (idx : IVec si w) (upd : u.Idx → α) (i : s.Idx)
    (j : u.Idx) (hj : d.resultIdx? j idx = some i) (huniq : ∀ j', d.resultIdx? j' idx = some i → j' = j) :
    Host.scatter d (fun _ b => b) x idx upd i = upd j := by
  have h := fold_hit d idx upd i (u.rowMajor j) (by rw [Equiv.symm_apply_apply]; exact hj) (List.finRange u.numel) x
    (List.mem_finRange _) (fun n _ hn => by rw [← huniq _ hn, Equiv.apply_symm_apply])
  rw [Equiv.symm_apply_apply] at h
  exact h

/-- The overwriting scatter at a result index no update index lands at: the operand's element. -/
theorem Host.scatter_overwrite_miss (d : ScatterDims s si u) (x : s.Idx → α) (idx : IVec si w) (upd : u.Idx → α) (i : s.Idx)
    (hmiss : ∀ j, d.resultIdx? j idx ≠ some i) : Host.scatter d (fun _ b => b) x idx upd i = x i :=
  fold_miss d idx upd i (List.finRange u.numel) x fun n _ => hmiss _

/-! ## Where an update index lands -/

/-- Update index `j` lands at `i` exactly when, on every axis, start plus window coordinate is `i`'s coordinate. -/
theorem ScatterDims.resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    by_cases hc : ∀ a, 0 ≤ d.start j idx a + (d.window j a : Int) ∧ d.start j idx a + (d.window j a : Int) < s.size a
    · rw [dif_pos hc] at h
      have e := congrArg Fin.val (congrFun (Option.some.inj h) a)
      have h0 := (hc a).1
      simp only at e
      omega
    · rw [dif_neg hc] at h
      exact absurd h (by simp)
  · intro h
    have hc : ∀ a, 0 ≤ d.start j idx a + (d.window j a : Int) ∧ d.start j idx a + (d.window j a : Int) < s.size a :=
      fun a => by rw [h a]; exact ⟨Int.natCast_nonneg _, by exact_mod_cast (i a).isLt⟩
    rw [dif_pos hc]
    congr 1
    funext a
    apply Fin.ext
    show (d.start j idx a + (d.window j a : Int)).toNat = (i a).val
    rw [h a, Int.toNat_natCast]

/-! ## One start on the leading axis, the window covering every axis

The operand and the update have the same rank; the update's coordinate on each axis is the window coordinate on that
axis (`hwin`); the start is `k` on the leading axis and zero on the others (`hstart`).  Both facts are read off the
dimension numbers of a printed scatter by evaluation.  Then update index `j` lands at `(k + j 0, j 1, …)`. -/

section Window

variable {n : Nat} {ds du : Fin (n + 1) → Nat}

/-- Inside the window: the result at `i` is the update at `j`, where `i 0 = k + j 0` and `i a = j a` on the other axes. -/
theorem Host.scatter_overwrite_window_in (d : ScatterDims ⟨n + 1, ds⟩ si ⟨n + 1, du⟩) (x : Shape.Idx ⟨n + 1, ds⟩ → α)
    (idx : IVec si w) (upd : Shape.Idx ⟨n + 1, du⟩ → α) (k : Int)
    (hstart : ∀ j a, d.start j idx a = if a = 0 then k else 0)
    (hwin : ∀ (j : Shape.Idx ⟨n + 1, du⟩) a, d.window j a = (j a).val)
    (i : Shape.Idx ⟨n + 1, ds⟩) (j : Shape.Idx ⟨n + 1, du⟩)
    (hj0 : ((i 0).val : Int) = k + ((j 0).val : Int)) (hja : ∀ a, a ≠ 0 → (i a).val = (j a).val) :
    Host.scatter d (fun _ b => b) x idx upd i = upd j := by
  refine Host.scatter_overwrite_hit d x idx upd i j ?_ ?_
  · rw [ScatterDims.resultIdx?_eq_some_iff]
    intro a
    rw [hstart, hwin]
    by_cases ha : a = 0
    · subst ha; rw [if_pos rfl]; exact hj0.symm
    · rw [if_neg ha, zero_add, hja a ha]
  · intro j' hj'
    rw [ScatterDims.resultIdx?_eq_some_iff] at hj'
    funext a
    apply Fin.ext
    have e := hj' a
    rw [hstart, hwin] at e
    by_cases ha : a = 0
    · subst ha; rw [if_pos rfl] at e; omega
    · rw [if_neg ha, zero_add] at e
      have := hja a ha
      omega

/-- Outside the window along the leading axis: the result at `i` is the operand's element. -/
theorem Host.scatter_overwrite_window_out (d : ScatterDims ⟨n + 1, ds⟩ si ⟨n + 1, du⟩) (x : Shape.Idx ⟨n + 1, ds⟩ → α)
    (idx : IVec si w) (upd : Shape.Idx ⟨n + 1, du⟩ → α) (k : Int)
    (hstart : ∀ j a, d.start j idx a = if a = 0 then k else 0)
    (hwin : ∀ (j : Shape.Idx ⟨n + 1, du⟩) a, d.window j a = (j a).val)
    (i : Shape.Idx ⟨n + 1, ds⟩) (hout : ((i 0).val : Int) < k ∨ k + (du 0 : Int) ≤ ((i 0).val : Int)) :
    Host.scatter d (fun _ b => b) x idx upd i = x i := by
  refine Host.scatter_overwrite_miss d x idx upd i fun j hj => ?_
  rw [ScatterDims.resultIdx?_eq_some_iff] at hj
  have e := hj 0
  rw [hstart, hwin, if_pos rfl] at e
  have hlt : (j 0).val < du 0 := (j 0).isLt
  omega

end Window

end Idealize.ShloMosaic
-- ==== Proof.Ref.FnIndex.lean ====
/-
  The reference's index arithmetic, its bias lookup and its one-hot array, each read at one element.

  With every index below its field's cardinality, an index plus its field's offset is a row number below 38279 of the
  concatenated table; such a word is not negative as a signed number, so the wrap of negative indices changes
  nothing, and neither does it for the batch row counter (below 4096). The lookup's start index at batch row b
  and field f is therefore [that row number, 0], in range, and the lookup reads the bias entry of that row. The
  scatter's index at (b, f) is [b, that row number]: update (b', f') lands at (b, j) exactly when b' = b and
  field f' of row b names row j. Distinct fields name distinct rows, so at most one update lands at any place, and
  the array the scatter builds from zeros has a one at (b, j) exactly when some field of batch row b names row j.
-/
import proofs.«416439_j75557064671821_3_alg».proof.Proof.Ref.Fn
import proofs.«416439_j75557064671821_3_alg».proof.Proof.FmSpec
import proofs.«416439_j75557064671821_3_alg».proof.Proof.LibWordDiv
import proofs.«416439_j75557064671821_3_alg».proof.Proof.LibScatterSet
import Idealize.ShloMosaic.Lib.Pipeline.Value
import Idealize.ShloMosaic.Lib.IdealHost
import Idealize.ShloMosaic.PureOps.Ideal.Laws

noncomputable section

namespace Cert.ReferenceIdeal.Fn

open Idealize.ShloMosaic Idealize.ShloMosaic.ValueIdx
open Cert.ReferenceIdeal Cert.ReferenceIdeal.Facts₀
open Cert.Fm (InRange grow grow_lt grow_injective off card)

variable {F : FTy → Type} [FloatOps F]

/-! ## Words -/

/-- A word below 2³¹ read as a signed number is its value. -/
theorem toInt_of_small (a : BitVec 32) (h : a.toNat < 2 ^ 31) : a.toInt = (a.toNat : Int) :=
  BitVec.toInt_eq_toNat_of_lt (by omega)

/-- A number below 2³¹ written as a word and read back as a signed number is the number. -/
theorem toInt_ofNat_small (n : ℕ) (hn : n < 2 ^ 31) : (BitVec.ofNat 32 n).toInt = (n : Int) := by
  have h : (BitVec.ofNat 32 n).toNat = n := Cert.LibWordDiv.toNat_ofNat_of_lt n hn
  rw [toInt_of_small _ (by rw [h]; exact hn), h]

/-- Every index of a matrix is a pair of coordinates. -/
theorem exists_ix2 {n0 n1 : ℕ} (j : (⟨2, ![n0, n1]⟩ : Shape).Idx) : ∃ (a : Fin n0) (b : Fin n1), j = ix2 a b :=
  ⟨j 0, j 1, eq_ix2 j⟩

/-! ## The offset indices -/

/-- The offsets array at (b, f) is field f's offset. -/
theorem offsAll_apply (b : Fin 4096) (f : Fin 4) : offsAll (ix2 b f) = BitVec.ofNat 32 (off f) := by
  have h1 : offsAll (ix2 b f) = offsRow (ix2 (0 : Fin 1) f) :=
    broadcastInDim_apply _ _ _ (ix2 b f) (ix2 (0 : Fin 1) f) (fun a => match a with | ⟨0, _⟩ => rfl | ⟨1, _⟩ => rfl)
  have h2 : offsRow (ix2 (0 : Fin 1) f) = offs (ix1 f) :=
    broadcastInDim_apply _ _ _ (ix2 (0 : Fin 1) f) (ix1 f) (fun a => match a with | ⟨0, _⟩ => rfl)
  have h3 : (S4.rowMajor (ix1 f) : Fin 4) = f := Fin.ext (Shape.rowMajor_val_one (ix1 f))
  rw [h1, h2]
  refine (congrArg lit0 h3).trans ?_
  fin_cases f <;> rfl

/-- The offset index at (b, f): the index plus the field's offset, as words. -/
theorem xo_apply (x : IVec S4096x4 32) (b : Fin 4096) (f : Fin 4) :
    xo x (ix2 b f) = x (ix2 b f) + BitVec.ofNat 32 (off f) := by
  show IntOp.addi (x (ix2 b f)) (offsAll (ix2 b f)) = _
  rw [offsAll_apply]; rfl

/-- Under the range condition the sum does not wrap: its value is the row the field names. -/
theorem xo_toNat {x : IVec S4096x4 32} (hx : InRange x) (b : Fin 4096) (f : Fin 4) :
    (xo x (ix2 b f)).toNat = grow x b f := by
  have hc : (x (ix2 b f)).toNat < card f := hx b f
  have ho : off f + card f ≤ 38279 := by fin_cases f <;> simp [off, card]
  rw [xo_apply, BitVec.toNat_add, BitVec.toNat_ofNat, Nat.mod_eq_of_lt (a := off f) (by omega),
    Nat.mod_eq_of_lt (by omega)]
  unfold grow; omega

/-- Every offset index is below 2³¹. -/
theorem xo_lt {x : IVec S4096x4 32} (hx : InRange x) (j : S4096x4.Idx) : (xo x j).toNat < 2 ^ 31 := by
  obtain ⟨b, f, rfl⟩ := exists_ix2 j
  rw [xo_toNat hx]
  have := grow_lt hx b f; omega

/-- The wrap of negative indices leaves the offset indices as they are. -/
theorem xoWrap_eq {x : IVec S4096x4 32} (hx : InRange x) : xoWrap x = xo x :=
  Cert.LibWordDiv.wrapNeg_eq bcast_S_S4096x4 (xo x) 38279#32 (xo_lt hx)

/-- The row counter at (b, ·) is b. -/
theorem rowIota_apply (b : Fin 4096) (u : Fin 1) : rowIota (ix2 b u) = BitVec.ofNat 32 b.val := by
  have h : rowIota (ix2 b u) = iotaInDim S4096 32 0 (ix1 b) :=
    broadcastInDim_apply _ _ _ (ix2 b u) (ix1 b) (fun a => match a with | ⟨0, _⟩ => rfl)
  rw [h]; rfl

/-- The wrap leaves the row counter as it is. -/
theorem rowWrap_apply (b : Fin 4096) (u : Fin 1) : rowWrap (ix2 b u) = BitVec.ofNat 32 b.val := by
  have hw : rowWrap = rowIota := Cert.LibWordDiv.wrapNeg_eq bcast_S_S4096x1 rowIota 4096#32 (fun j => by
    obtain ⟨b', u', rfl⟩ := exists_ix2 j
    have hj : b'.val < 4096 := b'.isLt
    rw [rowIota_apply, BitVec.toNat_ofNat]; omega)
  rw [hw, rowIota_apply]

/-! ## The two index arrays -/

/-- A [4096, 4] array given a trailing unit axis reads the same entry. -/
theorem lift3 (v : IVec S4096x4 32) (b : Fin 4096) (f : Fin 4) :
    broadcastInDim S4096x4x1 ![0, 1] bcast_S4096x4_S4096x4x1_0_1 v (ix3 b f (0 : Fin 1)) = v (ix2 b f) :=
  broadcastInDim_apply _ _ _ _ (ix2 b f) (fun a => match a with | ⟨0, _⟩ => rfl | ⟨1, _⟩ => rfl)

/-- The lookup's start index, first component: the wrapped offset index. -/
theorem gatherIdx_row (x : IVec S4096x4 32) (b : Fin 4096) (f : Fin 4) :
    gatherIdx x (ix3 b f (0 : Fin 2)) = xoWrap x (ix2 b f) := by
  unfold gatherIdx
  refine (concatenate_pair_apply_left (s₁ := S4096x4x1) (s₂ := S4096x4x1) _ _ _ _ (ix3 b f (0 : Fin 2)) rfl (ix3 b f (0 : Fin 1))
    (fun a => match a with | ⟨0, _⟩ => rfl | ⟨1, _⟩ => rfl | ⟨2, _⟩ => rfl)).trans ?_
  exact lift3 _ b f

/-- The scatter's index, first component: the batch row. -/
theorem scatterIdx_row (x : IVec S4096x4 32) (b : Fin 4096) (f : Fin 4) :
    scatterIdx x (ix3 b f (0 : Fin 2)) = BitVec.ofNat 32 b.val := by
  unfold scatterIdx
  refine (concatenate_pair_apply_left (s₁ := S4096x4x1) (s₂ := S4096x4x1) _ _ _ _ (ix3 b f (0 : Fin 2)) rfl (ix3 b f (0 : Fin 1))
    (fun a => match a with | ⟨0, _⟩ => rfl | ⟨1, _⟩ => rfl | ⟨2, _⟩ => rfl)).trans ?_
  refine (lift3 _ b f).trans ?_
  refine (broadcastInDim_apply _ _ _ (ix2 b f) (ix2 b (0 : Fin 1))
    (fun a => match a with | ⟨0, _⟩ => rfl | ⟨1, _⟩ => rfl)).trans ?_
  exact rowWrap_apply b 0

/-- The scatter's index, second component: the wrapped offset index. -/
theorem scatterIdx_col (x : IVec S4096x4 32) (b : Fin 4096) (f : Fin 4) :
    scatterIdx x (ix3 b f (1 : Fin 2)) = xoWrap x (ix2 b f) := by
  unfold scatterIdx
  refine (concatenate_pair_apply_right (s₁ := S4096x4x1) (s₂ := S4096x4x1) _ _ _ _ (ix3 b f (1 : Fin 2)) rfl rfl (ix3 b f (0 : Fin 1))
    (fun a ha => match a, ha with
      | ⟨0, _⟩, _ => rfl
      | ⟨1, _⟩, _ => rfl
      | ⟨2, _⟩, ha => absurd (Fin.ext rfl) ha) rfl).trans ?_
  exact lift3 _ b f

/-! ## The lookup -/

/-- The operand index of the lookup at (b, f), when the start index's first component is the row g in range:
    [g, 0]. Both operand axes are collapsed and both are named by the start index; the second has extent one. -/
theorem gather_operandIdx (idx : IVec S4096x4x2 32) (b : Fin 4096) (f : Fin 4) (g : ℕ) (hg : g < 38279)
    (h : (idx (ix3 b f (0 : Fin 2))).toInt.toNat = g) :
    gather_S38279x1_S4096x4x2_S4096x4_n_01_n_n_01_2_11.operandIdx (ix2 b f) idx = ix2 ⟨g, hg⟩ (0 : Fin 1) := by
  funext a
  refine Fin.ext ?_
  match a with
  | ⟨0, _⟩ =>
    show gather_S38279x1_S4096x4x2_S4096x4_n_01_n_n_01_2_11.start (ix2 b f) idx 0
        + gather_S38279x1_S4096x4x2_S4096x4_n_01_n_n_01_2_11.batchCoord (ix2 b f) 0
        + gather_S38279x1_S4096x4x2_S4096x4_n_01_n_n_01_2_11.offCoord (ix2 b f) 0 = g
    have hm : (0 : Fin S38279x1.rank) ∈ gather_S38279x1_S4096x4x2_S4096x4_n_01_n_n_01_2_11.startIndexMap :=
      List.mem_cons_self
    rw [GatherDims.batchCoord_eq_zero _ _ _ List.not_mem_nil,
      GatherDims.offCoord_eq_zero _ _ _ (fun hk => ((GatherDims.mem_sKept _ _).mp hk).1 List.mem_cons_self)]
    unfold GatherDims.start
    rw [dif_pos hm]
    have hsi : gather_S38279x1_S4096x4x2_S4096x4_n_01_n_n_01_2_11.siIdx (ix2 b f)
        ⟨List.idxOf (0 : Fin S38279x1.rank) gather_S38279x1_S4096x4x2_S4096x4_n_01_n_n_01_2_11.startIndexMap,
          List.idxOf_lt_length_iff.2 hm⟩ = ix3 b f (0 : Fin 2) := by
      funext c; refine Fin.ext ?_
      match c with
      | ⟨0, _⟩ => rfl
      | ⟨1, _⟩ => rfl
      | ⟨2, _⟩ => rfl
    rw [hsi, h]
    show min g (38279 - 1) + 0 + 0 = g
    omega
  | ⟨1, h1⟩ =>
    have hlt : (gather_S38279x1_S4096x4x2_S4096x4_n_01_n_n_01_2_11.operandIdx (ix2 b f) idx ⟨1, h1⟩).val < 1 :=
      (gather_S38279x1_S4096x4x2_S4096x4_n_01_n_n_01_2_11.operandIdx (ix2 b f) idx ⟨1, h1⟩).isLt
    show (gather_S38279x1_S4096x4x2_S4096x4_n_01_n_n_01_2_11.operandIdx (ix2 b f) idx ⟨1, h1⟩).val = 0
    omega

/-- The looked-up bias entry at (b, f): the entry of the row field f of batch row b names. -/
theorem biasRows_apply {x : IVec S4096x4 32} (hx : InRange x) (bias : FVec F S38279x1 .f32) (b : Fin 4096) (f : Fin 4) :
    biasRows x bias (ix2 b f) = bias (ix2 ⟨grow x b f, grow_lt hx b f⟩ (0 : Fin 1)) := by
  have hidx : (gatherIdx x (ix3 b f (0 : Fin 2))).toInt.toNat = grow x b f := by
    rw [gatherIdx_row, xoWrap_eq hx, toInt_of_small _ (xo_lt hx _), Int.toNat_natCast, xo_toNat hx]
  unfold biasRows Host.gather
  rw [gather_operandIdx (gatherIdx x) b f (grow x b f) (grow_lt hx b f) hidx]

/-! ## The one-hot array -/

/-- The scatter's start on the first operand axis for update (b', f'): the index's first component, read signed. -/
theorem scatter_start0 (idx : IVec S4096x4x2 32) (b' : Fin 4096) (f' : Fin 4) :
    scatter_S4096x38279_S4096x4x2_S4096x4_n_01_01_2.start (ix2 b' f') idx 0 = (idx (ix3 b' f' (0 : Fin 2))).toInt := by
  have hm : (0 : Fin S4096x38279.rank) ∈ scatter_S4096x38279_S4096x4x2_S4096x4_n_01_01_2.scatterDimsToOperandDims :=
    List.mem_cons_self
  unfold ScatterDims.start
  rw [dif_pos hm]
  have hsi : scatter_S4096x38279_S4096x4x2_S4096x4_n_01_01_2.siIdx (ix2 b' f')
      ⟨List.idxOf (0 : Fin S4096x38279.rank) scatter_S4096x38279_S4096x4x2_S4096x4_n_01_01_2.scatterDimsToOperandDims,
        List.idxOf_lt_length_iff.2 hm⟩ = ix3 b' f' (0 : Fin 2) := by
    funext c; refine Fin.ext ?_
    match c with
    | ⟨0, _⟩ => rfl
    | ⟨1, _⟩ => rfl
    | ⟨2, _⟩ => rfl
  rw [hsi]

/-- The scatter's start on the second operand axis for update (b', f'): the index's second component, read signed. -/
theorem scatter_start1 (idx : IVec S4096x4x2 32) (b' : Fin 4096) (f' : Fin 4) :
    scatter_S4096x38279_S4096x4x2_S4096x4_n_01_01_2.start (ix2 b' f') idx 1 = (idx (ix3 b' f' (1 : Fin 2))).toInt := by
  have hm : (1 : Fin S4096x38279.rank) ∈ scatter_S4096x38279_S4096x4x2_S4096x4_n_01_01_2.scatterDimsToOperandDims :=
    List.mem_cons_of_mem _ List.mem_cons_self
  unfold ScatterDims.start
  rw [dif_pos hm]
  have hsi : scatter_S4096x38279_S4096x4x2_S4096x4_n_01_01_2.siIdx (ix2 b' f')
      ⟨List.idxOf (1 : Fin S4096x38279.rank) scatter_S4096x38279_S4096x4x2_S4096x4_n_01_01_2.scatterDimsToOperandDims,
        List.idxOf_lt_length_iff.2 hm⟩ = ix3 b' f' (1 : Fin 2) := by
    funext c; refine Fin.ext ?_
    match c with
    | ⟨0, _⟩ => rfl
    | ⟨1, _⟩ => rfl
    | ⟨2, _⟩ => rfl
  rw [hsi]

/-- The scatter has no window: both operand axes are inserted. -/
theorem scatter_window (j' : S4096x4.Idx) (a : Fin 2) :
    scatter_S4096x38279_S4096x4x2_S4096x4_n_01_01_2.window j' a = 0 := by
  fin_cases a <;> rfl

/-- Update (b', f') lands at (b, j) exactly when the index's components, read signed, are b and j. -/
theorem scatter_lands (idx : IVec S4096x4x2 32) (b' : Fin 4096) (f' : Fin 4) (b : Fin 4096) (j : Fin 38279) :
    scatter_S4096x38279_S4096x4x2_S4096x4_n_01_01_2.resultIdx? (ix2 b' f') idx = some (ix2 b j) ↔
      (idx (ix3 b' f' (0 : Fin 2))).toInt = (b.val : Int) ∧ (idx (ix3 b' f' (1 : Fin 2))).toInt = (j.val : Int) := by
  rw [ScatterDims.resultIdx?_eq_some_iff]
  constructor
  · intro h
    have h0 := h 0
    have h1 := h 1
    rw [scatter_start0, scatter_window, Nat.cast_zero, add_zero] at h0
    rw [scatter_start1, scatter_window, Nat.cast_zero, add_zero] at h1
    exact ⟨h0, h1⟩
  · rintro ⟨h0, h1⟩ a
    match a with
    | ⟨0, _⟩ =>
      show scatter_S4096x38279_S4096x4x2_S4096x4_n_01_01_2.start (ix2 b' f') idx 0
        + (scatter_S4096x38279_S4096x4x2_S4096x4_n_01_01_2.window (ix2 b' f') 0 : Int) = (b.val : Int)
      rw [scatter_start0, scatter_window, Nat.cast_zero, add_zero]; exact h0
    | ⟨1, _⟩ =>
      show scatter_S4096x38279_S4096x4x2_S4096x4_n_01_01_2.start (ix2 b' f') idx 1
        + (scatter_S4096x38279_S4096x4x2_S4096x4_n_01_01_2.window (ix2 b' f') 1 : Int) = (j.val : Int)
      rw [scatter_start1, scatter_window, Nat.cast_zero, add_zero]; exact h1

/-- Under the range condition update (b', f') lands at (b, j) exactly when b' = b and field f' of row b' names j. -/
theorem onehot_lands {x : IVec S4096x4 32} (hx : InRange x) (b' : Fin 4096) (f' : Fin 4) (b : Fin 4096) (j : Fin 38279) :
    scatter_S4096x38279_S4096x4x2_S4096x4_n_01_01_2.resultIdx? (ix2 b' f') (scatterIdx x) = some (ix2 b j) ↔
      b' = b ∧ grow x b' f' = j.val := by
  have hb' : b'.val < 4096 := b'.isLt
  rw [scatter_lands, scatterIdx_row, scatterIdx_col, xoWrap_eq hx, toInt_ofNat_small _ (by omega),
    toInt_of_small _ (xo_lt hx _), xo_toNat hx]
  constructor
  · rintro ⟨h0, h1⟩
    exact ⟨Fin.ext (by exact_mod_cast h0), by exact_mod_cast h1⟩
  · rintro ⟨h0, h1⟩
    exact ⟨by rw [h0], by exact_mod_cast h1⟩

/-- The one-hot array at (b, j): one when some field of batch row b names row j, zero otherwise. -/
theorem onehot_apply {x : IVec S4096x4 32} (hx : InRange x) (b : Fin 4096) (j : Fin 38279) :
    onehot (F := Ideal) x (ix2 b j) = if ∃ f : Fin 4, grow x b f = j.val then 1 else 0 := by
  unfold onehot
  split_ifs with hex
  · obtain ⟨f, hf⟩ := hex
    rw [Host.scatter_overwrite_hit _ _ _ _ (ix2 b j) (ix2 b f) ((onehot_lands hx b f b j).2 ⟨rfl, hf⟩) (fun j' hj' => by
      obtain ⟨b', f', rfl⟩ := exists_ix2 j'
      obtain ⟨hb, hg⟩ := (onehot_lands hx b' f' b j).1 hj'
      subst hb
      have hf' : f' = f := grow_injective hx b' (hg.trans hf.symm)
      rw [hf'])]
    show Ideal.ofBits .f32 0x3F800000#32 = 1
    exact Ideal.ofBits_one_f32
  · rw [Host.scatter_overwrite_miss _ _ _ _ (ix2 b j) (fun j' hj' => hex (by
      obtain ⟨b', f', rfl⟩ := exists_ix2 j'
      obtain ⟨hb, hg⟩ := (onehot_lands hx b' f' b j).1 hj'
      subst hb
      exact ⟨f', hg⟩))]
    show Ideal.ofBits .f32 0x00000000#32 = 0
    exact Ideal.ofBits_zero_f32

end Cert.ReferenceIdeal.Fn

end
-- ==== Proof.LibPlainDot.lean ====
/-
  A plain matrix product read at an element, on the extended reals.

  For the dimension numbers of a plain product — `[M, K]` by `[K, N]`, the left operand's axis 1 contracted with the
  right operand's axis 0, no batch axes — the operand indices at output element `(a, b)` and contraction coordinate
  `k` are `(a, k)` and `(k, b)`. So a product accumulated into the zero splat is, at `(a, b)`, the plain sum
  `∑ k : Fin K, lhs (a, k) * rhs (k, b)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a plain product `[M, K] × [K, N] → [M, N]`: `lhs_contracting = [1]`,
    `rhs_contracting = [0]`, the other axes the result's, no batch axes. At a printed record every field is `rfl`. -/
structure PlainDot {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {d : DotDims ⟨2, ![M, K]⟩ ⟨2, ![K, N]⟩ ⟨2, ![M, N]⟩}

/-- A plain product contracts one axis. -/
theorem PlainDot.rank_contr (hd : PlainDot d) : d.contr.rank = 1 := by
  rw [d.rank_contr, hd.lc]; rfl

/-- The contracted axis has extent `K`. -/
theorem PlainDot.size_contr (hd : PlainDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem PlainDot.lhs0 (hd : PlainDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem PlainDot.lhs1 (hd : PlainDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the contraction coordinate. -/
theorem PlainDot.rhs0 (hd : PlainDot d) (i : (⟨2, ![M, N]⟩ : Shape).Idx) (q : d.contr.Idx) :
    (d.rhsIdx i q 0).val = (q ⟨0, by rw [hd.rank_contr]; exact Nat.one_pos⟩).val :=
  d.rhsIdx_val_of_single hd.rc i q

/-- The right operand's column is the output's column. -/
theorem PlainDot.rhs1 (hd : PlainDot d) (i : (⟨2, ![M, N]⟩ : Shape).Idx) (q : d.contr.Idx) :
    (d.rhsIdx i q 1).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The contraction of a plain product, re-indexed by the contracted coordinate: at output element `(a, b)` it is
    `∑ k : Fin K, lhs (a, k) * rhs (k, b)`. -/
theorem PlainDot.sum_contr (hd : PlainDot d) (lhs : (⟨2, ![M, K]⟩ : Shape).Idx → EReal)
    (rhs : (⟨2, ![K, N]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 k b) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 k b :=
    funext fun x => Fin.ext (by
      match x with
      | ⟨0, _⟩ => exact (hd.rhs0 _ _).trans hk
      | ⟨1, _⟩ => exact hd.rhs1 _ _)
  rw [el, er]

/-- A plain product accumulated into the zero splat, at element `(a, b)`: `∑ k, lhs (a, k) * rhs (k, b)`. -/
theorem PlainDot.matmul_zero_apply (hd : PlainDot d) {φ₁ φ₂ : FTy} (prec : Option ContractPrecision)
    (lhs : FVec Ideal ⟨2, ![M, K]⟩ φ₁) (rhs : FVec Ideal ⟨2, ![K, N]⟩ φ₂) (a : Fin M) (b : Fin N) :
    FloatOps.matmul d prec lhs rhs (constant ⟨2, ![M, N]⟩ .f32 0x00000000#32) (ix2 a b)
      = ∑ k : Fin K, lhs (ix2 a k) * rhs (ix2 k b) :=
  (Ideal.matmul_constant_zero_apply d prec lhs rhs (ix2 a b)).trans (hd.sum_contr lhs rhs a b)

/-- The host's plain `dot_general` at element `(a, b)`: the same sum. -/
theorem PlainDot.dotGeneral_apply (hd : PlainDot d) {φ₁ φ₂ : FTy} (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) :=
  (Ideal.dotGeneral_apply d prec sched lhs rhs (ix2 a b)).trans (hd.sum_contr lhs rhs a b)

end Cert.Lib

end
-- ==== Proof.Ref.FnValue.lean ====
/-
  The reference's result is the logistic of the factorization machine's logit.

  The one-hot array of batch row b has a one exactly at the four rows its fields name, and these are four distinct
  rows; so its product with any table, at (b, k), is the sum over the four fields of the table's entries at those
  rows, and since a 0/1 entry is its own square the same holds for the squared one-hot array. The two row sums are
  plain finite sums. All the entries that occur are real numbers, so every sum, product and difference is the
  extended real of the same expression over the reals, which is the logit as specified; and one over one plus the
  exponential of the negated logit is the logistic by definition.
-/
import proofs.«416439_j75557064671821_3_alg».proof.Proof.Ref.FnIndex
import proofs.«416439_j75557064671821_3_alg».proof.Proof.LibPlainDot
import proofs.«416439_j75557064671821_3_alg».proof.Proof.LibMaskSum
import proofs.«416439_j75557064671821_3_alg».proof.Proof.LibRowReduce
import proofs.«416439_j75557064671821_3_alg».proof.Proof.FmConsts

noncomputable section

open scoped BigOperators

namespace Cert.ReferenceIdeal.Fn

open Idealize.ShloMosaic Idealize.ShloMosaic.ValueIdx
open Cert.ReferenceIdeal Cert.ReferenceIdeal.Facts₀
open Cert.Fm (InRange grow grow_lt grow_injective vAt bAt)

/-! ## Constants and coercions -/

/-- The pattern of one half denotes the real number one half. -/
theorem ofBits_half : Ideal.ofBits .f32 0x3F000000#32 = ((1 / 2 : ℝ) : EReal) := Cert.Fm.half_word

/-- The coercion of the reals into the extended reals commutes with finite sums. -/
theorem coe_sum {ι : Type} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A finite table entry is the coercion of its real value. -/
theorem v_eq {v : FVec Ideal S38279x16 .f32} (hv : Cert.Fm.Finite v) (g : ℕ) (hg : g < 38279) (k : Fin 16) :
    v (ix2 ⟨g, hg⟩ k) = ((vAt v g k : ℝ) : EReal) := by
  unfold vAt; rw [dif_pos hg]; exact (hv.coe_toReal _).symm

/-- A finite bias entry is the coercion of its real value. -/
theorem bias_eq {bias : FVec Ideal S38279x1 .f32} (hb : Cert.Fm.Finite bias) (g : ℕ) (hg : g < 38279) :
    bias (ix2 ⟨g, hg⟩ (0 : Fin 1)) = ((bAt bias g : ℝ) : EReal) := by
  unfold bAt; rw [dif_pos hg]; exact (hb.coe_toReal _).symm

/-! ## Sums against the one-hot array -/

/-- A sum over all rows weighted by the one-hot array of batch row b is the sum over the four rows its fields name. -/
theorem sum_onehot_mul {x : IVec S4096x4 32} (hx : InRange x) (b : Fin 4096) (w : Fin 38279 → EReal) :
    ∑ j : Fin 38279, (if ∃ f : Fin 4, grow x b f = j.val then (1 : EReal) else 0) * w j
      = ∑ f : Fin 4, w ⟨grow x b f, grow_lt hx b f⟩ := by
  rw [Cert.Lib.sum_maskP_mul]
  refine (Finset.sum_congr
    (s₂ := Finset.univ.image (fun f : Fin 4 => (⟨grow x b f, grow_lt hx b f⟩ : Fin 38279))) ?_ (fun _ _ => rfl)).trans ?_
  · ext j
    simp only [Finset.mem_filter, Finset.mem_univ, true_and, Finset.mem_image]
    constructor
    · rintro ⟨f, hf⟩; exact ⟨f, Fin.ext hf⟩
    · rintro ⟨f, hf⟩; exact ⟨f, congrArg Fin.val hf⟩
  · rw [Finset.sum_image]
    intro f _ f' _ h
    exact grow_injective hx b (congrArg Fin.val h)

/-- The printed dimension numbers are those of a plain product. -/
theorem plainDot : Cert.Lib.PlainDot (M := 4096) (K := 38279) (N := 16) dot_S4096x38279_S38279x16_S4096x16_1_0_0_1_n_n :=
  ⟨rfl, rfl, rfl, rfl, rfl, rfl⟩

/-- The one-hot array times the table at (b, k): the sum over the fields of the named rows' k-th coordinates. -/
theorem sumV_apply {x : IVec S4096x4 32} (hx : InRange x) (v : FVec Ideal S38279x16 .f32) (b : Fin 4096) (k : Fin 16) :
    sumV x v (ix2 b k) = ∑ f : Fin 4, v (ix2 ⟨grow x b f, grow_lt hx b f⟩ k) := by
  unfold sumV
  refine (plainDot.dotGeneral_apply none .single (onehot x) v b k).trans ?_
  refine (Finset.sum_congr rfl fun j _ => ?_).trans (sum_onehot_mul hx b (fun j => v (ix2 j k)))
  rw [onehot_apply hx]

/-- The squared one-hot array times the squared table at (b, k): the sum over the fields of the squares. -/
theorem sqS_apply {x : IVec S4096x4 32} (hx : InRange x) (v : FVec Ideal S38279x16 .f32) (b : Fin 4096) (k : Fin 16) :
    sqS x v (ix2 b k)
      = ∑ f : Fin 4, v (ix2 ⟨grow x b f, grow_lt hx b f⟩ k) * v (ix2 ⟨grow x b f, grow_lt hx b f⟩ k) := by
  unfold sqS
  refine (plainDot.dotGeneral_apply none .single _ _ b k).trans ?_
  refine (Finset.sum_congr rfl fun j _ => ?_).trans (sum_onehot_mul hx b (fun j => v (ix2 j k) * v (ix2 j k)))
  show onehot x (ix2 b j) * onehot x (ix2 b j) * (v (ix2 j k) * v (ix2 j k)) = _
  rw [onehot_apply hx]
  split_ifs <;> simp

/-! ## The two row sums -/

/-- The host's sum along the rows of a matrix, at row r: the initial value plus the finite sum of the row. -/
theorem hostRowSum {a n : ℕ} (src : FVec Ideal ⟨2, ![a, n]⟩ .f32) (init : S_.Idx → Ideal .f32)
    (h' : (⟨2, ![a, n]⟩ : Shape).ReducesTo [1] ⟨1, ![a]⟩) (h : (⟨2, ![a, n]⟩ : Shape).Reduces [1] ⟨1, ![a]⟩)
    (hu : 0 < S_.numel) (r : Fin a) :
    Host.reduceAdd src init h' hu (ix1 r) = init (Shape.Idx.first hu) + ∑ k : Fin n, src (ix2 r k) :=
  (Ideal.hostReduceAdd_single h' h src (init (Shape.Idx.first hu)) (ix1 r)).trans
    (congrArg (init (Shape.Idx.first hu) + ·)
      (Finset.sum_congr rfl fun k _ => congrArg src (Cert.RowReduce.lift_row h r k)))

/-- The bias term of batch row b: the sum of the four named bias entries. -/
theorem biasTerm_apply {x : IVec S4096x4 32} (hx : InRange x) (bias : FVec Ideal S38279x1 .f32) (b : Fin 4096) :
    biasTerm x bias (ix1 b) = ∑ f : Fin 4, bias (ix2 ⟨grow x b f, grow_lt hx b f⟩ (0 : Fin 1)) := by
  unfold biasTerm
  rw [hostRowSum (a := 4096) (n := 4) _ _ _ (by decide) _ b, constant_apply, Ideal.ofBits_zero_f32, zero_add]
  exact Finset.sum_congr rfl fun f _ => biasRows_apply hx bias b f

/-- The interaction term of batch row b. -/
theorem fm_apply {x : IVec S4096x4 32} (hx : InRange x) (v : FVec Ideal S38279x16 .f32) (b : Fin 4096) :
    fm x v (ix1 b) = ((1 / 2 : ℝ) : EReal) * ∑ k : Fin 16,
      ((∑ f : Fin 4, v (ix2 ⟨grow x b f, grow_lt hx b f⟩ k)) * (∑ f : Fin 4, v (ix2 ⟨grow x b f, grow_lt hx b f⟩ k))
        - ∑ f : Fin 4, v (ix2 ⟨grow x b f, grow_lt hx b f⟩ k) * v (ix2 ⟨grow x b f, grow_lt hx b f⟩ k)) := by
  unfold fm
  rw [mulf_apply, broadcastInDim_scalar_apply, constant_apply, ofBits_half,
    hostRowSum (a := 4096) (n := 16) _ _ _ (by decide) _ b, constant_apply, Ideal.ofBits_zero_f32, zero_add]
  refine congrArg (((1 / 2 : ℝ) : EReal) * ·) (Finset.sum_congr rfl fun k _ => ?_)
  show sumV x v (ix2 b k) * sumV x v (ix2 b k) - sqS x v (ix2 b k) = _
  rw [sumV_apply hx, sqS_apply hx]

/-! ## The logit and the result -/

/-- The reference's logit of batch row b is the specified logit, a real number. -/
theorem logit_apply {x : IVec S4096x4 32} (hx : InRange x) {v : FVec Ideal S38279x16 .f32} (hv : Cert.Fm.Finite v)
    {bias : FVec Ideal S38279x1 .f32} (hb : Cert.Fm.Finite bias) (b : Fin 4096) :
    logit x v bias (ix1 b) = ((Cert.Fm.logit x v bias b : ℝ) : EReal) := by
  show biasTerm x bias (ix1 b) + fm x v (ix1 b) = _
  rw [biasTerm_apply hx, fm_apply hx]
  simp only [v_eq hv, bias_eq hb]
  simp only [← EReal.coe_mul, ← coe_sum, ← EReal.coe_sub, ← EReal.coe_add]
  unfold Cert.Fm.logit
  simp only [sq]

/-- The reference's result is the specified one. -/
theorem result_eq_G (x : IVec S4096x4 32) (v : FVec Ideal S38279x16 .f32) (bias : FVec Ideal S38279x1 .f32)
    (hx : Cert.Fm.InRange x) (hv : Cert.Fm.Finite v) (hb : Cert.Fm.Finite bias) :
    Cert.ReferenceIdeal.Fn.result (F := Ideal) x v bias = Cert.Fm.G x v bias := by
  funext i
  obtain ⟨b, u, rfl⟩ := exists_ix2 i
  rw [Cert.Fm.G_apply]
  have h1 : result (F := Ideal) x v bias (ix2 b u) = sigm x v bias (ix1 b) :=
    broadcastInDim_apply _ _ _ _ (ix1 b) (fun a => match a with | ⟨0, _⟩ => rfl)
  have h2 : oneRow (F := Ideal) (ix1 b) = 1 := by
    unfold oneRow
    rw [broadcastInDim_scalar_apply, constant_apply, Ideal.ofBits_one_f32]
  rw [h1]
  show Ideal.div (oneRow (F := Ideal) (ix1 b)) (oneRow (F := Ideal) (ix1 b) + Ideal.exp (-(logit x v bias (ix1 b)))) = _
  rw [h2, logit_apply hx hv hb]
  rfl

end Cert.ReferenceIdeal.Fn

end
-- ==== Proof.PreDecode.lean ====
/-
  What the printed input condition says about the three argument arrays.

  The condition is a conjunction of four "for every element" tests, each an and-reduction of a one-bit array down to
  a scalar, and the claim's hypothesis is that the scalar is 1. Read back at one element:

  * |v| < +inf and |bias| < +inf, where |t| is max t (-t) on the extended reals and +inf is the pattern 0x7F800000:
    an extended real whose absolute value is below the top element is neither the top nor the bottom element, so
    every entry of the embedding table and of the bias column is a real number;
  * x >= 0 and x < sizes, compared as signed 32-bit words, where sizes is the row [31360, 6807, 18, 94] laid along
    the field axis: a word that is signed-nonnegative and signed-below a number under 2^31 is, read unsigned, below
    that number, so every index of field f is below field f's cardinality.
-/
import proofs.«416439_j75557064671821_3_alg».proof.Proof.Gen.Pre_finite_inputs
import proofs.«416439_j75557064671821_3_alg».proof.Proof.FmSpec
import proofs.«416439_j75557064671821_3_alg».proof.Proof.FmConsts
import Idealize.ShloMosaic.Lib.ReduceAll
import Idealize.ShloMosaic.Lib.StableHlo.Predicate
import Idealize.ShloMosaic.Lib.WordArith
import Idealize.ShloMosaic.PureOps.Ideal

noncomputable section

namespace Cert.Fm.Pre

open Idealize.ShloMosaic Idealize.ShloMosaic.ValueIdx Idealize.ShloMosaic.StableHlo.Predicate
open Cert.Pre_finite_inputs

/-- The scalar shape has one index. -/
instance : Subsingleton S_.Idx := ⟨fun a b => funext fun d => d.elim0⟩

/-! ## The two element facts -/

/-- The pattern 0x7F800000 (exponent all ones, fraction zero, sign clear) is the top element. -/
theorem inf_bits : Ideal.ofBits .f32 0x7F800000#32 = (⊤ : EReal) := Cert.Fm.inf_word

/-- An extended real whose absolute value compares below +inf is a real number. -/
theorem real_of_abs_lt_inf (t : EReal)
    (h : Ideal.cmp .olt (max t (-t)) (Ideal.ofBits .f32 0x7F800000#32) = 1#1) : t ≠ ⊤ ∧ t ≠ ⊥ := by
  rw [inf_bits] at h
  have h' : max t (-t) < ⊤ := of_decide_eq_true ((ofBool_eq_one_iff _).1 h)
  constructor
  · rintro rfl
    simp at h'
  · rintro rfl
    simp at h'

/-- A word that is at least 0 and below the number k < 2^31, both compared signed, is below k read unsigned. -/
theorem toNat_lt_of_signed_range (w : BitVec 32) (k : ℕ) (hk : k < 2 ^ 31) (h0 : IntOp.cmpi .sge w 0#32 = 1#1)
    (hs : IntOp.cmpi .slt w (BitVec.ofNat 32 k) = 1#1) : w.toNat < k :=
  WordArith.toNat_lt_of_zero_sle_of_slt_ofNat w k hk ((ofBool_eq_one_iff (BitVec.sle 0#32 w)).1 h0)
    ((ofBool_eq_one_iff (BitVec.slt w (BitVec.ofNat 32 k))).1 hs)

/-- The row of cardinalities laid along the field axis of the [4096, 4] rectangle reads, at (b, f), field f's
    cardinality. -/
theorem sizes_at (b : Fin 4096) (f : Fin 4) :
    broadcastInDim S4096x4 ![0, 1] Facts.bcast_S1x4_S4096x4_0_1
        (broadcastInDim S1x4 ![1] Facts.bcast_S4_S1x4_1 (fun i : S4.Idx => lit0 (S4.rowMajor i))) (ix2 b f)
      = BitVec.ofNat 32 (card f) := by
  refine (bcast_cols (n := 4096) (m := 4) Facts.bcast_S4_S1x4_1 Facts.bcast_S1x4_S4096x4_0_1
    (fun i : S4.Idx => lit0 (S4.rowMajor i)) b f).trans ?_
  have e : (S4.rowMajor (Shape.Idx.ofFin f) : Fin 4) = f := Fin.ext (by rw [Shape.rowMajor_val_one]; rfl)
  show lit0 (S4.rowMajor (Shape.Idx.ofFin f)) = _
  rw [e]
  fin_cases f <;> rfl

theorem card_small (f : Fin 4) : card f < 2 ^ 31 := by
  fin_cases f <;> simp [card]

/-! ## The condition, decoded -/

/-- The printed input condition gives: every index below its field's cardinality, every table entry and every
    bias entry a real number. -/
theorem pre_decode (x : IVec Cert.Pre_finite_inputs.S4096x4 32) (v : FVec Ideal Cert.Pre_finite_inputs.S38279x16 .f32)
    (bias : FVec Ideal Cert.Pre_finite_inputs.S38279x1 .f32)
    (h : Cert.Pre_finite_inputs.fn (F := Ideal) x v bias = fun _ => 1#1) :
    Cert.Fm.InRange x ∧ Cert.Fm.Finite v ∧ Cert.Fm.Finite bias := by
  have e := congrFun h ValueIdx.ix0
  dsimp only [Cert.Pre_finite_inputs.fn, Cert.Pre_finite_inputs.fn_part1] at e
  simp only [andi, IntOp.andi_eq_one] at e
  obtain ⟨⟨⟨hv, hb⟩, hx0⟩, hx1⟩ := e
  refine ⟨fun b f => ?_, fun i => ?_, fun i => ?_⟩
  · have h0 := Host.reduce_andi_all _ _ _ _ _ hx0 (ix2 b f)
    have h1 := Host.reduce_andi_all _ _ _ _ _ hx1 (ix2 b f)
    have h0' : IntOp.cmpi .sge (x (ix2 b f)) 0#32 = 1#1 := h0
    have h1' : IntOp.cmpi .slt (x (ix2 b f)) (BitVec.ofNat 32 (card f)) = 1#1 := by
      rw [← sizes_at b f]
      exact h1
    exact toNat_lt_of_signed_range _ _ (card_small f) h0' h1'
  · exact real_of_abs_lt_inf (v i) (Host.reduce_andi_all _ _ _ _ _ hv i)
  · exact real_of_abs_lt_inf (bias i) (Host.reduce_andi_all _ _ _ _ _ hb i)

end Cert.Fm.Pre

end
-- ==== Proof.lean ====
/-
  A factorization machine over four categorical fields, computed two ways, and the certificate that the two agree.

  The reference adds the fields' offsets to the index array, gathers the four bias entries of a row and sums them, scatters
  ones into a [4096, 38279] array of zeros at the row's four columns, multiplies that one-hot array with the embedding
  table and its square with the table's squares, and takes the logistic of bias sum plus half the sum over the sixteen
  coordinates of (square of sum minus sum of squares). The kernel program widens each table row to its coordinates, their
  squares and its bias, lays each field's rows out as a zero-padded transposed table, and at each of eight grid points
  accumulates, per field, the product of one-hot rows (a compare of the field's index with the lane number) with the
  field's table, tile by tile; the accumulated row then holds exactly the sums the reference forms, and the same final
  arithmetic follows.

  With every index inside its own field's cardinality the four columns of a row are distinct and both computations
  reduce, entry by entry, to the same real logit under the logistic; the inputs being finite, all sums are sums of
  real numbers. That is the value claim. The frame claims - each program runs to the end, faults nowhere and leaves its
  arguments as they were - come from the region's run for the two kernel programs and from the host operations' run for
  the reference. The idealization rewrote nothing.
-/
import proofs.«416439_j75557064671821_3_alg».proof.Defs
import proofs.«416439_j75557064671821_3_alg».proof.Proof.Gen.Kernel
import proofs.«416439_j75557064671821_3_alg».proof.Proof.Gen.KernelIdeal
import proofs.«416439_j75557064671821_3_alg».proof.Proof.Gen.ReferenceIdeal
import proofs.«416439_j75557064671821_3_alg».proof.Proof.Gen.Pre_finite_inputs
import proofs.«416439_j75557064671821_3_alg».proof.Proof.FrKernel.Frame
import proofs.«416439_j75557064671821_3_alg».proof.Proof.FrKernelIdeal.KernelValue
import proofs.«416439_j75557064671821_3_alg».proof.Proof.Ref.Run
import proofs.«416439_j75557064671821_3_alg».proof.Proof.Ref.FnValue
import proofs.«416439_j75557064671821_3_alg».proof.Proof.PreDecode
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_p : Cert.frame_Kernel := fun m ρ _ => Cert.Kernel.Fr.frame m ρ

/-- So does its idealization. -/
theorem frame_pi : Cert.frame_KernelIdeal := fun m ρ _ => Cert.KernelIdeal.Fr.frame m ρ

/-- So does the reference: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote no operation. -/
theorem preserves : Cert.preserves_Kernel_KernelIdeal := trivial

/-- Both idealized programs end with the logistic of each row's logit in their result array. -/
theorem algebraic : Cert.algebraic_KernelIdeal_ReferenceIdeal := by
  intro m ρ m' ρ' hpre hagree
  have hdec : ∀ c : Dev Cert.KernelIdeal.nD, Cert.Fm.InRange (Cert.KernelIdeal.Fr.xA m c)
      ∧ Cert.Fm.Finite (Cert.KernelIdeal.Fr.vA m c) ∧ Cert.Fm.Finite (Cert.KernelIdeal.Fr.bA m c) :=
    fun c => Cert.Fm.Pre.pre_decode _ _ _ (hpre c)
  refine ⟨fun c => Cert.Fm.G (Cert.KernelIdeal.Fr.xA m c) (Cert.KernelIdeal.Fr.vA m c) (Cert.KernelIdeal.Fr.bA m c),
    Cert.KernelIdeal.Fr.kernel_run m ρ hdec, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2]
  exact Cert.ReferenceIdeal.Fn.result_eq_G _ _ _ (hdec c).1 (hdec c).2.1 (hdec c).2.2

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
